-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S128x1024 .f32 .bf16
  ∧ IdealRules.truncf_extf.Statement Cert.KernelIdeal.S1024x2048 .f32 .bf16
  ∧ IdealRules.truncf_extf.Statement Cert.KernelIdeal.S128x2048 .f32 .bf16
  ∧ IdealRules.truncf_extf.Statement Cert.KernelIdeal.S2048x512 .f32 .bf16
  ∧ IdealRules.truncf_extf.Statement Cert.KernelIdeal.S128x512 .f32 .bf16
  ∧ IdealRules.truncf_extf.Statement Cert.KernelIdeal.S512x512 .f32 .bf16
  ∧ IdealRules.truncf_extf.Statement Cert.KernelIdeal.S128x512 .f32 .bf16
  ∧ IdealRules.truncf_extf.Statement Cert.KernelIdeal.S512x10 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x16384 : Shape := ⟨2, ![128, 16384]⟩
abbrev S2x1048576 : Shape := ⟨2, ![2, 1048576]⟩
abbrev S1048576 : Shape := ⟨1, ![1048576]⟩
abbrev S512x16384 : Shape := ⟨2, ![512, 16384]⟩
abbrev S512 : Shape := ⟨1, ![512]⟩
abbrev S512x512 : Shape := ⟨2, ![512, 512]⟩
abbrev S10x512 : Shape := ⟨2, ![10, 512]⟩
abbrev S10 : Shape := ⟨1, ![10]⟩
abbrev S_ : Shape := ⟨0, ![]⟩

class Facts : Prop where
  bcast_S_S128x16384 : S_.BroadcastsInDim S128x16384 (![] : Fin 0 → Fin S128x16384.rank)
  reducesTo_S128x16384_S_d0_1 : S128x16384.ReducesTo [0, 1] S_
  h_S_ : 0 < S_.numel
  bcast_S_S1048576 : S_.BroadcastsInDim S1048576 (![] : Fin 0 → Fin S1048576.rank)
  reducesTo_S1048576_S_d0 : S1048576.ReducesTo [0] S_
  bcast_S_S512x16384 : S_.BroadcastsInDim S512x16384 (![] : Fin 0 → Fin S512x16384.rank)
  reducesTo_S512x16384_S_d0_1 : S512x16384.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S10x512 : S_.BroadcastsInDim S10x512 (![] : Fin 0 → Fin S10x512.rank)
  reducesTo_S10x512_S_d0_1 : S10x512.ReducesTo [0, 1] S_
  bcast_S_S10 : S_.BroadcastsInDim S10 (![] : Fin 0 → Fin S10.rank)
  reducesTo_S10_S_d0 : S10.ReducesTo [0] S_
  bcast_S_S2x1048576 : S_.BroadcastsInDim S2x1048576 (![] : Fin 0 → Fin S2x1048576.rank)
  reducesTo_S2x1048576_S_d0_1 : S2x1048576.ReducesTo [0, 1] S_

variable [Facts]

def fn_part2 {F : FTy → Type} [FloatOps F] (main_arg1 : IVec S2x1048576 32) (main_arg8 : FVec F S10 .f32) (main_v33 : IVec S_ 1) : IVec S_ 1 :=
  let main_v34 : FVec F S10 .f32 := Host.absf main_arg8
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  let main_c_14 : IVec S_ 32 := constantI S_ 32 0#32
  let main_v39 : IVec S2x1048576 32 := broadcastInDim S2x1048576 ![] bcast_S_S2x1048576 main_c_14
  let main_v40 : IVec S2x1048576 1 := cmpi .sge main_arg1 main_v39
  let main_c_15 : IVec S_ 1 := constantI S_ 1 1#1
  let main_v41 : IVec S_ 1 := (fun x v => Host.reduce IntOp.andi x v reducesTo_S2x1048576_S_d0_1 h_S_) main_v40 main_c_15
  let main_v42 : IVec S_ 1 := andi main_v38 main_v41
  let main_c_16 : IVec S_ 32 := constantI S_ 32 16384#32
  let main_v43 : IVec S2x1048576 32 := broadcastInDim S2x1048576 ![] bcast_S_S2x1048576 main_c_16
  let main_v44 : IVec S2x1048576 1 := cmpi .slt main_arg1 main_v43
  let main_c_17 : IVec S_ 1 := constantI S_ 1 1#1
  let main_v45 : IVec S_ 1 := (fun x v => Host.reduce IntOp.andi x v reducesTo_S2x1048576_S_d0_1 h_S_) main_v44 main_c_17
  let main_v46 : IVec S_ 1 := andi main_v42 main_v45
  main_v46

def fn_part1 {F : FTy → Type} [FloatOps F] (main_arg1 : IVec S2x1048576 32) (main_arg5 : FVec F S512x512 .f32) (main_arg6 : FVec F S512 .f32) (main_arg7 : FVec F S10x512 .f32) (main_arg8 : FVec F S10 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S10x512 .f32 := Host.absf main_arg7
  let main_cst_10 : FVec F S_ .f32 := constant S_ .f32 0x7F800000#32
  let main_v30 : FVec F S10x512 .f32 := broadcastInDim S10x512 ![] bcast_S_S10x512 main_cst_10
  let main_v31 : IVec S10x512 1 := cmpf .olt main_v29 main_v30
  let main_c_11 : IVec S_ 1 := constantI S_ 1 1#1
  let main_v32 : IVec S_ 1 := (fun x v => Host.reduce IntOp.andi x v reducesTo_S10x512_S_d0_1 h_S_) main_v31 main_c_11
  let main_v33 : IVec S_ 1 := andi main_v28 main_v32
  fn_part2 (F := F) main_arg1 main_arg8 main_v33

def fn {F : FTy → Type} [FloatOps F] (main_arg0 : FVec F S128x16384 .f32) (main_arg1 : IVec S2x1048576 32) (main_arg2 : FVec F S1048576 .f32) (main_arg3 : FVec F S512x16384 .f32) (main_arg4 : FVec F S512 .f32) (main_arg5 : FVec F S512x512 .f32) (main_arg6 : FVec F S512 .f32) (main_arg7 : FVec F S10x512 .f32) (main_arg8 : FVec F S10 .f32) : IVec S_ 1 :=
  let main_v0 : FVec F S128x16384 .f32 := Host.absf main_arg0
  let main_cst : FVec F S_ .f32 := constant S_ .f32 0x7F800000#32
  let main_v1 : FVec F S128x16384 .f32 := broadcastInDim S128x16384 ![] bcast_S_S128x16384 main_cst
  let main_v2 : IVec S128x16384 1 := cmpf .olt main_v0 main_v1
  let main_c : IVec S_ 1 := constantI S_ 1 1#1
  let main_v3 : IVec S_ 1 := (fun x v => Host.reduce IntOp.andi x v reducesTo_S128x16384_S_d0_1 h_S_) main_v2 main_c
  let main_v4 : FVec F S1048576 .f32 := Host.absf main_arg2
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_v9 : FVec F S512x16384 .f32 := Host.absf main_arg3
  let main_cst_2 : FVec F S_ .f32 := constant S_ .f32 0x7F800000#32
  let main_v10 : FVec F S512x16384 .f32 := broadcastInDim S512x16384 ![] bcast_S_S512x16384 main_cst_2
  let main_v11 : IVec S512x16384 1 := cmpf .olt main_v9 main_v10
  let main_c_3 : IVec S_ 1 := constantI S_ 1 1#1
  let main_v12 : IVec S_ 1 := (fun x v => Host.reduce IntOp.andi x v reducesTo_S512x16384_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_arg5 main_arg6 main_arg7 main_arg8 main_v13 main_v16
-- ==== Kernel.lean ====
abbrev S128x16384 : Shape := ⟨2, ![128, 16384]⟩
abbrev S2x1048576 : Shape := ⟨2, ![2, 1048576]⟩
abbrev S1048576 : Shape := ⟨1, ![1048576]⟩
abbrev S512x16384 : Shape := ⟨2, ![512, 16384]⟩
abbrev S512 : Shape := ⟨1, ![512]⟩
abbrev S512x512 : Shape := ⟨2, ![512, 512]⟩
abbrev S10x512 : Shape := ⟨2, ![10, 512]⟩
abbrev S10 : Shape := ⟨1, ![10]⟩
abbrev S1x1048576 : Shape := ⟨2, ![1, 1048576]⟩
abbrev S16384 : Shape := ⟨1, ![16384]⟩
abbrev S1064960 : Shape := ⟨1, ![1064960]⟩
abbrev S_ : Shape := ⟨0, ![]⟩
abbrev S1064960x1 : Shape := ⟨2, ![1064960, 1]⟩
abbrev S268435456 : Shape := ⟨1, ![268435456]⟩
abbrev S16384x16384 : Shape := ⟨2, ![16384, 16384]⟩
abbrev S128x1024 : Shape := ⟨2, ![128, 1024]⟩
abbrev S1024x2048 : Shape := ⟨2, ![1024, 2048]⟩
abbrev S128x2048 : Shape := ⟨2, ![128, 2048]⟩
abbrev S16384x512 : Shape := ⟨2, ![16384, 512]⟩
abbrev S512x10 : Shape := ⟨2, ![512, 10]⟩
abbrev S1x512 : Shape := ⟨2, ![1, 512]⟩
abbrev S1x10 : Shape := ⟨2, ![1, 10]⟩
abbrev S128x10 : Shape := ⟨2, ![128, 10]⟩
abbrev S2048x512 : Shape := ⟨2, ![2048, 512]⟩
abbrev S128x512 : Shape := ⟨2, ![128, 512]⟩

abbrev nBuf : Space → Nat
  | .hbm => 71
  | .vmem => 18
  | .smem => 0
  | _ => 0

abbrev bufTy : (tb : Table) → Fin (tcTables nBuf tb) → BufTy
  | .hbm, ⟨0, _⟩ => ⟨S128x16384, .f32⟩
  | .hbm, ⟨1, _⟩ => ⟨S2x1048576, .i32⟩
  | .hbm, ⟨2, _⟩ => ⟨S1048576, .f32⟩
  | .hbm, ⟨3, _⟩ => ⟨S512x16384, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S10x512, .f32⟩
  | .hbm, ⟨8, _⟩ => ⟨S10, .f32⟩
  | .hbm, ⟨9, _⟩ => ⟨S1x1048576, .i32⟩
  | .hbm, ⟨10, _⟩ => ⟨S1048576, .i32⟩
  | .hbm, ⟨11, _⟩ => ⟨S1x1048576, .i32⟩
  | .hbm, ⟨12, _⟩ => ⟨S1048576, .i32⟩
  | .hbm, ⟨13, _⟩ => ⟨S16384, .i32⟩
  | .hbm, ⟨14, _⟩ => ⟨S1064960, .i32⟩
  | .hbm, ⟨15, _⟩ => ⟨S1064960, .i32⟩
  | .hbm, ⟨16, _⟩ => ⟨S_, .f32⟩
  | .hbm, ⟨17, _⟩ => ⟨S16384, .f32⟩
  | .hbm, ⟨18, _⟩ => ⟨S1064960, .f32⟩
  | .hbm, ⟨19, _⟩ => ⟨S_, .f32⟩
  | .hbm, ⟨20, _⟩ => ⟨S16384, .f32⟩
  | .hbm, ⟨21, _⟩ => ⟨S1064960x1, .i32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .i1⟩
  | .hbm, ⟨26, _⟩ => ⟨S_, .f32⟩
  | .hbm, ⟨27, _⟩ => ⟨S16384, .f32⟩
  | .hbm, ⟨28, _⟩ => ⟨S16384, .f32⟩
  | .hbm, ⟨29, _⟩ => ⟨S16384, .f32⟩
  | .hbm, ⟨30, _⟩ => ⟨S_, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S_, .i32⟩
  | .hbm, ⟨35, _⟩ => ⟨S1064960, .i32⟩
  | .hbm, ⟨36, _⟩ => ⟨S1064960, .i1⟩
  | .hbm, ⟨37, _⟩ => ⟨S_, .i32⟩
  | .hbm, ⟨38, _⟩ => ⟨S1064960, .i32⟩
  | .hbm, ⟨39, _⟩ => ⟨S1064960, .i32⟩
  | .hbm, ⟨40, _⟩ => ⟨S1064960, .i32⟩
  | .hbm, ⟨41, _⟩ => ⟨S1064960x1, .i32⟩
  | .hbm, ⟨42, _⟩ => ⟨S1064960, .f32⟩
  | .hbm, ⟨43, _⟩ => ⟨S1064960, .f32⟩
  | .hbm, ⟨44, _⟩ => ⟨S_, .i32⟩
  | .hbm, ⟨45, _⟩ => ⟨S1064960, .i32⟩
  | .hbm, ⟨46, _⟩ => ⟨S1064960, .i1⟩
  | .hbm, ⟨47, _⟩ => ⟨S_, .i32⟩
  | .hbm, ⟨48, _⟩ => ⟨S1064960, .i32⟩
  | .hbm, ⟨49, _⟩ => ⟨S1064960, .i32⟩
  | .hbm, ⟨50, _⟩ => ⟨S1064960, .i32⟩
  | .hbm, ⟨51, _⟩ => ⟨S1064960x1, .i32⟩
  | .hbm, ⟨52, _⟩ => ⟨S1064960, .f32⟩
  | .hbm, ⟨53, _⟩ => ⟨S1064960, .f32⟩
  | .hbm, ⟨54, _⟩ => ⟨S_, .i32⟩
  | .hbm, ⟨55, _⟩ => ⟨S1064960, .i32⟩
  | .hbm, ⟨56, _⟩ => ⟨S1064960, .i32⟩
  | .hbm, ⟨57, _⟩ => ⟨S1064960, .i32⟩
  | .hbm, ⟨58, _⟩ => ⟨S_, .f32⟩
  | .hbm, ⟨59, _⟩ => ⟨S268435456, .f32⟩
  | .hbm, ⟨60, _⟩ => ⟨S1064960x1, .i32⟩
  | .hbm, ⟨61, _⟩ => ⟨S268435456, .f32⟩
  | .hbm, ⟨62, _⟩ => ⟨S16384x16384, .f32⟩
  | .hbm, ⟨63, _⟩ => ⟨S128x16384, .f32⟩
  | .hbm, ⟨64, _⟩ => ⟨S16384x512, .f32⟩
  | .hbm, ⟨65, _⟩ => ⟨S512x512, .f32⟩
  | .hbm, ⟨66, _⟩ => ⟨S512x10, .f32⟩
  | .hbm, ⟨67, _⟩ => ⟨S1x512, .f32⟩
  | .hbm, ⟨68, _⟩ => ⟨S1x512, .f32⟩
  | .hbm, ⟨69, _⟩ => ⟨S1x10, .f32⟩
  | .hbm, ⟨70, _⟩ => ⟨S128x10, .f32⟩
  | .local _ .vmem, ⟨0, _⟩ => ⟨S128x1024, .f32⟩
  | .local _ .vmem, ⟨1, _⟩ => ⟨S128x1024, .f32⟩
  | .local _ .vmem, ⟨2, _⟩ => ⟨S1024x2048, .f32⟩
  | .local _ .vmem, ⟨3, _⟩ => ⟨S1024x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S2048x512, .f32⟩
  | .local _ .vmem, ⟨10, _⟩ => ⟨S2048x512, .f32⟩
  | .local _ .vmem, ⟨11, _⟩ => ⟨S1x512, .f32⟩
  | .local _ .vmem, ⟨12, _⟩ => ⟨S512x512, .f32⟩
  | .local _ .vmem, ⟨13, _⟩ => ⟨S1x512, .f32⟩
  | .local _ .vmem, ⟨14, _⟩ => ⟨S512x10, .f32⟩
  | .local _ .vmem, ⟨15, _⟩ => ⟨S1x10, .f32⟩
  | .local _ .vmem, ⟨16, _⟩ => ⟨S128x10, .f32⟩
  | .local _ .vmem, ⟨17, _⟩ => ⟨S128x512, .f32⟩
  | _, _ => ⟨S128x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v24 : BitVec 1 := Scalar.cmpi .eq arg1 c15_i32
  let v25 : BitVec 32 := Scalar.extui v24
  let c0_i32_10 : BitVec 32 := 0#32
  let v26 : BitVec 1 := Scalar.cmpi .ne v25 c0_i32_10
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v25 : BitVec 1 := Scalar.cmpi .eq arg0 c7_i32
  let v26 : BitVec 32 := Scalar.extui v25
  let c0_i32_10 : BitVec 32 := 0#32
  let v27 : BitVec 1 := Scalar.cmpi .ne v26 c0_i32_10
  v27

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x10 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x10 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  concatenates_S1048576_S16384_S1064960_d0 : Shape.Concatenates [S1048576, S16384] S1064960 0
  bcast_S_S16384 : S_.BroadcastsInDim S16384 (![] : Fin 0 → Fin S16384.rank)
  bcast_S1064960_S1064960x1_0 : S1064960.BroadcastsInDim S1064960x1 (![0] : Fin 1 → Fin S1064960x1.rank)
  bcast_S_S1064960 : S_.BroadcastsInDim S1064960 (![] : Fin 0 → Fin S1064960.rank)
  bcast_S_S268435456 : S_.BroadcastsInDim S268435456 (![] : Fin 0 → Fin S268435456.rank)
  shapeCasts_S268435456_S16384x16384 : S268435456.ShapeCasts S16384x16384
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S128x1024_S128x1024_0_0 : ∀ a, (![0, 0] : Fin 2 → Nat) a + S128x1024.size a ≤ S128x1024.size a
  h_S128x1024 : 0 < S128x1024.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  bitsLt_bf16_f32 : FTy.bits .bf16 < FTy.bits .f32
  transposes_S512x16384_S16384x512_1_0 : S512x16384.Transposes [1, 0] S16384x512
  transposes_S512x512_S512x512_1_0 : S512x512.Transposes [1, 0] S512x512
  transposes_S10x512_S512x10_1_0 : S10x512.Transposes [1, 0] S512x10
  shapeCasts_S512_S1x512 : S512.ShapeCasts S1x512
  shapeCasts_S10_S1x10 : S10.ShapeCasts S1x10
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x10_S512x10_0_0 : ∀ a, (![0, 0] : Fin 2 → Nat) a + S512x10.size a ≤ S512x10.size a
  h_S512x10 : 0 < S512x10.numel
  shapeCasts_S512x10_S512x10 : S512x10.ShapeCasts S512x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  inb_S128x10_S128x10_0_0 : ∀ a, (![0, 0] : Fin 2 → Nat) a + S128x10.size a ≤ S128x10.size a
  h_S128x10 : 0 < S128x10.numel
  scatter_S16384_S1064960x1_S1064960_n_0_0_1_wf : ScatterDims.WF S16384 S1064960x1 S1064960 [] [0] [0] 1
  gather_S16384_S1064960x1_S1064960_n_0_n_n_0_1_1_wf : GatherDims.WF S16384 S1064960x1 S1064960 [] [0] [] [0] [] 1 ![1]
  scatter_S268435456_S1064960x1_S1064960_n_0_0_1_wf : ScatterDims.WF S268435456 S1064960x1 S1064960 [] [0] [0] 1
  dot_S128x1024_S1024x2048_S128x2048_1_0_0_1_n_n_wf : DotDims.WF S128x1024 S1024x2048 S128x2048 [1] [0] [0] [1] [] []
  dot_S128x2048_S2048x512_S128x512_1_0_0_1_n_n_wf : DotDims.WF S128x2048 S2048x512 S128x512 [1] [0] [0] [1] [] []
  dot_S128x512_S512x512_S128x512_1_0_0_1_n_n_wf : DotDims.WF S128x512 S512x512 S128x512 [1] [0] [0] [1] [] []
  dot_S128x512_S512x10_S128x10_1_0_0_1_n_n_wf : DotDims.WF S128x512 S512x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S128x16384.size a
  hwx0_0 : ∀ i : grid0.Coords, EltTy.bits .f32 = 32 ∨ (Rect.block (s := S128x16384) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x16384.size a
  hwx0_1 : ∀ i : grid0.Coords, EltTy.bits .f32 = 32 ∨ (Rect.block (s := S16384x16384) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S128x16384.size a
  hwx0_2 : ∀ i : grid0.Coords, EltTy.bits .f32 = 32 ∨ (Rect.block (s := S128x16384) S128x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x2048.size a ≤ S128x16384.size a
  hwx1_0 : ∀ i : grid1.Coords, EltTy.bits .f32 = 32 ∨ (Rect.block (s := S128x16384) S128x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S16384x512.size a
  hwx1_1 : ∀ i : grid1.Coords, EltTy.bits .f32 = 32 ∨ (Rect.block (s := S16384x512) S2048x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x10.size a ≤ S512x10.size a
  hwx1_5 : ∀ i : grid1.Coords, EltTy.bits .f32 = 32 ∨ (Rect.block (s := S512x10) S512x10.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x10.size a ≤ S1x10.size a
  hwx1_6 : ∀ i : grid1.Coords, EltTy.bits .f32 = 32 ∨ (Rect.block (s := S1x10) S1x10.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x10.size a ≤ S128x10.size a
  hwx1_7 : ∀ i : grid1.Coords, EltTy.bits .f32 = 32 ∨ (Rect.block (s := S128x10) S128x10.size (cc1_transform_7 i) (hinb1_7 i)).WholeWords (EltTy.packing .f32)

variable [Facts₀]

def scatter_S16384_S1064960x1_S1064960_n_0_0_1 : ScatterDims S16384 S1064960x1 S1064960 where
  updateWindowDims := []
  insertedWindowDims := [0]
  scatterDimsToOperandDims := [0]
  indexVectorDim := 1
  wf := scatter_S16384_S1064960x1_S1064960_n_0_0_1_wf
def gather_S16384_S1064960x1_S1064960_n_0_n_n_0_1_1 : GatherDims S16384 S1064960x1 S1064960 where
  offsetDims := []
  collapsedSliceDims := [0]
  operandBatchingDims := []
  startIndicesBatchingDims := []
  startIndexMap := [0]
  indexVectorDim := 1
  sliceSizes := ![1]
  wf := gather_S16384_S1064960x1_S1064960_n_0_n_n_0_1_1_wf
def scatter_S268435456_S1064960x1_S1064960_n_0_0_1 : ScatterDims S268435456 S1064960x1 S1064960 where
  updateWindowDims := []
  insertedWindowDims := [0]
  scatterDimsToOperandDims := [0]
  indexVectorDim := 1
  wf := scatter_S268435456_S1064960x1_S1064960_n_0_0_1_wf
def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x2048_S2048x512_S128x512_1_0_0_1_n_n : DotDims S128x2048 S2048x512 S128x512 where
  lhsContracting := [1]
  rhsContracting := [0]
  lhsNonContracting := [0]
  rhsNonContracting := [1]
  lhsBatch := []
  rhsBatch := []
  wf := dot_S128x2048_S2048x512_S128x512_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x512_S512x10_S128x10_1_0_0_1_n_n : DotDims S128x512 S512x10 S128x10 where
  lhsContracting := [1]
  rhsContracting := [0]
  lhsNonContracting := [0]
  rhsNonContracting := [1]
  lhsBatch := []
  rhsBatch := []
  wf := dot_S128x512_S512x10_S128x10_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S128x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v41) S128x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S512x10.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S1x10.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v48) S128x10.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S128x16384 : Shape := ⟨2, ![128, 16384]⟩
abbrev S2x1048576 : Shape := ⟨2, ![2, 1048576]⟩
abbrev S1048576 : Shape := ⟨1, ![1048576]⟩
abbrev S512x16384 : Shape := ⟨2, ![512, 16384]⟩
abbrev S512 : Shape := ⟨1, ![512]⟩
abbrev S512x512 : Shape := ⟨2, ![512, 512]⟩
abbrev S10x512 : Shape := ⟨2, ![10, 512]⟩
abbrev S10 : Shape := ⟨1, ![10]⟩
abbrev S1x1048576 : Shape := ⟨2, ![1, 1048576]⟩
abbrev S16384 : Shape := ⟨1, ![16384]⟩
abbrev S1064960 : Shape := ⟨1, ![1064960]⟩
abbrev S_ : Shape := ⟨0, ![]⟩
abbrev S1064960x1 : Shape := ⟨2, ![1064960, 1]⟩
abbrev S128x1064960 : Shape := ⟨2, ![128, 1064960]⟩
abbrev S1x1064960 : Shape := ⟨2, ![1, 1064960]⟩
abbrev S1064960x128 : Shape := ⟨2, ![1064960, 128]⟩
abbrev S16384x128 : Shape := ⟨2, ![16384, 128]⟩
abbrev S16384x512 : Shape := ⟨2, ![16384, 512]⟩
abbrev S128x512 : Shape := ⟨2, ![128, 512]⟩
abbrev S1x512 : Shape := ⟨2, ![1, 512]⟩
abbrev S512x10 : Shape := ⟨2, ![512, 10]⟩
abbrev S128x10 : Shape := ⟨2, ![128, 10]⟩
abbrev S1x10 : Shape := ⟨2, ![1, 10]⟩

abbrev nBuf : Space → Nat
  | .hbm => 93
  | .vmem => 0
  | .smem => 0
  | _ => 0

abbrev bufTy : (tb : Table) → Fin (tcTables nBuf tb) → BufTy
  | .hbm, ⟨0, _⟩ => ⟨S128x16384, .f32⟩
  | .hbm, ⟨1, _⟩ => ⟨S2x1048576, .i32⟩
  | .hbm, ⟨2, _⟩ => ⟨S1048576, .f32⟩
  | .hbm, ⟨3, _⟩ => ⟨S512x16384, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S10x512, .f32⟩
  | .hbm, ⟨8, _⟩ => ⟨S10, .f32⟩
  | .hbm, ⟨9, _⟩ => ⟨S1x1048576, .i32⟩
  | .hbm, ⟨10, _⟩ => ⟨S1048576, .i32⟩
  | .hbm, ⟨11, _⟩ => ⟨S1x1048576, .i32⟩
  | .hbm, ⟨12, _⟩ => ⟨S1048576, .i32⟩
  | .hbm, ⟨13, _⟩ => ⟨S16384, .i32⟩
  | .hbm, ⟨14, _⟩ => ⟨S1064960, .i32⟩
  | .hbm, ⟨15, _⟩ => ⟨S1064960, .i32⟩
  | .hbm, ⟨16, _⟩ => ⟨S_, .f32⟩
  | .hbm, ⟨17, _⟩ => ⟨S16384, .f32⟩
  | .hbm, ⟨18, _⟩ => ⟨S1064960, .f32⟩
  | .hbm, ⟨19, _⟩ => ⟨S_, .f32⟩
  | .hbm, ⟨20, _⟩ => ⟨S16384, .f32⟩
  | .hbm, ⟨21, _⟩ => ⟨S1064960x1, .i32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .i1⟩
  | .hbm, ⟨26, _⟩ => ⟨S_, .f32⟩
  | .hbm, ⟨27, _⟩ => ⟨S16384, .f32⟩
  | .hbm, ⟨28, _⟩ => ⟨S16384, .f32⟩
  | .hbm, ⟨29, _⟩ => ⟨S16384, .f32⟩
  | .hbm, ⟨30, _⟩ => ⟨S_, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S_, .i32⟩
  | .hbm, ⟨35, _⟩ => ⟨S1064960, .i32⟩
  | .hbm, ⟨36, _⟩ => ⟨S1064960, .i1⟩
  | .hbm, ⟨37, _⟩ => ⟨S_, .i32⟩
  | .hbm, ⟨38, _⟩ => ⟨S1064960, .i32⟩
  | .hbm, ⟨39, _⟩ => ⟨S1064960, .i32⟩
  | .hbm, ⟨40, _⟩ => ⟨S1064960, .i32⟩
  | .hbm, ⟨41, _⟩ => ⟨S1064960x1, .i32⟩
  | .hbm, ⟨42, _⟩ => ⟨S1064960, .f32⟩
  | .hbm, ⟨43, _⟩ => ⟨S1064960, .f32⟩
  | .hbm, ⟨44, _⟩ => ⟨S_, .i32⟩
  | .hbm, ⟨45, _⟩ => ⟨S1064960, .i32⟩
  | .hbm, ⟨46, _⟩ => ⟨S1064960, .i1⟩
  | .hbm, ⟨47, _⟩ => ⟨S_, .i32⟩
  | .hbm, ⟨48, _⟩ => ⟨S1064960, .i32⟩
  | .hbm, ⟨49, _⟩ => ⟨S1064960, .i32⟩
  | .hbm, ⟨50, _⟩ => ⟨S1064960, .i32⟩
  | .hbm, ⟨51, _⟩ => ⟨S1064960x1, .i32⟩
  | .hbm, ⟨52, _⟩ => ⟨S1064960, .f32⟩
  | .hbm, ⟨53, _⟩ => ⟨S1064960, .f32⟩
  | .hbm, ⟨54, _⟩ => ⟨S_, .i32⟩
  | .hbm, ⟨55, _⟩ => ⟨S1064960, .i32⟩
  | .hbm, ⟨56, _⟩ => ⟨S1064960, .i1⟩
  | .hbm, ⟨57, _⟩ => ⟨S_, .i32⟩
  | .hbm, ⟨58, _⟩ => ⟨S1064960, .i32⟩
  | .hbm, ⟨59, _⟩ => ⟨S1064960, .i32⟩
  | .hbm, ⟨60, _⟩ => ⟨S1064960, .i32⟩
  | .hbm, ⟨61, _⟩ => ⟨S1064960x1, .i32⟩
  | .hbm, ⟨62, _⟩ => ⟨S128x1064960, .f32⟩
  | .hbm, ⟨63, _⟩ => ⟨S1x1064960, .f32⟩
  | .hbm, ⟨64, _⟩ => ⟨S128x1064960, .f32⟩
  | .hbm, ⟨65, _⟩ => ⟨S128x1064960, .f32⟩
  | .hbm, ⟨66, _⟩ => ⟨S1064960x128, .f32⟩
  | .hbm, ⟨67, _⟩ => ⟨S_, .f32⟩
  | .hbm, ⟨68, _⟩ => ⟨S16384x128, .f32⟩
  | .hbm, ⟨69, _⟩ => ⟨S1064960x1, .i32⟩
  | .hbm, ⟨70, _⟩ => ⟨S16384x128, .f32⟩
  | .hbm, ⟨71, _⟩ => ⟨S128x16384, .f32⟩
  | .hbm, ⟨72, _⟩ => ⟨S16384x512, .f32⟩
  | .hbm, ⟨73, _⟩ => ⟨S128x512, .f32⟩
  | .hbm, ⟨74, _⟩ => ⟨S1x512, .f32⟩
  | .hbm, ⟨75, _⟩ => ⟨S128x512, .f32⟩
  | .hbm, ⟨76, _⟩ => ⟨S128x512, .f32⟩
  | .hbm, ⟨77, _⟩ => ⟨S_, .f32⟩
  | .hbm, ⟨78, _⟩ => ⟨S128x512, .f32⟩
  | .hbm, ⟨79, _⟩ => ⟨S128x512, .f32⟩
  | .hbm, ⟨80, _⟩ => ⟨S512x512, .f32⟩
  | .hbm, ⟨81, _⟩ => ⟨S128x512, .f32⟩
  | .hbm, ⟨82, _⟩ => ⟨S1x512, .f32⟩
  | .hbm, ⟨83, _⟩ => ⟨S128x512, .f32⟩
  | .hbm, ⟨84, _⟩ => ⟨S128x512, .f32⟩
  | .hbm, ⟨85, _⟩ => ⟨S_, .f32⟩
  | .hbm, ⟨86, _⟩ => ⟨S128x512, .f32⟩
  | .hbm, ⟨87, _⟩ => ⟨S128x512, .f32⟩
  | .hbm, ⟨88, _⟩ => ⟨S512x10, .f32⟩
  | .hbm, ⟨89, _⟩ => ⟨S128x10, .f32⟩
  | .hbm, ⟨90, _⟩ => ⟨S1x10, .f32⟩
  | .hbm, ⟨91, _⟩ => ⟨S128x10, .f32⟩
  | .hbm, ⟨92, _⟩ => ⟨S128x10, .f32⟩
  | _, _ => ⟨S128x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_cst : Ref sig .tc := ⟨.hbm, 77, rfl⟩
abbrev main_call1_v0 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_call2_cst : Ref sig .tc := ⟨.hbm, 85, rfl⟩
abbrev main_call2_v0 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩

abbrev nD : Nat := 1
abbrev τ : Topo := Topo.v7x

variable {F : FTy → Type} [FloatOps F]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  concatenates_S1048576_S16384_S1064960_d0 : Shape.Concatenates [S1048576, S16384] S1064960 0
  bcast_S_S16384 : S_.BroadcastsInDim S16384 (![] : Fin 0 → Fin S16384.rank)
  bcast_S1064960_S1064960x1_0 : S1064960.BroadcastsInDim S1064960x1 (![0] : Fin 1 → Fin S1064960x1.rank)
  bcast_S_S1064960 : S_.BroadcastsInDim S1064960 (![] : Fin 0 → Fin S1064960.rank)
  bcast_S1064960_S1x1064960_1 : S1064960.BroadcastsInDim S1x1064960 (![1] : Fin 1 → Fin S1x1064960.rank)
  bcast_S1x1064960_S128x1064960_0_1 : S1x1064960.BroadcastsInDim S128x1064960 (![0, 1] : Fin 2 → Fin S128x1064960.rank)
  transposes_S128x1064960_S1064960x128_1_0 : S128x1064960.Transposes [1, 0] S1064960x128
  bcast_S_S16384x128 : S_.BroadcastsInDim S16384x128 (![] : Fin 0 → Fin S16384x128.rank)
  transposes_S16384x128_S128x16384_1_0 : S16384x128.Transposes [1, 0] S128x16384
  transposes_S512x16384_S16384x512_1_0 : S512x16384.Transposes [1, 0] S16384x512
  bcast_S512_S1x512_1 : S512.BroadcastsInDim S1x512 (![1] : Fin 1 → Fin S1x512.rank)
  bcast_S1x512_S128x512_0_1 : S1x512.BroadcastsInDim S128x512 (![0, 1] : Fin 2 → Fin S128x512.rank)
  bcast_S_S128x512 : S_.BroadcastsInDim S128x512 (![] : Fin 0 → Fin S128x512.rank)
  transposes_S512x512_S512x512_1_0 : S512x512.Transposes [1, 0] S512x512
  transposes_S10x512_S512x10_1_0 : S10x512.Transposes [1, 0] S512x10
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  scatter_S16384_S1064960x1_S1064960_n_0_0_1_wf : ScatterDims.WF S16384 S1064960x1 S1064960 [] [0] [0] 1
  gather_S16384_S1064960x1_S1064960_n_0_n_n_0_1_1_wf : GatherDims.WF S16384 S1064960x1 S1064960 [] [0] [] [0] [] 1 ![1]
  gather_S128x16384_S1064960x1_S128x1064960_0_1_n_n_1_1_1281_wf : GatherDims.WF S128x16384 S1064960x1 S128x1064960 [0] [1] [] [1] [] 1 ![128, 1]
  scatter_S16384x128_S1064960x1_S1064960x128_1_0_0_1_wf : ScatterDims.WF S16384x128 S1064960x1 S1064960x128 [1] [0] [0] 1
  dot_S128x16384_S16384x512_S128x512_1_0_0_1_n_n_wf : DotDims.WF S128x16384 S16384x512 S128x512 [1] [0] [0] [1] [] []
  dot_S128x512_S512x512_S128x512_1_0_0_1_n_n_wf : DotDims.WF S128x512 S512x512 S128x512 [1] [0] [0] [1] [] []
  dot_S128x512_S512x10_S128x10_1_0_0_1_n_n_wf : DotDims.WF S128x512 S512x10 S128x10 [1] [0] [0] [1] [] []

variable [Facts₀]

def scatter_S16384_S1064960x1_S1064960_n_0_0_1 : ScatterDims S16384 S1064960x1 S1064960 where
  updateWindowDims := []
  insertedWindowDims := [0]
  scatterDimsToOperandDims := [0]
  indexVectorDim := 1
  wf := scatter_S16384_S1064960x1_S1064960_n_0_0_1_wf
def gather_S16384_S1064960x1_S1064960_n_0_n_n_0_1_1 : GatherDims S16384 S1064960x1 S1064960 where
  offsetDims := []
  collapsedSliceDims := [0]
  operandBatchingDims := []
  startIndicesBatchingDims := []
  startIndexMap := [0]
  indexVectorDim := 1
  sliceSizes := ![1]
  wf := gather_S16384_S1064960x1_S1064960_n_0_n_n_0_1_1_wf
def gather_S128x16384_S1064960x1_S128x1064960_0_1_n_n_1_1_1281 : GatherDims S128x16384 S1064960x1 S128x1064960 where
  offsetDims := [0]
  collapsedSliceDims := [1]
  operandBatchingDims := []
  startIndicesBatchingDims := []
  startIndexMap := [1]
  indexVectorDim := 1
  sliceSizes := ![128, 1]
  wf := gather_S128x16384_S1064960x1_S128x1064960_0_1_n_n_1_1_1281_wf
def scatter_S16384x128_S1064960x1_S1064960x128_1_0_0_1 : ScatterDims S16384x128 S1064960x1 S1064960x128 where
  updateWindowDims := [1]
  insertedWindowDims := [0]
  scatterDimsToOperandDims := [0]
  indexVectorDim := 1
  wf := scatter_S16384x128_S1064960x1_S1064960x128_1_0_0_1_wf
def dot_S128x16384_S16384x512_S128x512_1_0_0_1_n_n : DotDims S128x16384 S16384x512 S128x512 where
  lhsContracting := [1]
  rhsContracting := [0]
  lhsNonContracting := [0]
  rhsNonContracting := [1]
  lhsBatch := []
  rhsBatch := []
  wf := dot_S128x16384_S16384x512_S128x512_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x512_S512x10_S128x10_1_0_0_1_n_n : DotDims S128x512 S512x10 S128x10 where
  lhsContracting := [1]
  rhsContracting := [0]
  lhsNonContracting := [0]
  rhsNonContracting := [1]
  lhsBatch := []
  rhsBatch := []
  wf := dot_S128x512_S512x10_S128x10_1_0_0_1_n_n_wf

class Facts : Prop extends Facts₀ where

variable [Facts]
-- ==== Proof.KBody0.lean ====
import proofs.«429495_j14869176779093_2_alg».proof.Proof.Gen.Kernel.Launch
import proofs.«429495_j14869176779093_2_alg».proof.Proof.Gen.Kernel.Skeleton
import proofs.«429495_j14869176779093_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 0 (the propagation product). At grid point (n, k) the body adds to the carried accumulator the product of the
    point's block of the left operand with its block of the right operand: reset first when k = 0, copied to the
    output block when k = 15. Three control cases; in each the accumulator ends at the update payload of what it held
    (or of the zero payload), the two operand blocks unchanged, the output block untouched or at the accumulator. -/

abbrev cond0_0 (i : grid0.Coords) : Prop := (Scalar.cmpi .ne (Scalar.extui (Scalar.cmpi .eq (BitVec.ofNat 32 (i 1).val) 0#32)) 0#32) = 1#1
abbrev cond0_1 (i : grid0.Coords) : Prop := k0_cond2 i = 1#1

theorem hz2 : (![0, 0] : Fin 2 → Nat) = fun _ => 0 := by funext a; fin_cases a <;> rfl

set_option maxHeartbeats 2000000 in
/-- k = 0: the accumulator, whatever it held, ends at the update of the zero payload. -/
theorem run0_A (c : Dev nD) (i : grid0.Coords) (arg2 : Memref sig .tc .vmem S128x1024 .f32) (harg2 : arg2.IsWhole) (arg3 : Memref sig .tc .vmem S1024x2048 .f32) (harg3 : arg3.IsWhole) (arg4 : Memref sig .tc .vmem S128x2048 .f32) (harg4 : arg4.IsWhole) (arg5 : Memref sig .tc .vmem S128x2048 .f32) (harg5 : arg5.IsWhole)
    (hc0 : cond0_0 i) (hc1 : ¬cond0_1 i)
    (x0 : Vec F S128x1024 .f32) (x1 : Vec F S1024x2048 .f32) (xi2 : Vec F S128x2048 .f32) (xs0 : Vec F S128x2048 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs0
        ∗ (iprop(owns (c : Thread nD τ) arg2 fullShare x0 ∗ owns (c : Thread nD τ) arg3 fullShare x1 ∗ owns (c : Thread nD τ) arg4 fullShare xi2 ∗ owns (c : Thread nD τ) arg5 fullShare (k0_pay2 (k0_pay1 (F := F)) x0 x1)) -∗ K ⟨⟩))
      ⊢ wp frame (wpE (defs₀ (F := F)) Variants.none c none) E (cc0__propagate_kernel i arg2 harg2 arg3 harg3 arg4 harg4 arg5 harg5) K := by
  simp only [cc0__propagate_kernel_eq_skeleton]; unfold cc0__propagate_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  sl_unfold_words
  rw [View.read_writes_eq_canon _ _ _ (fun y => ⟨_, List.mem_cons_self, View.mem_set_unit_zero hz2 inb_S128x2048_S128x2048_0_0 y⟩), View.canon_cons_unit_zero hz2]
  simp only [View.readAt_eq_ld, harg5.read_unread, harg2.read_unread, harg3.read_unread, View.ld_unit_zero (S := S128x2048) hz2, View.ld_unit_zero (S := S128x1024) hz2, View.ld_unit_zero (S := S1024x2048) hz2, View.readCov_unit_zero (S := S128x2048) _ hz2]

set_option maxHeartbeats 2000000 in
/-- 0 < k < 15: the accumulator ends at the update of what it held. -/
theorem run0_B (c : Dev nD) (i : grid0.Coords) (arg2 : Memref sig .tc .vmem S128x1024 .f32) (harg2 : arg2.IsWhole) (arg3 : Memref sig .tc .vmem S1024x2048 .f32) (harg3 : arg3.IsWhole) (arg4 : Memref sig .tc .vmem S128x2048 .f32) (harg4 : arg4.IsWhole) (arg5 : Memref sig .tc .vmem S128x2048 .f32) (harg5 : arg5.IsWhole)
    (hc0 : ¬cond0_0 i) (hc1 : ¬cond0_1 i)
    (x0 : Vec F S128x1024 .f32) (x1 : Vec F S1024x2048 .f32) (xi2 : Vec F S128x2048 .f32) (xs0 : Vec F S128x2048 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs0
        ∗ (iprop(owns (c : Thread nD τ) arg2 fullShare x0 ∗ owns (c : Thread nD τ) arg3 fullShare x1 ∗ owns (c : Thread nD τ) arg4 fullShare xi2 ∗ owns (c : Thread nD τ) arg5 fullShare (k0_pay2 xs0 x0 x1)) -∗ K ⟨⟩))
      ⊢ wp frame (wpE (defs₀ (F := F)) Variants.none c none) E (cc0__propagate_kernel i arg2 harg2 arg3 harg3 arg4 harg4 arg5 harg5) K := by
  simp only [cc0__propagate_kernel_eq_skeleton]; unfold cc0__propagate_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  rw [View.read_writes_eq_canon _ _ _ (fun y => ⟨_, List.mem_singleton_self _, View.mem_set_unit_zero hz2 inb_S128x2048_S128x2048_0_0 y⟩), View.canon_unit_zero hz2]
  simp only [View.readAt_eq_ld, harg5.read_unread, harg2.read_unread, harg3.read_unread, View.ld_unit_zero (S := S128x2048) hz2, View.ld_unit_zero (S := S128x1024) hz2, View.ld_unit_zero (S := S1024x2048) hz2]

set_option maxHeartbeats 2000000 in
/-- k = 15: the accumulator ends at the update of what it held, and the output block at the same. -/
theorem run0_C (c : Dev nD) (i : grid0.Coords) (arg2 : Memref sig .tc .vmem S128x1024 .f32) (harg2 : arg2.IsWhole) (arg3 : Memref sig .tc .vmem S1024x2048 .f32) (harg3 : arg3.IsWhole) (arg4 : Memref sig .tc .vmem S128x2048 .f32) (harg4 : arg4.IsWhole) (arg5 : Memref sig .tc .vmem S128x2048 .f32) (harg5 : arg5.IsWhole)
    (hc0 : ¬cond0_0 i) (hc1 : cond0_1 i)
    (x0 : Vec F S128x1024 .f32) (x1 : Vec F S1024x2048 .f32) (xi2 : Vec F S128x2048 .f32) (xs0 : Vec F S128x2048 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs0
        ∗ (iprop(owns (c : Thread nD τ) arg2 fullShare x0 ∗ owns (c : Thread nD τ) arg3 fullShare x1 ∗ owns (c : Thread nD τ) arg4 fullShare (k0_pay2 xs0 x0 x1) ∗ owns (c : Thread nD τ) arg5 fullShare (k0_pay2 xs0 x0 x1)) -∗ K ⟨⟩))
      ⊢ wp frame (wpE (defs₀ (F := F)) Variants.none c none) E (cc0__propagate_kernel i arg2 harg2 arg3 harg3 arg4 harg4 arg5 harg5) K := by
  simp only [cc0__propagate_kernel_eq_skeleton]; unfold cc0__propagate_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.mem_singleton_self _, View.mem_set_unit_zero hz2 inb_S128x2048_S128x2048_0_0 y⟩), View.canon_unit_zero hz2]
    simp only [View.readAt_eq_ld, harg5.read_unread, harg2.read_unread, harg3.read_unread, View.ld_unit_zero (S := S128x2048) hz2, View.ld_unit_zero (S := S128x1024) hz2, View.ld_unit_zero (S := S1024x2048) hz2, View.readCov_unit_zero (S := S128x2048) _ hz2]
  iexists _; isplitr
  swap; · iexact HS0
  ipureintro
  sl_unfold_words
  rw [View.read_writes_eq_canon _ _ _ (fun y => ⟨_, List.mem_singleton_self _, View.mem_set_unit_zero hz2 inb_S128x2048_S128x2048_0_0 y⟩), View.canon_unit_zero hz2]
  simp only [View.readAt_eq_ld, harg5.read_unread, harg2.read_unread, harg3.read_unread, View.ld_unit_zero (S := S128x2048) hz2, View.ld_unit_zero (S := S128x1024) hz2, View.ld_unit_zero (S := S1024x2048) hz2]

end Cert.Kernel.Gen
end
-- ==== Proof.KRegion0.lean ====
import proofs.«429495_j14869176779093_2_alg».proof.Proof.Gen.Kernel.Launch
import proofs.«429495_j14869176779093_2_alg».proof.Proof.Gen.Kernel.Skeleton
import proofs.«429495_j14869176779093_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import Idealize.ShloMosaic.Lib.Pipeline.RegionsLoop
import proofs.«429495_j14869176779093_2_alg».proof.Proof.KBody0
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 0 as the pipeline sees it. Grid point t = 16 n + k works on block k of the left operand's columns and block
    (k, n) of the right operand; the carried accumulator after point t is the fold, over the points 16 n .. t, of the
    update payload starting from the zero payload; the output block is written at k = 15 only, with that fold. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The two conditions in closed form over the grid: k = 0 and k = 15. -/
theorem hcond0_0 : ∀ t : Fin cfg0.N, cond0_0 (grid0.coords t) ↔ t.val % 16 = 0 :=
  (by decide +kernel : ∀ t : Fin grid0.N, cond0_0 (grid0.coords t) ↔ t.val % 16 = 0)
theorem hcond0_1 : ∀ t : Fin cfg0.N, cond0_1 (grid0.coords t) ↔ t.val % 16 = 15 :=
  (by decide +kernel : ∀ t : Fin grid0.N, cond0_1 (grid0.coords t) ↔ t.val % 16 = 15)

/-- Where the windows are idle: the inputs never, the output wherever k ≠ 15 (and it is not written back there). -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- Each window's current staging memref at point `t`, as the pipeline passes it, and the scratch operand. -/
abbrev ms0_0 (t : Fin cfg0.N) : Memref sig .tc .vmem S128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x2048 .f32 := win0_2.stage (cfg0.slots t 2)
abbrev hs0_2 (t : Fin cfg0.N) : (ms0_2 t).IsWhole := hstage0_2 ((cfg0.slots t 2).cast nbuf0_2)
abbrev scM0 : Memref sig .tc .vmem S128x2048 .f32 := Memref.whole cc0_scratch0

/-- The scoped buffers this region never touches (the other region's staging buffers and scratch), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_scratch0), ((c : Thread nD τ).loc cc1_scratch0) ↦{fullShare} f))

/-- The class invariant with the scratch operand as a memref owned at some contents, the untouched buffers beside it. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

/-- THE ACCUMULATION: what the carried accumulator holds after the body at position `n`. -/
def acc0 (c : Dev nD) : (n : ℕ) → n < cfg0.N → Vec F S128x2048 .f32
  | 0, hn => k0_pay2 (k0_pay1 (F := F)) (iblk0 V c 0 ⟨0, hn⟩) (iblk0 V c 1 ⟨0, hn⟩)
  | n + 1, hn =>
    if (n + 1) % 16 = 0 then k0_pay2 (k0_pay1 (F := F)) (iblk0 V c 0 ⟨n + 1, hn⟩) (iblk0 V c 1 ⟨n + 1, hn⟩)
    else k0_pay2 (acc0 c n (Nat.lt_of_succ_lt hn)) (iblk0 V c 0 ⟨n + 1, hn⟩) (iblk0 V c 1 ⟨n + 1, hn⟩)

theorem acc0_reset (c : Dev nD) (t : Fin cfg0.N) (h0 : t.val % 16 = 0) :
    acc0 V c t.val t.isLt = k0_pay2 (k0_pay1 (F := F)) (iblk0 V c 0 t) (iblk0 V c 1 t) := by
  obtain ⟨n, hn⟩ := t
  cases n with
  | zero => rfl
  | succ n => exact if_pos h0

theorem acc0_step (c : Dev nD) (t : Fin cfg0.N) (h0 : ¬t.val % 16 = 0) :
    acc0 V c t.val t.isLt = k0_pay2 (acc0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h0
  | succ n => exact if_neg h0

/-- The region invariant before position `n`: the class's before the first point; afterwards the accumulator at what the
    point before left, and the generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 c) ∗ (∃ r, prngReg c r)) := by
  cases n with
  | zero => exact absurd rfl hz
  | succ n => rfl

/-- The proof data of pipeline 0 on core `c`: the arrays as the region finds them; after the body each input's buffer at
    its block and the output's at the accumulation; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, and what it returns. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point: the inputs' memrefs hold their blocks; the closed forms say which case the point is in; the
    invariant hands the body the accumulator at what the point before left (at anything at the first point) and takes it
    back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 128 := lt_of_lt_of_eq t.isLt (show cfg0.N = 128 from N_0)
  by_cases h1 : t.val % 16 = 15
  · have h0 : ¬t.val % 16 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [acc0_step V c t h0, PhiS0_castSucc V c t, PhiS0_pos V c _ _ hz]
    iintro ⟨⟨⟨HS0, Hrest⟩, Hg⟩, Ho, ⟨%d0, H0⟩, ⟨%d1, H1⟩, ⟨%d2, H2⟩⟩
    iapply (run0_C c (grid0.coords t) _ _ _ _ _ _ _ _ (fun h => h0 ((hcond0_0 t).mp h)) ((hcond0_1 t).mpr h1) (iblk0 V c 0 t) (iblk0 V c 1 t) _ _ Set.univ _)
    isplitl [H0]; · iexact H0
    isplitl [H1]; · iexact H1
    isplitl [H2]; · iexact H2
    isplitl [HS0]; · iexact HS0
    iintro ⟨H0, H1, H2, HS0⟩
    isplitl [HS0 Hrest Hg]
    · isplitl [HS0 Hrest]
      · isplitl [HS0]; · iexact HS0
        iexact Hrest
      iexact Hg
    isplitl [Ho]; · iexact Ho
    isplitl [H0]; · iexact H0
    isplitl [H1]; · iexact H1
    iexact H2
  · rw [Dat.leavesExact_idle (dat0 V c) 2 t (idleAt0_2 t (fun h => h1 ((hcond0_1 t).mp h))) (noFlush0_2 t (fun h => h1 ((hcond0_1 t).mp h)))]
    by_cases h0 : t.val % 16 = 0
    · rw [acc0_reset V c t h0]
      have hpre : (dat0 V c).Φ t.castSucc ⊢ (iprop(iprop((∃ d, owns (c : Thread nD τ) scM0 fullShare d) ∗ rest0 c) ∗ (∃ r, prngReg c r)) : sProp 𝕄) := by
        rw [PhiS0_castSucc V c t]
        by_cases hz : t.val = 0
        · rw [PhiS0_zero V c _ _ hz, PhiA0_eq]
        · rw [PhiS0_pos V c _ _ hz]
          iintro ⟨⟨HS0, Hrest⟩, Hg⟩
          isplitl [HS0 Hrest]
          · isplitl [HS0]; · iexists _; iexact HS0
            iexact Hrest
          iexact Hg
      iintro ⟨HΦ, Ho, ⟨%d0, H0⟩, ⟨%d1, H1⟩, ⟨%d2, H2⟩⟩
      ihave HΦ' := hpre $$ HΦ
      icases HΦ' with ⟨⟨⟨%ds, HS0⟩, Hrest⟩, Hg⟩
      iapply (run0_A c (grid0.coords t) _ _ _ _ _ _ _ _ ((hcond0_0 t).mpr h0) (fun h => h1 ((hcond0_1 t).mp h)) (iblk0 V c 0 t) (iblk0 V c 1 t) _ ds Set.univ _)
      isplitl [H0]; · iexact H0
      isplitl [H1]; · iexact H1
      isplitl [H2]; · iexact H2
      isplitl [HS0]; · iexact HS0
      iintro ⟨H0, H1, H2, HS0⟩
      isplitl [HS0 Hrest Hg]
      · isplitl [HS0 Hrest]
        · isplitl [HS0]; · iexact HS0
          iexact Hrest
        iexact Hg
      isplitl [Ho]; · iexact Ho
      isplitl [H0]; · iexact H0
      isplitl [H1]; · iexact H1
      iexists _; iexact H2
    · have hz : t.val ≠ 0 := fun h => h0 (by rw [h])
      rw [acc0_step V c t h0, PhiS0_castSucc V c t, PhiS0_pos V c _ _ hz]
      iintro ⟨⟨⟨HS0, Hrest⟩, Hg⟩, Ho, ⟨%d0, H0⟩, ⟨%d1, H1⟩, ⟨%d2, H2⟩⟩
      iapply (run0_B c (grid0.coords t) _ _ _ _ _ _ _ _ (fun h => h0 ((hcond0_0 t).mp h)) (fun h => h1 ((hcond0_1 t).mp h)) (iblk0 V c 0 t) (iblk0 V c 1 t) _ _ Set.univ _)
      isplitl [H0]; · iexact H0
      isplitl [H1]; · iexact H1
      isplitl [H2]; · iexact H2
      isplitl [HS0]; · iexact HS0
      iintro ⟨H0, H1, H2, HS0⟩
      isplitl [HS0 Hrest Hg]
      · isplitl [HS0 Hrest]
        · isplitl [HS0]; · iexact HS0
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point; after the last point the invariant gives
    the class's back, the accumulator's contents forgotten. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS0, Hrest⟩, Hg⟩
  isplitl [HS0 Hrest]
  · isplitl [HS0]; · iexists _; iexact HS0
    iexact Hrest
  iexact Hg

end Cert.Kernel.Gen
end
-- ==== Proof.KBody1.lean ====
import proofs.«429495_j14869176779093_2_alg».proof.Proof.Gen.Kernel.Launch
import proofs.«429495_j14869176779093_2_alg».proof.Proof.Gen.Kernel.Skeleton
import proofs.«429495_j14869176779093_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1 (the three layers). At grid point k the body adds to the carried accumulator the product of the point's
    block of the propagated features with its block of the first weight matrix: reset first when k = 0; at k = 7 the
    finished first layer goes through the bias, max(., 0), the second layer, max(., 0) and the last layer into the output
    block. Three control cases. -/

abbrev cond1_0 (i : grid1.Coords) : Prop := (Scalar.cmpi .ne (Scalar.extui (Scalar.cmpi .eq (BitVec.ofNat 32 (i 0).val) 0#32)) 0#32) = 1#1
abbrev cond1_1 (i : grid1.Coords) : Prop := k1_cond2 i = 1#1

theorem hz2 : (![0, 0] : Fin 2 → Nat) = fun _ => 0 := by funext a; fin_cases a <;> rfl

set_option maxHeartbeats 4000000 in
/-- k = 0: the accumulator, whatever it held, ends at the update of the zero payload; the output block is untouched. -/
theorem run1_A (c : Dev nD) (i : grid1.Coords) (arg1 : Memref sig .tc .vmem S128x2048 .f32) (harg1 : arg1.IsWhole) (arg2 : Memref sig .tc .vmem S2048x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x10 .f32) (harg6 : arg6.IsWhole) (arg7 : Memref sig .tc .vmem S1x10 .f32) (harg7 : arg7.IsWhole) (arg8 : Memref sig .tc .vmem S128x10 .f32) (harg8 : arg8.IsWhole) (arg9 : Memref sig .tc .vmem S128x512 .f32) (harg9 : arg9.IsWhole)
    (hc0 : cond1_0 i) (hc1 : ¬cond1_1 i)
    (x0 : Vec F S128x2048 .f32) (x1 : Vec F S2048x512 .f32) (x2 : Vec F S1x512 .f32) (x3 : Vec F S512x512 .f32) (x4 : Vec F S1x512 .f32) (x5 : Vec F S512x10 .f32) (x6 : Vec F S1x10 .f32) (xi7 : Vec F S128x10 .f32) (xs0 : Vec F S128x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare (k1_pay2 (k1_pay1 (F := F)) x0 x1)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8 arg9 harg9) K := by
  simp only [cc1__mlp_kernel_eq_skeleton, k1_part1_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  iexists _; isplitr
  swap; · iexact HS0
  ipureintro
  sl_unfold_words
  rw [View.read_writes_eq_canon _ _ _ (fun y => ⟨_, List.mem_cons_self, View.mem_set_unit_zero hz2 inb_S128x512_S128x512_0_0 y⟩), View.canon_cons_unit_zero hz2]
  simp only [View.readAt_eq_ld, harg1.read_unread, harg2.read_unread, harg3.read_unread, harg4.read_unread, harg5.read_unread, harg6.read_unread, harg7.read_unread, harg8.read_unread, harg9.read_unread, View.ld_unit_zero (S := S128x2048) hz2, View.ld_unit_zero (S := S2048x512) hz2, View.ld_unit_zero (S := S1x512) hz2, View.ld_unit_zero (S := S512x512) hz2, View.ld_unit_zero (S := S512x10) hz2, View.ld_unit_zero (S := S1x10) hz2, View.ld_unit_zero (S := S128x10) hz2, View.ld_unit_zero (S := S128x512) hz2, View.readCov_unit_zero (S := S128x512) _ hz2]

set_option maxHeartbeats 4000000 in
/-- 0 < k < 7: the accumulator ends at the update of what it held; the output block is untouched. -/
theorem run1_B (c : Dev nD) (i : grid1.Coords) (arg1 : Memref sig .tc .vmem S128x2048 .f32) (harg1 : arg1.IsWhole) (arg2 : Memref sig .tc .vmem S2048x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x10 .f32) (harg6 : arg6.IsWhole) (arg7 : Memref sig .tc .vmem S1x10 .f32) (harg7 : arg7.IsWhole) (arg8 : Memref sig .tc .vmem S128x10 .f32) (harg8 : arg8.IsWhole) (arg9 : Memref sig .tc .vmem S128x512 .f32) (harg9 : arg9.IsWhole)
    (hc0 : ¬cond1_0 i) (hc1 : ¬cond1_1 i)
    (x0 : Vec F S128x2048 .f32) (x1 : Vec F S2048x512 .f32) (x2 : Vec F S1x512 .f32) (x3 : Vec F S512x512 .f32) (x4 : Vec F S1x512 .f32) (x5 : Vec F S512x10 .f32) (x6 : Vec F S1x10 .f32) (xi7 : Vec F S128x10 .f32) (xs0 : Vec F S128x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare (k1_pay2 xs0 x0 x1)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8 arg9 harg9) K := by
  simp only [cc1__mlp_kernel_eq_skeleton, k1_part1_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  iexists _; isplitr
  swap; · iexact HS0
  ipureintro
  sl_unfold_words
  rw [View.read_writes_eq_canon _ _ _ (fun y => ⟨_, List.mem_singleton_self _, View.mem_set_unit_zero hz2 inb_S128x512_S128x512_0_0 y⟩), View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S128x2048) hz2, View.ld_unit_zero (S := S2048x512) hz2, View.ld_unit_zero (S := S1x512) hz2, View.ld_unit_zero (S := S512x512) hz2, View.ld_unit_zero (S := S512x10) hz2, View.ld_unit_zero (S := S1x10) hz2, View.ld_unit_zero (S := S128x10) hz2, View.ld_unit_zero (S := S128x512) hz2, View.readCov_unit_zero (S := S128x512) _ hz2]

set_option maxHeartbeats 4000000 in
/-- k = 7: the accumulator ends at the update of what it held, and the output block at the three layers' result of it. -/
theorem run1_C (c : Dev nD) (i : grid1.Coords) (arg1 : Memref sig .tc .vmem S128x2048 .f32) (harg1 : arg1.IsWhole) (arg2 : Memref sig .tc .vmem S2048x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x10 .f32) (harg6 : arg6.IsWhole) (arg7 : Memref sig .tc .vmem S1x10 .f32) (harg7 : arg7.IsWhole) (arg8 : Memref sig .tc .vmem S128x10 .f32) (harg8 : arg8.IsWhole) (arg9 : Memref sig .tc .vmem S128x512 .f32) (harg9 : arg9.IsWhole)
    (hc0 : ¬cond1_0 i) (hc1 : cond1_1 i)
    (x0 : Vec F S128x2048 .f32) (x1 : Vec F S2048x512 .f32) (x2 : Vec F S1x512 .f32) (x3 : Vec F S512x512 .f32) (x4 : Vec F S1x512 .f32) (x5 : Vec F S512x10 .f32) (x6 : Vec F S1x10 .f32) (xi7 : Vec F S128x10 .f32) (xs0 : Vec F S128x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k1_pay3 (k1_pay8 (k1_pay2 xs0 x0 x1) x2 x3 x4 x5) (k1_pay9 (k1_pay2 xs0 x0 x1) x2 x3 x4 x5) x6) ∗ owns (c : Thread nD τ) arg9 fullShare (k1_pay2 xs0 x0 x1)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8 arg9 harg9) K := by
  simp only [cc1__mlp_kernel_eq_skeleton, k1_part1_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words
    rw [View.read_writes_eq_canon _ _ _ (fun y => ⟨_, List.mem_singleton_self _, View.mem_set_unit_zero hz2 inb_S128x10_S128x10_0_0 y⟩), View.canon_unit_zero hz2]
    simp only [View.readAt_eq_ld, harg1.read_unread, harg2.read_unread, harg3.read_unread, harg4.read_unread, harg5.read_unread, harg6.read_unread, harg7.read_unread, harg8.read_unread, harg9.read_unread, View.ld_unit_zero (S := S128x2048) hz2, View.ld_unit_zero (S := S2048x512) hz2, View.ld_unit_zero (S := S1x512) hz2, View.ld_unit_zero (S := S512x512) hz2, View.ld_unit_zero (S := S512x10) hz2, View.ld_unit_zero (S := S1x10) hz2, View.ld_unit_zero (S := S128x10) hz2, View.ld_unit_zero (S := S128x512) hz2, View.readCov_unit_zero (S := S128x512) _ hz2]
  iexists _; isplitr
  swap; · iexact HS0
  ipureintro
  sl_unfold_words
  rw [View.read_writes_eq_canon _ _ _ (fun y => ⟨_, List.mem_singleton_self _, View.mem_set_unit_zero hz2 inb_S128x512_S128x512_0_0 y⟩), View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S128x2048) hz2, View.ld_unit_zero (S := S2048x512) hz2, View.ld_unit_zero (S := S1x512) hz2, View.ld_unit_zero (S := S512x512) hz2, View.ld_unit_zero (S := S512x10) hz2, View.ld_unit_zero (S := S1x10) hz2, View.ld_unit_zero (S := S128x10) hz2, View.ld_unit_zero (S := S128x512) hz2, View.readCov_unit_zero (S := S128x512) _ hz2]

end Cert.Kernel.Gen
end
-- ==== Proof.KRegion1.lean ====
import proofs.«429495_j14869176779093_2_alg».proof.Proof.Gen.Kernel.Launch
import proofs.«429495_j14869176779093_2_alg».proof.Proof.Gen.Kernel.Skeleton
import proofs.«429495_j14869176779093_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import Idealize.ShloMosaic.Lib.Pipeline.RegionsLoop
import proofs.«429495_j14869176779093_2_alg».proof.Proof.KBody1
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1 as the pipeline sees it. Grid point k (of 8) works on column block k of the propagated features and row
    block k of the first weight matrix; the carried accumulator after point k is the fold, over the points 0 .. k, of
    the update payload starting from the zero payload; the other five inputs (two biases, two weight matrices, the last
    bias) are the same block at every point; the output block is written at k = 7 only, with the three layers applied
    to that fold. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The two conditions in closed form over the grid: k = 0 and k = 7. -/
theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = 7 :=
  (by decide +kernel : ∀ t : Fin grid1.N, cond1_1 (grid1.coords t) ↔ t.val % 8 = 7)

/-- Where the windows are idle: the inputs never, the output wherever k ≠ 7 (and it is not written back there). -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel

/-- Each window's current staging memref at point `t`, as the pipeline passes it, and the scratch operand. -/
abbrev ms1_0 (t : Fin cfg1.N) : Memref sig .tc .vmem S128x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x10 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x10 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x10 .f32 := win1_7.stage (cfg1.slots t 7)
abbrev hs1_7 (t : Fin cfg1.N) : (ms1_7 t).IsWhole := hstage1_7 ((cfg1.slots t 7).cast nbuf1_7)
abbrev scM1 : Memref sig .tc .vmem S128x512 .f32 := Memref.whole cc1_scratch0

/-- The scoped buffers this region never touches (the other region's staging buffers and scratch), each at some
    contents, with the proposition `X` about this region's scratch in the last place. -/
def pre1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ X)

/-- The class invariant with the scratch operand as a memref owned at some contents, the untouched buffers before it. -/
theorem PhiA1_eq (c : Dev nD) :
    (Pipeline.ΦA spec1 c : sProp 𝕄)
      = iprop(pre1 c (iprop(∃ d, owns (c : Thread nD τ) scM1 fullShare d)) ∗ (∃ r, prngReg c r)) := by
  unfold Pipeline.ΦA pre1; rw [scopedRest1_eq]; simp only [scM1, owns_whole]; try rfl

/-- THE ACCUMULATION: what the carried accumulator holds after the body at position `n`. -/
def acc1 (c : Dev nD) : (n : ℕ) → n < cfg1.N → Vec F S128x512 .f32
  | 0, hn => k1_pay2 (k1_pay1 (F := F)) (iblk1 V c 0 ⟨0, hn⟩) (iblk1 V c 1 ⟨0, hn⟩)
  | n + 1, hn =>
    if (n + 1) % 8 = 0 then k1_pay2 (k1_pay1 (F := F)) (iblk1 V c 0 ⟨n + 1, hn⟩) (iblk1 V c 1 ⟨n + 1, hn⟩)
    else k1_pay2 (acc1 c n (Nat.lt_of_succ_lt hn)) (iblk1 V c 0 ⟨n + 1, hn⟩) (iblk1 V c 1 ⟨n + 1, hn⟩)

theorem acc1_reset (c : Dev nD) (t : Fin cfg1.N) (h0 : t.val % 8 = 0) :
    acc1 V c t.val t.isLt = k1_pay2 (k1_pay1 (F := F)) (iblk1 V c 0 t) (iblk1 V c 1 t) := by
  obtain ⟨n, hn⟩ := t
  cases n with
  | zero => rfl
  | succ n => exact if_pos h0

theorem acc1_step (c : Dev nD) (t : Fin cfg1.N) (h0 : ¬t.val % 8 = 0) :
    acc1 V c t.val t.isLt = k1_pay2 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact if_neg h0

/-- THE OUTPUT BLOCK at point `t`: the last layer applied to the two hidden layers of the accumulation there. -/
def out1 (c : Dev nD) (t : Fin cfg1.N) : Vec F S128x10 .f32 :=
  k1_pay3 (k1_pay8 (acc1 V c t.val t.isLt) (iblk1 V c 2 t) (iblk1 V c 3 t) (iblk1 V c 4 t) (iblk1 V c 5 t))
    (k1_pay9 (acc1 V c t.val t.isLt) (iblk1 V c 2 t) (iblk1 V c 3 t) (iblk1 V c 4 t) (iblk1 V c 5 t)) (iblk1 V c 6 t)

/-- The region invariant before position `n`: the class's before the first point; afterwards the accumulator at what the
    point before left, and the generator register at some state. -/
def PhiS1 (c : Dev nD) : (n : ℕ) → n ≤ cfg1.N → sProp 𝕄
  | 0, _ => Pipeline.ΦA spec1 c
  | n + 1, hn => iprop(pre1 c (owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(pre1 c (owns (c : Thread nD τ) scM1 fullShare (acc1 V c n hn)) ∗ (∃ r, prngReg c r)) := rfl
theorem PhiS1_pos (c : Dev nD) (n : ℕ) (h : n ≤ cfg1.N) (hz : n ≠ 0) :
    PhiS1 V c n h = iprop(pre1 c (owns (c : Thread nD τ) scM1 fullShare (acc1 V c (n - 1) (by omega))) ∗ (∃ r, prngReg c r)) := by
  cases n with
  | zero => exact absurd rfl hz
  | succ n => rfl

/-- The proof data of pipeline 1 on core `c`: the arrays as the region finds them; after the body each input's buffer at
    its block and the output's at the three layers of the accumulation; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, and what it returns. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4000000 in
/-- The body at any point: the inputs' memrefs hold their blocks; the closed forms say which case the point is in; the
    invariant hands the body the accumulator at what the point before left (at anything at the first point) and takes it
    back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  have hN : t.val < 8 := lt_of_lt_of_eq t.isLt (show cfg1.N = 8 from N_1)
  by_cases h1 : t.val % 8 = 7
  · have h0 : ¬t.val % 8 = 0 := by omega
    have hz : t.val ≠ 0 := by omega
    rw [show (dat1 V c).leavesExact 7 t = owns (c : Thread nD τ) (ms1_7 t) fullShare ((dat1 V c).after 7 t) from by
      unfold Dat.leavesExact; rw [liveAt1_7 t ((hcond1_1 t).mpr h1)], after1_7]
    unfold out1
    rw [acc1_step V c t h0, PhiS1_castSucc V c t, PhiS1_pos V c _ _ hz]
    unfold pre1
    iintro ⟨⟨⟨A1, A2, A3, A4, A5, A6, A7, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, HS0⟩
    isplitl [A1 A2 A3 A4 A5 A6 A7 HS0 Hg]
    · isplitl [A1 A2 A3 A4 A5 A6 A7 HS0]
      · isplitl [A1]; · iexact A1
        isplitl [A2]; · iexact A2
        isplitl [A3]; · iexact A3
        isplitl [A4]; · iexact A4
        isplitl [A5]; · iexact A5
        isplitl [A6]; · iexact A6
        isplitl [A7]; · iexact A7
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Dat.leavesExact_idle (dat1 V c) 7 t (idleAt1_7 t (fun h => h1 ((hcond1_1 t).mp h))) (noFlush1_7 t (fun h => h1 ((hcond1_1 t).mp h)))]
    by_cases h0 : t.val % 8 = 0
    · rw [acc1_reset V c t h0]
      have hpre : (dat1 V c).Φ t.castSucc ⊢ (iprop(pre1 c (iprop(∃ d, owns (c : Thread nD τ) scM1 fullShare d)) ∗ (∃ r, prngReg c r)) : sProp 𝕄) := by
        rw [PhiS1_castSucc V c t]
        by_cases hz : t.val = 0
        · rw [PhiS1_zero V c _ _ hz, PhiA1_eq]
        · rw [PhiS1_pos V c _ _ hz]
          unfold pre1
          iintro ⟨⟨A1, A2, A3, A4, A5, A6, A7, HS0⟩, Hg⟩
          isplitl [A1 A2 A3 A4 A5 A6 A7 HS0]
          · isplitl [A1]; · iexact A1
            isplitl [A2]; · iexact A2
            isplitl [A3]; · iexact A3
            isplitl [A4]; · iexact A4
            isplitl [A5]; · iexact A5
            isplitl [A6]; · iexact A6
            isplitl [A7]; · iexact A7
            iexists _; iexact HS0
          iexact Hg
      unfold pre1 at hpre
      unfold pre1
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ' := hpre $$ HΦ
      icases HΦ' with ⟨⟨A1, A2, A3, A4, A5, A6, A7, ⟨%ds, HS0⟩⟩, Hg⟩
      iapply (run1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) _ ds Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, HS0⟩
      isplitl [A1 A2 A3 A4 A5 A6 A7 HS0 Hg]
      · isplitl [A1 A2 A3 A4 A5 A6 A7 HS0]
        · isplitl [A1]; · iexact A1
          isplitl [A2]; · iexact A2
          isplitl [A3]; · iexact A3
          isplitl [A4]; · iexact A4
          isplitl [A5]; · iexact A5
          isplitl [A6]; · iexact A6
          isplitl [A7]; · iexact A7
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · have hz : t.val ≠ 0 := fun h => h0 (by rw [h])
      rw [acc1_step V c t h0, PhiS1_castSucc V c t, PhiS1_pos V c _ _ hz]
      unfold pre1
      iintro ⟨⟨⟨A1, A2, A3, A4, A5, A6, A7, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, HS0⟩
      isplitl [A1 A2 A3 A4 A5 A6 A7 HS0 Hg]
      · isplitl [A1 A2 A3 A4 A5 A6 A7 HS0]
        · isplitl [A1]; · iexact A1
          isplitl [A2]; · iexact A2
          isplitl [A3]; · iexact A3
          isplitl [A4]; · iexact A4
          isplitl [A5]; · iexact A5
          isplitl [A6]; · iexact A6
          isplitl [A7]; · iexact A7
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point; after the last point the invariant gives
    the class's back, the accumulator's contents forgotten. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 8 := N_1; omega), PhiA1_eq]
  unfold pre1
  iintro ⟨⟨A1, A2, A3, A4, A5, A6, A7, HS0⟩, Hg⟩
  isplitl [A1 A2 A3 A4 A5 A6 A7 HS0]
  · isplitl [A1]; · iexact A1
    isplitl [A2]; · iexact A2
    isplitl [A3]; · iexact A3
    isplitl [A4]; · iexact A4
    isplitl [A5]; · iexact A5
    isplitl [A6]; · iexact A6
    isplitl [A7]; · iexact A7
    iexists _; iexact HS0
  iexact Hg

end Cert.Kernel.Gen
end
-- ==== Proof.KIBody0.lean ====
import proofs.«429495_j14869176779093_2_alg».proof.Proof.Gen.KernelIdeal.Launch
import proofs.«429495_j14869176779093_2_alg».proof.Proof.Gen.KernelIdeal.Skeleton
import proofs.«429495_j14869176779093_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 0 (the propagation product). At grid point (n, k) the body adds to the carried accumulator the product of the
    point's block of the left operand with its block of the right operand: reset first when k = 0, copied to the
    output block when k = 15. Three control cases; in each the accumulator ends at the update payload of what it held
    (or of the zero payload), the two operand blocks unchanged, the output block untouched or at the accumulator. -/

abbrev cond0_0 (i : grid0.Coords) : Prop := (Scalar.cmpi .ne (Scalar.extui (Scalar.cmpi .eq (BitVec.ofNat 32 (i 1).val) 0#32)) 0#32) = 1#1
abbrev cond0_1 (i : grid0.Coords) : Prop := k0_cond2 i = 1#1

theorem hz2 : (![0, 0] : Fin 2 → Nat) = fun _ => 0 := by funext a; fin_cases a <;> rfl

set_option maxHeartbeats 2000000 in
/-- k = 0: the accumulator, whatever it held, ends at the update of the zero payload. -/
theorem run0_A (c : Dev nD) (i : grid0.Coords) (arg2 : Memref sig .tc .vmem S128x1024 .f32) (harg2 : arg2.IsWhole) (arg3 : Memref sig .tc .vmem S1024x2048 .f32) (harg3 : arg3.IsWhole) (arg4 : Memref sig .tc .vmem S128x2048 .f32) (harg4 : arg4.IsWhole) (arg5 : Memref sig .tc .vmem S128x2048 .f32) (harg5 : arg5.IsWhole)
    (hc0 : cond0_0 i) (hc1 : ¬cond0_1 i)
    (x0 : Vec F S128x1024 .f32) (x1 : Vec F S1024x2048 .f32) (xi2 : Vec F S128x2048 .f32) (xs0 : Vec F S128x2048 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs0
        ∗ (iprop(owns (c : Thread nD τ) arg2 fullShare x0 ∗ owns (c : Thread nD τ) arg3 fullShare x1 ∗ owns (c : Thread nD τ) arg4 fullShare xi2 ∗ owns (c : Thread nD τ) arg5 fullShare (k0_pay2 (k0_pay1 (F := F)) x0 x1)) -∗ K ⟨⟩))
      ⊢ wp frame (wpE (defs₀ (F := F)) Variants.none c none) E (cc0__propagate_kernel i arg2 harg2 arg3 harg3 arg4 harg4 arg5 harg5) K := by
  simp only [cc0__propagate_kernel_eq_skeleton]; unfold cc0__propagate_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  sl_unfold_words
  rw [View.read_writes_eq_canon _ _ _ (fun y => ⟨_, List.mem_cons_self, View.mem_set_unit_zero hz2 inb_S128x2048_S128x2048_0_0 y⟩), View.canon_cons_unit_zero hz2]
  simp only [View.readAt_eq_ld, harg5.read_unread, harg2.read_unread, harg3.read_unread, View.ld_unit_zero (S := S128x2048) hz2, View.ld_unit_zero (S := S128x1024) hz2, View.ld_unit_zero (S := S1024x2048) hz2, View.readCov_unit_zero (S := S128x2048) _ hz2]

set_option maxHeartbeats 2000000 in
/-- 0 < k < 15: the accumulator ends at the update of what it held. -/
theorem run0_B (c : Dev nD) (i : grid0.Coords) (arg2 : Memref sig .tc .vmem S128x1024 .f32) (harg2 : arg2.IsWhole) (arg3 : Memref sig .tc .vmem S1024x2048 .f32) (harg3 : arg3.IsWhole) (arg4 : Memref sig .tc .vmem S128x2048 .f32) (harg4 : arg4.IsWhole) (arg5 : Memref sig .tc .vmem S128x2048 .f32) (harg5 : arg5.IsWhole)
    (hc0 : ¬cond0_0 i) (hc1 : ¬cond0_1 i)
    (x0 : Vec F S128x1024 .f32) (x1 : Vec F S1024x2048 .f32) (xi2 : Vec F S128x2048 .f32) (xs0 : Vec F S128x2048 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs0
        ∗ (iprop(owns (c : Thread nD τ) arg2 fullShare x0 ∗ owns (c : Thread nD τ) arg3 fullShare x1 ∗ owns (c : Thread nD τ) arg4 fullShare xi2 ∗ owns (c : Thread nD τ) arg5 fullShare (k0_pay2 xs0 x0 x1)) -∗ K ⟨⟩))
      ⊢ wp frame (wpE (defs₀ (F := F)) Variants.none c none) E (cc0__propagate_kernel i arg2 harg2 arg3 harg3 arg4 harg4 arg5 harg5) K := by
  simp only [cc0__propagate_kernel_eq_skeleton]; unfold cc0__propagate_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS0
  ipureintro
  rw [View.read_writes_eq_canon _ _ _ (fun y => ⟨_, List.mem_singleton_self _, View.mem_set_unit_zero hz2 inb_S128x2048_S128x2048_0_0 y⟩), View.canon_unit_zero hz2]
  simp only [View.readAt_eq_ld, harg5.read_unread, harg2.read_unread, harg3.read_unread, View.ld_unit_zero (S := S128x2048) hz2, View.ld_unit_zero (S := S128x1024) hz2, View.ld_unit_zero (S := S1024x2048) hz2]

set_option maxHeartbeats 2000000 in
/-- k = 15: the accumulator ends at the update of what it held, and the output block at the same. -/
theorem run0_C (c : Dev nD) (i : grid0.Coords) (arg2 : Memref sig .tc .vmem S128x1024 .f32) (harg2 : arg2.IsWhole) (arg3 : Memref sig .tc .vmem S1024x2048 .f32) (harg3 : arg3.IsWhole) (arg4 : Memref sig .tc .vmem S128x2048 .f32) (harg4 : arg4.IsWhole) (arg5 : Memref sig .tc .vmem S128x2048 .f32) (harg5 : arg5.IsWhole)
    (hc0 : ¬cond0_0 i) (hc1 : cond0_1 i)
    (x0 : Vec F S128x1024 .f32) (x1 : Vec F S1024x2048 .f32) (xi2 : Vec F S128x2048 .f32) (xs0 : Vec F S128x2048 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs0
        ∗ (iprop(owns (c : Thread nD τ) arg2 fullShare x0 ∗ owns (c : Thread nD τ) arg3 fullShare x1 ∗ owns (c : Thread nD τ) arg4 fullShare (k0_pay2 xs0 x0 x1) ∗ owns (c : Thread nD τ) arg5 fullShare (k0_pay2 xs0 x0 x1)) -∗ K ⟨⟩))
      ⊢ wp frame (wpE (defs₀ (F := F)) Variants.none c none) E (cc0__propagate_kernel i arg2 harg2 arg3 harg3 arg4 harg4 arg5 harg5) K := by
  simp only [cc0__propagate_kernel_eq_skeleton]; unfold cc0__propagate_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg4.eq_unread hf2; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.mem_singleton_self _, View.mem_set_unit_zero hz2 inb_S128x2048_S128x2048_0_0 y⟩), View.canon_unit_zero hz2]
    simp only [View.readAt_eq_ld, harg5.read_unread, harg2.read_unread, harg3.read_unread, View.ld_unit_zero (S := S128x2048) hz2, View.ld_unit_zero (S := S128x1024) hz2, View.ld_unit_zero (S := S1024x2048) hz2, View.readCov_unit_zero (S := S128x2048) _ hz2]
  iexists _; isplitr
  swap; · iexact HS0
  ipureintro
  sl_unfold_words
  rw [View.read_writes_eq_canon _ _ _ (fun y => ⟨_, List.mem_singleton_self _, View.mem_set_unit_zero hz2 inb_S128x2048_S128x2048_0_0 y⟩), View.canon_unit_zero hz2]
  simp only [View.readAt_eq_ld, harg5.read_unread, harg2.read_unread, harg3.read_unread, View.ld_unit_zero (S := S128x2048) hz2, View.ld_unit_zero (S := S128x1024) hz2, View.ld_unit_zero (S := S1024x2048) hz2]

end Cert.KernelIdeal.Gen
end
-- ==== Proof.KIRegion0.lean ====
import proofs.«429495_j14869176779093_2_alg».proof.Proof.Gen.KernelIdeal.Launch
import proofs.«429495_j14869176779093_2_alg».proof.Proof.Gen.KernelIdeal.Skeleton
import proofs.«429495_j14869176779093_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import Idealize.ShloMosaic.Lib.Pipeline.RegionsLoop
import proofs.«429495_j14869176779093_2_alg».proof.Proof.KIBody0
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 0 as the pipeline sees it. Grid point t = 16 n + k works on block k of the left operand's columns and block
    (k, n) of the right operand; the carried accumulator after point t is the fold, over the points 16 n .. t, of the
    update payload starting from the zero payload; the output block is written at k = 15 only, with that fold. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The two conditions in closed form over the grid: k = 0 and k = 15. -/
theorem hcond0_0 : ∀ t : Fin cfg0.N, cond0_0 (grid0.coords t) ↔ t.val % 16 = 0 :=
  (by decide +kernel : ∀ t : Fin grid0.N, cond0_0 (grid0.coords t) ↔ t.val % 16 = 0)
theorem hcond0_1 : ∀ t : Fin cfg0.N, cond0_1 (grid0.coords t) ↔ t.val % 16 = 15 :=
  (by decide +kernel : ∀ t : Fin grid0.N, cond0_1 (grid0.coords t) ↔ t.val % 16 = 15)

/-- Where the windows are idle: the inputs never, the output wherever k ≠ 15 (and it is not written back there). -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- Each window's current staging memref at point `t`, as the pipeline passes it, and the scratch operand. -/
abbrev ms0_0 (t : Fin cfg0.N) : Memref sig .tc .vmem S128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x2048 .f32 := win0_2.stage (cfg0.slots t 2)
abbrev hs0_2 (t : Fin cfg0.N) : (ms0_2 t).IsWhole := hstage0_2 ((cfg0.slots t 2).cast nbuf0_2)
abbrev scM0 : Memref sig .tc .vmem S128x2048 .f32 := Memref.whole cc0_scratch0

/-- The scoped buffers this region never touches (the other region's staging buffers and scratch), each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_scratch0), ((c : Thread nD τ).loc cc1_scratch0) ↦{fullShare} f))

/-- The class invariant with the scratch operand as a memref owned at some contents, the untouched buffers beside it. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

/-- THE ACCUMULATION: what the carried accumulator holds after the body at position `n`. -/
def acc0 (c : Dev nD) : (n : ℕ) → n < cfg0.N → Vec F S128x2048 .f32
  | 0, hn => k0_pay2 (k0_pay1 (F := F)) (iblk0 V c 0 ⟨0, hn⟩) (iblk0 V c 1 ⟨0, hn⟩)
  | n + 1, hn =>
    if (n + 1) % 16 = 0 then k0_pay2 (k0_pay1 (F := F)) (iblk0 V c 0 ⟨n + 1, hn⟩) (iblk0 V c 1 ⟨n + 1, hn⟩)
    else k0_pay2 (acc0 c n (Nat.lt_of_succ_lt hn)) (iblk0 V c 0 ⟨n + 1, hn⟩) (iblk0 V c 1 ⟨n + 1, hn⟩)

theorem acc0_reset (c : Dev nD) (t : Fin cfg0.N) (h0 : t.val % 16 = 0) :
    acc0 V c t.val t.isLt = k0_pay2 (k0_pay1 (F := F)) (iblk0 V c 0 t) (iblk0 V c 1 t) := by
  obtain ⟨n, hn⟩ := t
  cases n with
  | zero => rfl
  | succ n => exact if_pos h0

theorem acc0_step (c : Dev nD) (t : Fin cfg0.N) (h0 : ¬t.val % 16 = 0) :
    acc0 V c t.val t.isLt = k0_pay2 (acc0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h0
  | succ n => exact if_neg h0

/-- The region invariant before position `n`: the class's before the first point; afterwards the accumulator at what the
    point before left, and the generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 c) ∗ (∃ r, prngReg c r)) := by
  cases n with
  | zero => exact absurd rfl hz
  | succ n => rfl

/-- The proof data of pipeline 0 on core `c`: the arrays as the region finds them; after the body each input's buffer at
    its block and the output's at the accumulation; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, and what it returns. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point: the inputs' memrefs hold their blocks; the closed forms say which case the point is in; the
    invariant hands the body the accumulator at what the point before left (at anything at the first point) and takes it
    back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 128 := lt_of_lt_of_eq t.isLt (show cfg0.N = 128 from N_0)
  by_cases h1 : t.val % 16 = 15
  · have h0 : ¬t.val % 16 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [acc0_step V c t h0, PhiS0_castSucc V c t, PhiS0_pos V c _ _ hz]
    iintro ⟨⟨⟨HS0, Hrest⟩, Hg⟩, Ho, ⟨%d0, H0⟩, ⟨%d1, H1⟩, ⟨%d2, H2⟩⟩
    iapply (run0_C c (grid0.coords t) _ _ _ _ _ _ _ _ (fun h => h0 ((hcond0_0 t).mp h)) ((hcond0_1 t).mpr h1) (iblk0 V c 0 t) (iblk0 V c 1 t) _ _ Set.univ _)
    isplitl [H0]; · iexact H0
    isplitl [H1]; · iexact H1
    isplitl [H2]; · iexact H2
    isplitl [HS0]; · iexact HS0
    iintro ⟨H0, H1, H2, HS0⟩
    isplitl [HS0 Hrest Hg]
    · isplitl [HS0 Hrest]
      · isplitl [HS0]; · iexact HS0
        iexact Hrest
      iexact Hg
    isplitl [Ho]; · iexact Ho
    isplitl [H0]; · iexact H0
    isplitl [H1]; · iexact H1
    iexact H2
  · rw [Dat.leavesExact_idle (dat0 V c) 2 t (idleAt0_2 t (fun h => h1 ((hcond0_1 t).mp h))) (noFlush0_2 t (fun h => h1 ((hcond0_1 t).mp h)))]
    by_cases h0 : t.val % 16 = 0
    · rw [acc0_reset V c t h0]
      have hpre : (dat0 V c).Φ t.castSucc ⊢ (iprop(iprop((∃ d, owns (c : Thread nD τ) scM0 fullShare d) ∗ rest0 c) ∗ (∃ r, prngReg c r)) : sProp 𝕄) := by
        rw [PhiS0_castSucc V c t]
        by_cases hz : t.val = 0
        · rw [PhiS0_zero V c _ _ hz, PhiA0_eq]
        · rw [PhiS0_pos V c _ _ hz]
          iintro ⟨⟨HS0, Hrest⟩, Hg⟩
          isplitl [HS0 Hrest]
          · isplitl [HS0]; · iexists _; iexact HS0
            iexact Hrest
          iexact Hg
      iintro ⟨HΦ, Ho, ⟨%d0, H0⟩, ⟨%d1, H1⟩, ⟨%d2, H2⟩⟩
      ihave HΦ' := hpre $$ HΦ
      icases HΦ' with ⟨⟨⟨%ds, HS0⟩, Hrest⟩, Hg⟩
      iapply (run0_A c (grid0.coords t) _ _ _ _ _ _ _ _ ((hcond0_0 t).mpr h0) (fun h => h1 ((hcond0_1 t).mp h)) (iblk0 V c 0 t) (iblk0 V c 1 t) _ ds Set.univ _)
      isplitl [H0]; · iexact H0
      isplitl [H1]; · iexact H1
      isplitl [H2]; · iexact H2
      isplitl [HS0]; · iexact HS0
      iintro ⟨H0, H1, H2, HS0⟩
      isplitl [HS0 Hrest Hg]
      · isplitl [HS0 Hrest]
        · isplitl [HS0]; · iexact HS0
          iexact Hrest
        iexact Hg
      isplitl [Ho]; · iexact Ho
      isplitl [H0]; · iexact H0
      isplitl [H1]; · iexact H1
      iexists _; iexact H2
    · have hz : t.val ≠ 0 := fun h => h0 (by rw [h])
      rw [acc0_step V c t h0, PhiS0_castSucc V c t, PhiS0_pos V c _ _ hz]
      iintro ⟨⟨⟨HS0, Hrest⟩, Hg⟩, Ho, ⟨%d0, H0⟩, ⟨%d1, H1⟩, ⟨%d2, H2⟩⟩
      iapply (run0_B c (grid0.coords t) _ _ _ _ _ _ _ _ (fun h => h0 ((hcond0_0 t).mp h)) (fun h => h1 ((hcond0_1 t).mp h)) (iblk0 V c 0 t) (iblk0 V c 1 t) _ _ Set.univ _)
      isplitl [H0]; · iexact H0
      isplitl [H1]; · iexact H1
      isplitl [H2]; · iexact H2
      isplitl [HS0]; · iexact HS0
      iintro ⟨H0, H1, H2, HS0⟩
      isplitl [HS0 Hrest Hg]
      · isplitl [HS0 Hrest]
        · isplitl [HS0]; · iexact HS0
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point; after the last point the invariant gives
    the class's back, the accumulator's contents forgotten. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS0, Hrest⟩, Hg⟩
  isplitl [HS0 Hrest]
  · isplitl [HS0]; · iexists _; iexact HS0
    iexact Hrest
  iexact Hg

end Cert.KernelIdeal.Gen
end
-- ==== Proof.KIBody1.lean ====
import proofs.«429495_j14869176779093_2_alg».proof.Proof.Gen.KernelIdeal.Launch
import proofs.«429495_j14869176779093_2_alg».proof.Proof.Gen.KernelIdeal.Skeleton
import proofs.«429495_j14869176779093_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1 (the three layers). At grid point k the body adds to the carried accumulator the product of the point's
    block of the propagated features with its block of the first weight matrix: reset first when k = 0; at k = 7 the
    finished first layer goes through the bias, max(., 0), the second layer, max(., 0) and the last layer into the output
    block. Three control cases. -/

abbrev cond1_0 (i : grid1.Coords) : Prop := (Scalar.cmpi .ne (Scalar.extui (Scalar.cmpi .eq (BitVec.ofNat 32 (i 0).val) 0#32)) 0#32) = 1#1
abbrev cond1_1 (i : grid1.Coords) : Prop := k1_cond2 i = 1#1

theorem hz2 : (![0, 0] : Fin 2 → Nat) = fun _ => 0 := by funext a; fin_cases a <;> rfl

set_option maxHeartbeats 4000000 in
/-- k = 0: the accumulator, whatever it held, ends at the update of the zero payload; the output block is untouched. -/
theorem run1_A (c : Dev nD) (i : grid1.Coords) (arg1 : Memref sig .tc .vmem S128x2048 .f32) (harg1 : arg1.IsWhole) (arg2 : Memref sig .tc .vmem S2048x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x10 .f32) (harg6 : arg6.IsWhole) (arg7 : Memref sig .tc .vmem S1x10 .f32) (harg7 : arg7.IsWhole) (arg8 : Memref sig .tc .vmem S128x10 .f32) (harg8 : arg8.IsWhole) (arg9 : Memref sig .tc .vmem S128x512 .f32) (harg9 : arg9.IsWhole)
    (hc0 : cond1_0 i) (hc1 : ¬cond1_1 i)
    (x0 : Vec F S128x2048 .f32) (x1 : Vec F S2048x512 .f32) (x2 : Vec F S1x512 .f32) (x3 : Vec F S512x512 .f32) (x4 : Vec F S1x512 .f32) (x5 : Vec F S512x10 .f32) (x6 : Vec F S1x10 .f32) (xi7 : Vec F S128x10 .f32) (xs0 : Vec F S128x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare (k1_pay2 (k1_pay1 (F := F)) x0 x1)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8 arg9 harg9) K := by
  simp only [cc1__mlp_kernel_eq_skeleton, k1_part1_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  iexists _; isplitr
  swap; · iexact HS0
  ipureintro
  sl_unfold_words
  rw [View.read_writes_eq_canon _ _ _ (fun y => ⟨_, List.mem_cons_self, View.mem_set_unit_zero hz2 inb_S128x512_S128x512_0_0 y⟩), View.canon_cons_unit_zero hz2]
  simp only [View.readAt_eq_ld, harg1.read_unread, harg2.read_unread, harg3.read_unread, harg4.read_unread, harg5.read_unread, harg6.read_unread, harg7.read_unread, harg8.read_unread, harg9.read_unread, View.ld_unit_zero (S := S128x2048) hz2, View.ld_unit_zero (S := S2048x512) hz2, View.ld_unit_zero (S := S1x512) hz2, View.ld_unit_zero (S := S512x512) hz2, View.ld_unit_zero (S := S512x10) hz2, View.ld_unit_zero (S := S1x10) hz2, View.ld_unit_zero (S := S128x10) hz2, View.ld_unit_zero (S := S128x512) hz2, View.readCov_unit_zero (S := S128x512) _ hz2]

set_option maxHeartbeats 4000000 in
/-- 0 < k < 7: the accumulator ends at the update of what it held; the output block is untouched. -/
theorem run1_B (c : Dev nD) (i : grid1.Coords) (arg1 : Memref sig .tc .vmem S128x2048 .f32) (harg1 : arg1.IsWhole) (arg2 : Memref sig .tc .vmem S2048x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x10 .f32) (harg6 : arg6.IsWhole) (arg7 : Memref sig .tc .vmem S1x10 .f32) (harg7 : arg7.IsWhole) (arg8 : Memref sig .tc .vmem S128x10 .f32) (harg8 : arg8.IsWhole) (arg9 : Memref sig .tc .vmem S128x512 .f32) (harg9 : arg9.IsWhole)
    (hc0 : ¬cond1_0 i) (hc1 : ¬cond1_1 i)
    (x0 : Vec F S128x2048 .f32) (x1 : Vec F S2048x512 .f32) (x2 : Vec F S1x512 .f32) (x3 : Vec F S512x512 .f32) (x4 : Vec F S1x512 .f32) (x5 : Vec F S512x10 .f32) (x6 : Vec F S1x10 .f32) (xi7 : Vec F S128x10 .f32) (xs0 : Vec F S128x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare (k1_pay2 xs0 x0 x1)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8 arg9 harg9) K := by
  simp only [cc1__mlp_kernel_eq_skeleton, k1_part1_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  iexists _; isplitr
  swap; · iexact HS0
  ipureintro
  sl_unfold_words
  rw [View.read_writes_eq_canon _ _ _ (fun y => ⟨_, List.mem_singleton_self _, View.mem_set_unit_zero hz2 inb_S128x512_S128x512_0_0 y⟩), View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S128x2048) hz2, View.ld_unit_zero (S := S2048x512) hz2, View.ld_unit_zero (S := S1x512) hz2, View.ld_unit_zero (S := S512x512) hz2, View.ld_unit_zero (S := S512x10) hz2, View.ld_unit_zero (S := S1x10) hz2, View.ld_unit_zero (S := S128x10) hz2, View.ld_unit_zero (S := S128x512) hz2, View.readCov_unit_zero (S := S128x512) _ hz2]

set_option maxHeartbeats 4000000 in
/-- k = 7: the accumulator ends at the update of what it held, and the output block at the three layers' result of it. -/
theorem run1_C (c : Dev nD) (i : grid1.Coords) (arg1 : Memref sig .tc .vmem S128x2048 .f32) (harg1 : arg1.IsWhole) (arg2 : Memref sig .tc .vmem S2048x512 .f32) (harg2 : arg2.IsWhole) (arg3 : Memref sig .tc .vmem S1x512 .f32) (harg3 : arg3.IsWhole) (arg4 : Memref sig .tc .vmem S512x512 .f32) (harg4 : arg4.IsWhole) (arg5 : Memref sig .tc .vmem S1x512 .f32) (harg5 : arg5.IsWhole) (arg6 : Memref sig .tc .vmem S512x10 .f32) (harg6 : arg6.IsWhole) (arg7 : Memref sig .tc .vmem S1x10 .f32) (harg7 : arg7.IsWhole) (arg8 : Memref sig .tc .vmem S128x10 .f32) (harg8 : arg8.IsWhole) (arg9 : Memref sig .tc .vmem S128x512 .f32) (harg9 : arg9.IsWhole)
    (hc0 : ¬cond1_0 i) (hc1 : cond1_1 i)
    (x0 : Vec F S128x2048 .f32) (x1 : Vec F S2048x512 .f32) (x2 : Vec F S1x512 .f32) (x3 : Vec F S512x512 .f32) (x4 : Vec F S1x512 .f32) (x5 : Vec F S512x10 .f32) (x6 : Vec F S1x10 .f32) (xi7 : Vec F S128x10 .f32) (xs0 : Vec F S128x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k1_pay3 (k1_pay7 (k1_pay2 xs0 x0 x1) x2 x3 x4 x5) (k1_pay8 (k1_pay2 xs0 x0 x1) x2 x3 x4 x5) x6) ∗ owns (c : Thread nD τ) arg9 fullShare (k1_pay2 xs0 x0 x1)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8 arg9 harg9) K := by
  simp only [cc1__mlp_kernel_eq_skeleton, k1_part1_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_words
    rw [View.read_writes_eq_canon _ _ _ (fun y => ⟨_, List.mem_singleton_self _, View.mem_set_unit_zero hz2 inb_S128x10_S128x10_0_0 y⟩), View.canon_unit_zero hz2]
    simp only [View.readAt_eq_ld, harg1.read_unread, harg2.read_unread, harg3.read_unread, harg4.read_unread, harg5.read_unread, harg6.read_unread, harg7.read_unread, harg8.read_unread, harg9.read_unread, View.ld_unit_zero (S := S128x2048) hz2, View.ld_unit_zero (S := S2048x512) hz2, View.ld_unit_zero (S := S1x512) hz2, View.ld_unit_zero (S := S512x512) hz2, View.ld_unit_zero (S := S512x10) hz2, View.ld_unit_zero (S := S1x10) hz2, View.ld_unit_zero (S := S128x10) hz2, View.ld_unit_zero (S := S128x512) hz2, View.readCov_unit_zero (S := S128x512) _ hz2]
  iexists _; isplitr
  swap; · iexact HS0
  ipureintro
  sl_unfold_words
  rw [View.read_writes_eq_canon _ _ _ (fun y => ⟨_, List.mem_singleton_self _, View.mem_set_unit_zero hz2 inb_S128x512_S128x512_0_0 y⟩), View.canon_unit_zero hz2]
  simp only [View.readAt_eq_ld, harg1.read_unread, harg2.read_unread, harg3.read_unread, harg4.read_unread, harg5.read_unread, harg6.read_unread, harg7.read_unread, harg8.read_unread, harg9.read_unread, View.ld_unit_zero (S := S128x2048) hz2, View.ld_unit_zero (S := S2048x512) hz2, View.ld_unit_zero (S := S1x512) hz2, View.ld_unit_zero (S := S512x512) hz2, View.ld_unit_zero (S := S512x10) hz2, View.ld_unit_zero (S := S1x10) hz2, View.ld_unit_zero (S := S128x10) hz2, View.ld_unit_zero (S := S128x512) hz2, View.readCov_unit_zero (S := S128x512) _ hz2]

end Cert.KernelIdeal.Gen
end
-- ==== Proof.KIRegion1.lean ====
import proofs.«429495_j14869176779093_2_alg».proof.Proof.Gen.KernelIdeal.Launch
import proofs.«429495_j14869176779093_2_alg».proof.Proof.Gen.KernelIdeal.Skeleton
import proofs.«429495_j14869176779093_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value
import Idealize.ShloMosaic.Lib.Pipeline.RegionsLoop
import proofs.«429495_j14869176779093_2_alg».proof.Proof.KIBody1
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1 as the pipeline sees it. Grid point k (of 8) works on column block k of the propagated features and row
    block k of the first weight matrix; the carried accumulator after point k is the fold, over the points 0 .. k, of
    the update payload starting from the zero payload; the other five inputs (two biases, two weight matrices, the last
    bias) are the same block at every point; the output block is written at k = 7 only, with the three layers applied
    to that fold. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The two conditions in closed form over the grid: k = 0 and k = 7. -/
theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = 7 :=
  (by decide +kernel : ∀ t : Fin grid1.N, cond1_1 (grid1.coords t) ↔ t.val % 8 = 7)

/-- Where the windows are idle: the inputs never, the output wherever k ≠ 7 (and it is not written back there). -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel

/-- Each window's current staging memref at point `t`, as the pipeline passes it, and the scratch operand. -/
abbrev ms1_0 (t : Fin cfg1.N) : Memref sig .tc .vmem S128x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x10 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x10 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x10 .f32 := win1_7.stage (cfg1.slots t 7)
abbrev hs1_7 (t : Fin cfg1.N) : (ms1_7 t).IsWhole := hstage1_7 ((cfg1.slots t 7).cast nbuf1_7)
abbrev scM1 : Memref sig .tc .vmem S128x512 .f32 := Memref.whole cc1_scratch0

/-- The scoped buffers this region never touches (the other region's staging buffers and scratch), each at some
    contents, with the proposition `X` about this region's scratch in the last place. -/
def pre1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ X)

/-- The class invariant with the scratch operand as a memref owned at some contents, the untouched buffers before it. -/
theorem PhiA1_eq (c : Dev nD) :
    (Pipeline.ΦA spec1 c : sProp 𝕄)
      = iprop(pre1 c (iprop(∃ d, owns (c : Thread nD τ) scM1 fullShare d)) ∗ (∃ r, prngReg c r)) := by
  unfold Pipeline.ΦA pre1; rw [scopedRest1_eq]; simp only [scM1, owns_whole]; try rfl

/-- THE ACCUMULATION: what the carried accumulator holds after the body at position `n`. -/
def acc1 (c : Dev nD) : (n : ℕ) → n < cfg1.N → Vec F S128x512 .f32
  | 0, hn => k1_pay2 (k1_pay1 (F := F)) (iblk1 V c 0 ⟨0, hn⟩) (iblk1 V c 1 ⟨0, hn⟩)
  | n + 1, hn =>
    if (n + 1) % 8 = 0 then k1_pay2 (k1_pay1 (F := F)) (iblk1 V c 0 ⟨n + 1, hn⟩) (iblk1 V c 1 ⟨n + 1, hn⟩)
    else k1_pay2 (acc1 c n (Nat.lt_of_succ_lt hn)) (iblk1 V c 0 ⟨n + 1, hn⟩) (iblk1 V c 1 ⟨n + 1, hn⟩)

theorem acc1_reset (c : Dev nD) (t : Fin cfg1.N) (h0 : t.val % 8 = 0) :
    acc1 V c t.val t.isLt = k1_pay2 (k1_pay1 (F := F)) (iblk1 V c 0 t) (iblk1 V c 1 t) := by
  obtain ⟨n, hn⟩ := t
  cases n with
  | zero => rfl
  | succ n => exact if_pos h0

theorem acc1_step (c : Dev nD) (t : Fin cfg1.N) (h0 : ¬t.val % 8 = 0) :
    acc1 V c t.val t.isLt = k1_pay2 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact if_neg h0

/-- THE OUTPUT BLOCK at point `t`: the last layer applied to the two hidden layers of the accumulation there. -/
def out1 (c : Dev nD) (t : Fin cfg1.N) : Vec F S128x10 .f32 :=
  k1_pay3 (k1_pay7 (acc1 V c t.val t.isLt) (iblk1 V c 2 t) (iblk1 V c 3 t) (iblk1 V c 4 t) (iblk1 V c 5 t))
    (k1_pay8 (acc1 V c t.val t.isLt) (iblk1 V c 2 t) (iblk1 V c 3 t) (iblk1 V c 4 t) (iblk1 V c 5 t)) (iblk1 V c 6 t)

/-- The region invariant before position `n`: the class's before the first point; afterwards the accumulator at what the
    point before left, and the generator register at some state. -/
def PhiS1 (c : Dev nD) : (n : ℕ) → n ≤ cfg1.N → sProp 𝕄
  | 0, _ => Pipeline.ΦA spec1 c
  | n + 1, hn => iprop(pre1 c (owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(pre1 c (owns (c : Thread nD τ) scM1 fullShare (acc1 V c n hn)) ∗ (∃ r, prngReg c r)) := rfl
theorem PhiS1_pos (c : Dev nD) (n : ℕ) (h : n ≤ cfg1.N) (hz : n ≠ 0) :
    PhiS1 V c n h = iprop(pre1 c (owns (c : Thread nD τ) scM1 fullShare (acc1 V c (n - 1) (by omega))) ∗ (∃ r, prngReg c r)) := by
  cases n with
  | zero => exact absurd rfl hz
  | succ n => rfl

/-- The proof data of pipeline 1 on core `c`: the arrays as the region finds them; after the body each input's buffer at
    its block and the output's at the three layers of the accumulation; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, and what it returns. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4000000 in
/-- The body at any point: the inputs' memrefs hold their blocks; the closed forms say which case the point is in; the
    invariant hands the body the accumulator at what the point before left (at anything at the first point) and takes it
    back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  have hN : t.val < 8 := lt_of_lt_of_eq t.isLt (show cfg1.N = 8 from N_1)
  by_cases h1 : t.val % 8 = 7
  · have h0 : ¬t.val % 8 = 0 := by omega
    have hz : t.val ≠ 0 := by omega
    rw [show (dat1 V c).leavesExact 7 t = owns (c : Thread nD τ) (ms1_7 t) fullShare ((dat1 V c).after 7 t) from by
      unfold Dat.leavesExact; rw [liveAt1_7 t ((hcond1_1 t).mpr h1)], after1_7]
    unfold out1
    rw [acc1_step V c t h0, PhiS1_castSucc V c t, PhiS1_pos V c _ _ hz]
    unfold pre1
    iintro ⟨⟨⟨A1, A2, A3, A4, A5, A6, A7, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, HS0⟩
    isplitl [A1 A2 A3 A4 A5 A6 A7 HS0 Hg]
    · isplitl [A1 A2 A3 A4 A5 A6 A7 HS0]
      · isplitl [A1]; · iexact A1
        isplitl [A2]; · iexact A2
        isplitl [A3]; · iexact A3
        isplitl [A4]; · iexact A4
        isplitl [A5]; · iexact A5
        isplitl [A6]; · iexact A6
        isplitl [A7]; · iexact A7
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Dat.leavesExact_idle (dat1 V c) 7 t (idleAt1_7 t (fun h => h1 ((hcond1_1 t).mp h))) (noFlush1_7 t (fun h => h1 ((hcond1_1 t).mp h)))]
    by_cases h0 : t.val % 8 = 0
    · rw [acc1_reset V c t h0]
      have hpre : (dat1 V c).Φ t.castSucc ⊢ (iprop(pre1 c (iprop(∃ d, owns (c : Thread nD τ) scM1 fullShare d)) ∗ (∃ r, prngReg c r)) : sProp 𝕄) := by
        rw [PhiS1_castSucc V c t]
        by_cases hz : t.val = 0
        · rw [PhiS1_zero V c _ _ hz, PhiA1_eq]
        · rw [PhiS1_pos V c _ _ hz]
          unfold pre1
          iintro ⟨⟨A1, A2, A3, A4, A5, A6, A7, HS0⟩, Hg⟩
          isplitl [A1 A2 A3 A4 A5 A6 A7 HS0]
          · isplitl [A1]; · iexact A1
            isplitl [A2]; · iexact A2
            isplitl [A3]; · iexact A3
            isplitl [A4]; · iexact A4
            isplitl [A5]; · iexact A5
            isplitl [A6]; · iexact A6
            isplitl [A7]; · iexact A7
            iexists _; iexact HS0
          iexact Hg
      unfold pre1 at hpre
      unfold pre1
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HΦ' := hpre $$ HΦ
      icases HΦ' with ⟨⟨A1, A2, A3, A4, A5, A6, A7, ⟨%ds, HS0⟩⟩, Hg⟩
      iapply (run1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) _ ds Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, HS0⟩
      isplitl [A1 A2 A3 A4 A5 A6 A7 HS0 Hg]
      · isplitl [A1 A2 A3 A4 A5 A6 A7 HS0]
        · isplitl [A1]; · iexact A1
          isplitl [A2]; · iexact A2
          isplitl [A3]; · iexact A3
          isplitl [A4]; · iexact A4
          isplitl [A5]; · iexact A5
          isplitl [A6]; · iexact A6
          isplitl [A7]; · iexact A7
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · have hz : t.val ≠ 0 := fun h => h0 (by rw [h])
      rw [acc1_step V c t h0, PhiS1_castSucc V c t, PhiS1_pos V c _ _ hz]
      unfold pre1
      iintro ⟨⟨⟨A1, A2, A3, A4, A5, A6, A7, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, HS0⟩
      isplitl [A1 A2 A3 A4 A5 A6 A7 HS0 Hg]
      · isplitl [A1 A2 A3 A4 A5 A6 A7 HS0]
        · isplitl [A1]; · iexact A1
          isplitl [A2]; · iexact A2
          isplitl [A3]; · iexact A3
          isplitl [A4]; · iexact A4
          isplitl [A5]; · iexact A5
          isplitl [A6]; · iexact A6
          isplitl [A7]; · iexact A7
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point; after the last point the invariant gives
    the class's back, the accumulator's contents forgotten. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 8 := N_1; omega), PhiA1_eq]
  unfold pre1
  iintro ⟨⟨A1, A2, A3, A4, A5, A6, A7, HS0⟩, Hg⟩
  isplitl [A1 A2 A3 A4 A5 A6 A7 HS0]
  · isplitl [A1]; · iexact A1
    isplitl [A2]; · iexact A2
    isplitl [A3]; · iexact A3
    isplitl [A4]; · iexact A4
    isplitl [A5]; · iexact A5
    isplitl [A6]; · iexact A6
    isplitl [A7]; · iexact A7
    iexists _; iexact HS0
  iexact Hg

end Cert.KernelIdeal.Gen
end
-- ==== Proof.Spec.lean ====
/-
  The two programs over the reals. A graph on 16384 nodes given by 1064960 edges (source, destination, normalised
  weight): the kernel builds the dense matrix A[s, d] = the sum of the weights of the edges from s to d and multiplies
  the features by it; the reference gathers each edge's source column, scales it by the edge's weight and sums by
  destination. Both then apply the same three affine layers, the first two followed by max(., 0).
-/
import Mathlib.Algebra.BigOperators.Group.Finset.Basic
import Mathlib.Algebra.BigOperators.Group.Finset.Sigma
import Mathlib.Algebra.BigOperators.Group.Finset.Piecewise
import Mathlib.Algebra.BigOperators.Ring.Finset
import Mathlib.Data.Real.Basic
import Mathlib.Data.EReal.Basic
import Mathlib.Data.EReal.Operations

noncomputable section

open scoped BigOperators

namespace Cert.Spec

/-- the dense adjacency entry: the weights of the edges from `s` to `d`, summed -/
def adj {n E : ℕ} (src dst : Fin E → Fin n) (nr : Fin E → ℝ) (s d : Fin n) : ℝ :=
  ∑ e ∈ Finset.univ.filter (fun e => src e = s ∧ dst e = d), nr e

/-- propagation through the dense matrix: (x A)[b, d] -/
def propDense {B n : ℕ} (x : Fin B → Fin n → ℝ) (A : Fin n → Fin n → ℝ) (b : Fin B) (d : Fin n) : ℝ :=
  ∑ s, x b s * A s d

/-- propagation edge by edge: the edges into `d`, each carrying its source's feature scaled by its weight -/
def propEdges {B n E : ℕ} (x : Fin B → Fin n → ℝ) (src dst : Fin E → Fin n) (nr : Fin E → ℝ) (b : Fin B) (d : Fin n) : ℝ :=
  ∑ e ∈ Finset.univ.filter (fun e => dst e = d), x b (src e) * nr e

/-- Grouping the edges into `d` by their source: the dense product is the edge sum (distributivity over the reals). -/
theorem propDense_adj {B n E : ℕ} (x : Fin B → Fin n → ℝ) (src dst : Fin E → Fin n) (nr : Fin E → ℝ) (b : Fin B) (d : Fin n) :
    propDense x (adj src dst nr) b d = propEdges x src dst nr b d := by
  classical
  unfold propDense adj propEdges
  simp_rw [Finset.mul_sum, Finset.sum_filter]
  rw [Finset.sum_comm]
  refine Finset.sum_congr rfl (fun e _ => ?_)
  by_cases h : dst e = d
  · simp [h]
  · simp [h]

/-- one affine layer: h W^T + bias -/
def layer {B K M : ℕ} (h : Fin B → Fin K → ℝ) (W : Fin M → Fin K → ℝ) (bias : Fin M → ℝ) (b : Fin B) (j : Fin M) : ℝ :=
  (∑ k, h b k * W j k) + bias j

/-- the three layers, the first two followed by max(., 0) -/
def mlp {B n H C : ℕ} (h0 : Fin B → Fin n → ℝ) (W1 : Fin H → Fin n → ℝ) (b1 : Fin H → ℝ) (W2 : Fin H → Fin H → ℝ) (b2 : Fin H → ℝ)
    (Wfc : Fin C → Fin H → ℝ) (bfc : Fin C → ℝ) (b : Fin B) (c : Fin C) : ℝ :=
  layer (fun b j => max (layer (fun b i => max (layer h0 W1 b1 b i) 0) W2 b2 b j) 0) Wfc bfc b c

/-- the coercion to the extended reals of a finite sum of reals -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The three-pass product of two reals read on the extended reals: x*y + x*(y - y) + (x - x)*y is x*y. -/
theorem dot3_term (x y : ℝ) : ((x : EReal) * (y : EReal)) + ((x : EReal) * ((y : EReal) - (y : EReal))) + (((x : EReal) - (x : EReal)) * (y : EReal)) = ((x * y : ℝ) : EReal) := by
  have hy : (y : EReal) - (y : EReal) = 0 := by rw [← EReal.coe_sub, sub_self, EReal.coe_zero]
  have hx : (x : EReal) - (x : EReal) = 0 := by rw [← EReal.coe_sub, sub_self, EReal.coe_zero]
  rw [hy, hx, mul_zero, zero_mul, add_zero, add_zero, EReal.coe_mul]

end Cert.Spec

end
-- ==== Proof.KIPay.lean ====
/-
  The kernels' update payloads read at one entry, over the extended reals, when their operands are real.
  A payload adds to the accumulator the three-pass product of the point's two blocks: with hi = v and lo = v - v, the
  passes are hi*hi, hi*lo and lo*hi; for real v the difference v - v is 0, so the three passes sum to the plain product.
-/
import proofs.«429495_j14869176779093_2_alg».proof.Proof.Gen.KernelIdeal.Skeleton
import proofs.«429495_j14869176779093_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen

variable [Cert.KernelIdeal.Facts]

/-! ## The block products at an entry -/

/-- the first kernel's block product: the left operand's row coordinate is the entry's row -/
theorem mm0_lhs0 (j : S128x2048.Idx) (r : dot_S128x1024_S1024x2048_S128x2048_1_0_0_1_n_n.contr.Idx) :
    (dot_S128x1024_S1024x2048_S128x2048_1_0_0_1_n_n.lhsIdx j r 0).val = (j 0).val := by
  unfold DotDims.lhsIdx
  rw [dif_neg (show ¬(0 : Fin S128x1024.rank) ∈ dot_S128x1024_S1024x2048_S128x2048_1_0_0_1_n_n.lhsBatch by decide), dif_pos (show (0 : Fin S128x1024.rank) ∈ dot_S128x1024_S1024x2048_S128x2048_1_0_0_1_n_n.lhsNonContracting by decide)]
  rfl
/-- the first kernel's block product: the right operand's column coordinate is the entry's column -/
theorem mm0_rhs1 (j : S128x2048.Idx) (r : dot_S128x1024_S1024x2048_S128x2048_1_0_0_1_n_n.contr.Idx) :
    (dot_S128x1024_S1024x2048_S128x2048_1_0_0_1_n_n.rhsIdx j r 1).val = (j 1).val := by
  unfold DotDims.rhsIdx
  rw [dif_neg (show ¬(1 : Fin S1024x2048.rank) ∈ dot_S128x1024_S1024x2048_S128x2048_1_0_0_1_n_n.rhsBatch by decide), dif_pos (show (1 : Fin S1024x2048.rank) ∈ dot_S128x1024_S1024x2048_S128x2048_1_0_0_1_n_n.rhsNonContracting by decide)]
  rfl
/-- the first kernel's block product into the zero accumulator, read at (p, q): the sum over the contracted axis k of a[p, k] * b[k, q] -/
theorem mm0_apply {φ₁ φ₂ : FTy} (a : FVec Ideal S128x1024 φ₁) (b : FVec Ideal S1024x2048 φ₂) (p : Fin 128) (q : Fin 2048) :
    matmul dot_S128x1024_S1024x2048_S128x2048_1_0_0_1_n_n none a b (constant S128x2048 .f32 0x00000000#32) (ix2 p q)
      = ∑ k : Fin 1024, a (ix2 p k) * b (ix2 k q) := by
  show FloatOps.matmul dot_S128x1024_S1024x2048_S128x2048_1_0_0_1_n_n none a b (constant S128x2048 .f32 0x00000000#32) (ix2 p q) = _
  rw [Ideal.matmul_constant_zero_apply, ← Equiv.sum_comp (contrEquiv1 dot_S128x1024_S1024x2048_S128x2048_1_0_0_1_n_n 1024 rfl rfl).symm]
  refine Finset.sum_congr rfl fun k _ => ?_
  have hk := contrEquiv1_symm_val dot_S128x1024_S1024x2048_S128x2048_1_0_0_1_n_n 1024 rfl rfl k
  have el : dot_S128x1024_S1024x2048_S128x2048_1_0_0_1_n_n.lhsIdx (ix2 p q) ((contrEquiv1 dot_S128x1024_S1024x2048_S128x2048_1_0_0_1_n_n 1024 rfl rfl).symm k) = ix2 p k := funext fun c => Fin.ext (by
    match c with
    | ⟨0, _⟩ => exact mm0_lhs0 _ _
    | ⟨1, _⟩ => exact (dot_S128x1024_S1024x2048_S128x2048_1_0_0_1_n_n.lhsIdx_val_of_single rfl _ _).trans hk)
  have er : dot_S128x1024_S1024x2048_S128x2048_1_0_0_1_n_n.rhsIdx (ix2 p q) ((contrEquiv1 dot_S128x1024_S1024x2048_S128x2048_1_0_0_1_n_n 1024 rfl rfl).symm k) = ix2 k q := funext fun c => Fin.ext (by
    match c with
    | ⟨0, _⟩ => exact (dot_S128x1024_S1024x2048_S128x2048_1_0_0_1_n_n.rhsIdx_val_of_single rfl _ _).trans hk
    | ⟨1, _⟩ => exact mm0_rhs1 _ _)
  rw [el, er]

/-- the second kernel's first-layer block product: the left operand's row coordinate is the entry's row -/
theorem mm1_lhs0 (j : S128x512.Idx) (r : dot_S128x2048_S2048x512_S128x512_1_0_0_1_n_n.contr.Idx) :
    (dot_S128x2048_S2048x512_S128x512_1_0_0_1_n_n.lhsIdx j r 0).val = (j 0).val := by
  unfold DotDims.lhsIdx
  rw [dif_neg (show ¬(0 : Fin S128x2048.rank) ∈ dot_S128x2048_S2048x512_S128x512_1_0_0_1_n_n.lhsBatch by decide), dif_pos (show (0 : Fin S128x2048.rank) ∈ dot_S128x2048_S2048x512_S128x512_1_0_0_1_n_n.lhsNonContracting by decide)]
  rfl
/-- the second kernel's first-layer block product: the right operand's column coordinate is the entry's column -/
theorem mm1_rhs1 (j : S128x512.Idx) (r : dot_S128x2048_S2048x512_S128x512_1_0_0_1_n_n.contr.Idx) :
    (dot_S128x2048_S2048x512_S128x512_1_0_0_1_n_n.rhsIdx j r 1).val = (j 1).val := by
  unfold DotDims.rhsIdx
  rw [dif_neg (show ¬(1 : Fin S2048x512.rank) ∈ dot_S128x2048_S2048x512_S128x512_1_0_0_1_n_n.rhsBatch by decide), dif_pos (show (1 : Fin S2048x512.rank) ∈ dot_S128x2048_S2048x512_S128x512_1_0_0_1_n_n.rhsNonContracting by decide)]
  rfl
/-- the second kernel's first-layer block product into the zero accumulator, read at (p, q): the sum over the contracted axis k of a[p, k] * b[k, q] -/
theorem mm1_apply {φ₁ φ₂ : FTy} (a : FVec Ideal S128x2048 φ₁) (b : FVec Ideal S2048x512 φ₂) (p : Fin 128) (q : Fin 512) :
    matmul dot_S128x2048_S2048x512_S128x512_1_0_0_1_n_n none a b (constant S128x512 .f32 0x00000000#32) (ix2 p q)
      = ∑ k : Fin 2048, a (ix2 p k) * b (ix2 k q) := by
  show FloatOps.matmul dot_S128x2048_S2048x512_S128x512_1_0_0_1_n_n none a b (constant S128x512 .f32 0x00000000#32) (ix2 p q) = _
  rw [Ideal.matmul_constant_zero_apply, ← Equiv.sum_comp (contrEquiv1 dot_S128x2048_S2048x512_S128x512_1_0_0_1_n_n 2048 rfl rfl).symm]
  refine Finset.sum_congr rfl fun k _ => ?_
  have hk := contrEquiv1_symm_val dot_S128x2048_S2048x512_S128x512_1_0_0_1_n_n 2048 rfl rfl k
  have el : dot_S128x2048_S2048x512_S128x512_1_0_0_1_n_n.lhsIdx (ix2 p q) ((contrEquiv1 dot_S128x2048_S2048x512_S128x512_1_0_0_1_n_n 2048 rfl rfl).symm k) = ix2 p k := funext fun c => Fin.ext (by
    match c with
    | ⟨0, _⟩ => exact mm1_lhs0 _ _
    | ⟨1, _⟩ => exact (dot_S128x2048_S2048x512_S128x512_1_0_0_1_n_n.lhsIdx_val_of_single rfl _ _).trans hk)
  have er : dot_S128x2048_S2048x512_S128x512_1_0_0_1_n_n.rhsIdx (ix2 p q) ((contrEquiv1 dot_S128x2048_S2048x512_S128x512_1_0_0_1_n_n 2048 rfl rfl).symm k) = ix2 k q := funext fun c => Fin.ext (by
    match c with
    | ⟨0, _⟩ => exact (dot_S128x2048_S2048x512_S128x512_1_0_0_1_n_n.rhsIdx_val_of_single rfl _ _).trans hk
    | ⟨1, _⟩ => exact mm1_rhs1 _ _)
  rw [el, er]

/-- the second layer's product: the left operand's row coordinate is the entry's row -/
theorem mm2_lhs0 (j : S128x512.Idx) (r : dot_S128x512_S512x512_S128x512_1_0_0_1_n_n.contr.Idx) :
    (dot_S128x512_S512x512_S128x512_1_0_0_1_n_n.lhsIdx j r 0).val = (j 0).val := by
  unfold DotDims.lhsIdx
  rw [dif_neg (show ¬(0 : Fin S128x512.rank) ∈ dot_S128x512_S512x512_S128x512_1_0_0_1_n_n.lhsBatch by decide), dif_pos (show (0 : Fin S128x512.rank) ∈ dot_S128x512_S512x512_S128x512_1_0_0_1_n_n.lhsNonContracting by decide)]
  rfl
/-- the second layer's product: the right operand's column coordinate is the entry's column -/
theorem mm2_rhs1 (j : S128x512.Idx) (r : dot_S128x512_S512x512_S128x512_1_0_0_1_n_n.contr.Idx) :
    (dot_S128x512_S512x512_S128x512_1_0_0_1_n_n.rhsIdx j r 1).val = (j 1).val := by
  unfold DotDims.rhsIdx
  rw [dif_neg (show ¬(1 : Fin S512x512.rank) ∈ dot_S128x512_S512x512_S128x512_1_0_0_1_n_n.rhsBatch by decide), dif_pos (show (1 : Fin S512x512.rank) ∈ dot_S128x512_S512x512_S128x512_1_0_0_1_n_n.rhsNonContracting by decide)]
  rfl
/-- the second layer's product into the zero accumulator, read at (p, q): the sum over the contracted axis k of a[p, k] * b[k, q] -/
theorem mm2_apply {φ₁ φ₂ : FTy} (a : FVec Ideal S128x512 φ₁) (b : FVec Ideal S512x512 φ₂) (p : Fin 128) (q : Fin 512) :
    matmul dot_S128x512_S512x512_S128x512_1_0_0_1_n_n none a b (constant S128x512 .f32 0x00000000#32) (ix2 p q)
      = ∑ k : Fin 512, a (ix2 p k) * b (ix2 k q) := by
  show FloatOps.matmul dot_S128x512_S512x512_S128x512_1_0_0_1_n_n none a b (constant S128x512 .f32 0x00000000#32) (ix2 p q) = _
  rw [Ideal.matmul_constant_zero_apply, ← Equiv.sum_comp (contrEquiv1 dot_S128x512_S512x512_S128x512_1_0_0_1_n_n 512 rfl rfl).symm]
  refine Finset.sum_congr rfl fun k _ => ?_
  have hk := contrEquiv1_symm_val dot_S128x512_S512x512_S128x512_1_0_0_1_n_n 512 rfl rfl k
  have el : dot_S128x512_S512x512_S128x512_1_0_0_1_n_n.lhsIdx (ix2 p q) ((contrEquiv1 dot_S128x512_S512x512_S128x512_1_0_0_1_n_n 512 rfl rfl).symm k) = ix2 p k := funext fun c => Fin.ext (by
    match c with
    | ⟨0, _⟩ => exact mm2_lhs0 _ _
    | ⟨1, _⟩ => exact (dot_S128x512_S512x512_S128x512_1_0_0_1_n_n.lhsIdx_val_of_single rfl _ _).trans hk)
  have er : dot_S128x512_S512x512_S128x512_1_0_0_1_n_n.rhsIdx (ix2 p q) ((contrEquiv1 dot_S128x512_S512x512_S128x512_1_0_0_1_n_n 512 rfl rfl).symm k) = ix2 k q := funext fun c => Fin.ext (by
    match c with
    | ⟨0, _⟩ => exact (dot_S128x512_S512x512_S128x512_1_0_0_1_n_n.rhsIdx_val_of_single rfl _ _).trans hk
    | ⟨1, _⟩ => exact mm2_rhs1 _ _)
  rw [el, er]

/-- the last layer's product: the left operand's row coordinate is the entry's row -/
theorem mm3_lhs0 (j : S128x10.Idx) (r : dot_S128x512_S512x10_S128x10_1_0_0_1_n_n.contr.Idx) :
    (dot_S128x512_S512x10_S128x10_1_0_0_1_n_n.lhsIdx j r 0).val = (j 0).val := by
  unfold DotDims.lhsIdx
  rw [dif_neg (show ¬(0 : Fin S128x512.rank) ∈ dot_S128x512_S512x10_S128x10_1_0_0_1_n_n.lhsBatch by decide), dif_pos (show (0 : Fin S128x512.rank) ∈ dot_S128x512_S512x10_S128x10_1_0_0_1_n_n.lhsNonContracting by decide)]
  rfl
/-- the last layer's product: the right operand's column coordinate is the entry's column -/
theorem mm3_rhs1 (j : S128x10.Idx) (r : dot_S128x512_S512x10_S128x10_1_0_0_1_n_n.contr.Idx) :
    (dot_S128x512_S512x10_S128x10_1_0_0_1_n_n.rhsIdx j r 1).val = (j 1).val := by
  unfold DotDims.rhsIdx
  rw [dif_neg (show ¬(1 : Fin S512x10.rank) ∈ dot_S128x512_S512x10_S128x10_1_0_0_1_n_n.rhsBatch by decide), dif_pos (show (1 : Fin S512x10.rank) ∈ dot_S128x512_S512x10_S128x10_1_0_0_1_n_n.rhsNonContracting by decide)]
  rfl
/-- the last layer's product into the zero accumulator, read at (p, q): the sum over the contracted axis k of a[p, k] * b[k, q] -/
theorem mm3_apply {φ₁ φ₂ : FTy} (a : FVec Ideal S128x512 φ₁) (b : FVec Ideal S512x10 φ₂) (p : Fin 128) (q : Fin 10) :
    matmul dot_S128x512_S512x10_S128x10_1_0_0_1_n_n none a b (constant S128x10 .f32 0x00000000#32) (ix2 p q)
      = ∑ k : Fin 512, a (ix2 p k) * b (ix2 k q) := by
  show FloatOps.matmul dot_S128x512_S512x10_S128x10_1_0_0_1_n_n none a b (constant S128x10 .f32 0x00000000#32) (ix2 p q) = _
  rw [Ideal.matmul_constant_zero_apply, ← Equiv.sum_comp (contrEquiv1 dot_S128x512_S512x10_S128x10_1_0_0_1_n_n 512 rfl rfl).symm]
  refine Finset.sum_congr rfl fun k _ => ?_
  have hk := contrEquiv1_symm_val dot_S128x512_S512x10_S128x10_1_0_0_1_n_n 512 rfl rfl k
  have el : dot_S128x512_S512x10_S128x10_1_0_0_1_n_n.lhsIdx (ix2 p q) ((contrEquiv1 dot_S128x512_S512x10_S128x10_1_0_0_1_n_n 512 rfl rfl).symm k) = ix2 p k := funext fun c => Fin.ext (by
    match c with
    | ⟨0, _⟩ => exact mm3_lhs0 _ _
    | ⟨1, _⟩ => exact (dot_S128x512_S512x10_S128x10_1_0_0_1_n_n.lhsIdx_val_of_single rfl _ _).trans hk)
  have er : dot_S128x512_S512x10_S128x10_1_0_0_1_n_n.rhsIdx (ix2 p q) ((contrEquiv1 dot_S128x512_S512x10_S128x10_1_0_0_1_n_n 512 rfl rfl).symm k) = ix2 k q := funext fun c => Fin.ext (by
    match c with
    | ⟨0, _⟩ => exact (dot_S128x512_S512x10_S128x10_1_0_0_1_n_n.rhsIdx_val_of_single rfl _ _).trans hk
    | ⟨1, _⟩ => exact mm3_rhs1 _ _)
  rw [el, er]

/-! ## The algebra of the three passes -/

/-- the three passes over real operands, summed over the contracted axis, are the real sum of products -/
theorem three_pass {K : ℕ} (x y : Fin K → ℝ) :
    (∑ k, (x k : EReal) * (y k : EReal)) + (∑ k, (x k : EReal) * ((y k : EReal) - (y k : EReal)))
      + (∑ k, ((x k : EReal) - (x k : EReal)) * (y k : EReal)) = ((∑ k, x k * y k : ℝ) : EReal) := by
  rw [← Finset.sum_add_distrib, ← Finset.sum_add_distrib, Cert.Spec.coe_sum]
  exact Finset.sum_congr rfl fun k _ => Cert.Spec.dot3_term _ _

/-- the zero word read as an extended real -/
theorem zero_word : (Scalar.ofBits .f32 0x00000000#32 : Ideal .f32) = 0 := Ideal.ofBits_zero_f32

/-- a [1, n] row repeated down m rows, read at (p, i): the row's entry i -/
theorem bcastRow_apply {m n : ℕ} {α : Type} (x : (⟨2, ![1, n]⟩ : Shape).Idx → α)
    (h : (⟨2, ![1, n]⟩ : Shape).Broadcasts ⟨2, ![m, n]⟩) (p : Fin m) (i : Fin n) :
    broadcastTo ⟨2, ![m, n]⟩ x h (ix2 p i) = x (ix2 (0 : Fin 1) i) := by
  refine broadcastTo_apply x h (ix2 p i) (ix2 (0 : Fin 1) i) (fun a => ?_)
  match a with
  | ⟨0, _⟩ => rfl
  | ⟨1, _⟩ =>
    show i.val = if n = 1 then 0 else i.val
    split
    · rename_i hn; subst hn; exact Fin.val_eq_zero i
    · rfl

/-- the reset payload of the first kernel is zero everywhere -/
theorem pay0_1_apply (p : Fin 128) (q : Fin 2048) : k0_pay1 (F := Ideal) (ix2 p q) = 0 := by
  simp only [k0_pay1, shapeCast_self, broadcast_apply, zero_word]

/-- the update payload of the first kernel: the accumulator plus the product of the two (real) blocks -/
theorem pay0_2_apply (S : Vec Ideal S128x2048 .f32) (X : Vec Ideal S128x1024 .f32) (B : Vec Ideal S1024x2048 .f32)
    (Xr : Fin 128 → Fin 1024 → ℝ) (Br : Fin 1024 → Fin 2048 → ℝ)
    (hX : ∀ p i, X (ix2 p i) = ((Xr p i : ℝ) : EReal)) (hB : ∀ i q, B (ix2 i q) = ((Br i q : ℝ) : EReal))
    (p : Fin 128) (q : Fin 2048) :
    k0_pay2 S X B (ix2 p q) = S (ix2 p q) + ((∑ i : Fin 1024, Xr p i * Br i q : ℝ) : EReal) := by
  simp only [k0_pay2, shapeCast_self, addf_apply, mm0_apply, truncf_apply, subf_apply, hX, hB]
  rw [three_pass (fun i => Xr p i) (fun i => Br i q)]

/-- the reset payload of the second kernel is zero everywhere -/
theorem pay1_1_apply (p : Fin 128) (q : Fin 512) : k1_pay1 (F := Ideal) (ix2 p q) = 0 := by
  simp only [k1_pay1, shapeCast_self, broadcast_apply, zero_word]

/-- the update payload of the second kernel -/
theorem pay1_2_apply (S : Vec Ideal S128x512 .f32) (X : Vec Ideal S128x2048 .f32) (B : Vec Ideal S2048x512 .f32)
    (Xr : Fin 128 → Fin 2048 → ℝ) (Br : Fin 2048 → Fin 512 → ℝ)
    (hX : ∀ p i, X (ix2 p i) = ((Xr p i : ℝ) : EReal)) (hB : ∀ i q, B (ix2 i q) = ((Br i q : ℝ) : EReal))
    (p : Fin 128) (q : Fin 512) :
    k1_pay2 S X B (ix2 p q) = S (ix2 p q) + ((∑ i : Fin 2048, Xr p i * Br i q : ℝ) : EReal) := by
  simp only [k1_pay2, shapeCast_self, addf_apply, mm1_apply, truncf_apply, subf_apply, hX, hB]
  rw [three_pass (fun i => Xr p i) (fun i => Br i q)]

/-- max(., 0) of a real, read on the extended reals -/
theorem relu_coe (a : ℝ) : max (a : EReal) 0 = ((max a 0 : ℝ) : EReal) := by
  rw [← EReal.coe_zero]
  exact (EReal.coe_strictMono.monotone.map_max).symm

/-- the second hidden layer at an entry: max(max(acc + b1, 0) w2 + b2, 0) -/
theorem pay1_4_apply (acc : Vec Ideal S128x512 .f32) (b1 : Vec Ideal S1x512 .f32) (w2 : Vec Ideal S512x512 .f32)
    (b2 : Vec Ideal S1x512 .f32)
    (accr : Fin 128 → Fin 512 → ℝ) (b1r : Fin 512 → ℝ) (w2r : Fin 512 → Fin 512 → ℝ) (b2r : Fin 512 → ℝ)
    (hacc : ∀ p i, acc (ix2 p i) = ((accr p i : ℝ) : EReal)) (hb1 : ∀ i, b1 (ix2 (0 : Fin 1) i) = ((b1r i : ℝ) : EReal))
    (hw2 : ∀ i j, w2 (ix2 i j) = ((w2r i j : ℝ) : EReal)) (hb2 : ∀ j, b2 (ix2 (0 : Fin 1) j) = ((b2r j : ℝ) : EReal))
    (p : Fin 128) (j : Fin 512) :
    k1_pay4 acc b1 w2 b2 (ix2 p j)
      = ((max ((∑ i : Fin 512, max (accr p i + b1r i) 0 * w2r i j) + b2r j) 0 : ℝ) : EReal) := by
  simp only [k1_pay4, shapeCast_self, addf_apply, maximumf_apply, broadcast_apply, zero_word, mm2_apply, truncf_apply,
    subf_apply, bcastRow_apply, hacc, hb1, hw2, hb2]
  simp only [← EReal.coe_add, relu_coe]
  rw [three_pass (fun i => max (accr p i + b1r i) 0) (fun i => w2r i j), ← EReal.coe_add, relu_coe]

/-- The last point's output payload: from the (real) accumulator `acc` = h0 W1ᵀ, the biases and the two later weight
    matrices (given transposed, as the kernel is handed them: w2 i j = W2[j, i], wfc j c = Wfc[c, j]),
    out = max(max(acc + b1, 0) w2 + b2, 0) wfc + bfc, entry by entry. -/
theorem pay1_out_apply (acc : Vec Ideal S128x512 .f32) (b1 : Vec Ideal S1x512 .f32) (w2 : Vec Ideal S512x512 .f32)
    (b2 : Vec Ideal S1x512 .f32) (wfc : Vec Ideal S512x10 .f32) (bfc : Vec Ideal S1x10 .f32)
    (accr : Fin 128 → Fin 512 → ℝ) (b1r : Fin 512 → ℝ) (w2r : Fin 512 → Fin 512 → ℝ) (b2r : Fin 512 → ℝ)
    (wfcr : Fin 512 → Fin 10 → ℝ) (bfcr : Fin 10 → ℝ)
    (hacc : ∀ p i, acc (ix2 p i) = ((accr p i : ℝ) : EReal)) (hb1 : ∀ i, b1 (ix2 (0 : Fin 1) i) = ((b1r i : ℝ) : EReal))
    (hw2 : ∀ i j, w2 (ix2 i j) = ((w2r i j : ℝ) : EReal)) (hb2 : ∀ j, b2 (ix2 (0 : Fin 1) j) = ((b2r j : ℝ) : EReal))
    (hwfc : ∀ j c, wfc (ix2 j c) = ((wfcr j c : ℝ) : EReal)) (hbfc : ∀ c, bfc (ix2 (0 : Fin 1) c) = ((bfcr c : ℝ) : EReal))
    (p : Fin 128) (c : Fin 10) :
    k1_pay3 (k1_pay7 acc b1 w2 b2 wfc) (k1_pay8 acc b1 w2 b2 wfc) bfc (ix2 p c)
      = (((∑ j : Fin 512, max ((∑ i : Fin 512, max (accr p i + b1r i) 0 * w2r i j) + b2r j) 0 * wfcr j c) + bfcr c : ℝ) : EReal) := by
  simp only [k1_pay3, k1_pay7, k1_pay8, k1_pay6, k1_pay5, shapeCast_self, addf_apply, mm3_apply, truncf_apply, subf_apply,
    bcastRow_apply, hwfc, hbfc, pay1_4_apply acc b1 w2 b2 accr b1r w2r b2r hacc hb1 hw2 hb2]
  rw [three_pass (fun j => max ((∑ i : Fin 512, max (accr p i + b1r i) 0 * w2r i j) + b2r j) 0) (fun j => wfcr j c),
    ← EReal.coe_add]

end Cert.KernelIdeal.Pay

end
-- ==== Proof.KIValue0.lean ====
/-
  The first pallas call's output array after its run, read at one entry, over the extended reals, when the features and
  the dense matrix are real. The grid is 8 column blocks of the output by 16 blocks of the contracted axis: point
  t = 16 n + k adds to the carried accumulator the product of columns 1024 k .. 1024 k + 1023 of the features with rows
  1024 k .. 1024 k + 1023, columns 2048 n .. 2048 n + 2047 of the matrix; the accumulator starts from zero at k = 0 and is
  written to column block n of the output at k = 15. So after point t the accumulator's entry (p, q) is the sum over
  s < 1024 (k + 1) of x[p, s] A[s, 2048 n + q], and the output's entry (b, d) is the full sum over s: (x A)[b, d].
-/
import proofs.«429495_j14869176779093_2_alg».proof.Proof.KIRegion0
import proofs.«429495_j14869176779093_2_alg».proof.Proof.KIPay
import proofs.«429495_j14869176779093_2_alg».proof.Proof.Spec
import Idealize.ShloMosaic.Lib.Pipeline.Value
import Idealize.ShloMosaic.Lib.ValueIdx
import Mathlib.Algebra.BigOperators.Fin

set_option maxRecDepth 16384

noncomputable section

open scoped BigOperators

namespace Cert.KernelIdeal.Gen

open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- the features and the dense matrix as the region finds them -/
abbrev xarr (c : Dev nD) : Vec Ideal S128x16384 .f32 := V c main_arg0
abbrev aarr (c : Dev nD) : Vec Ideal S16384x16384 .f32 := V c main_v40

/-! ## Where the blocks sit -/

/-- the block indices over the grid: the features' block is (0, k), the matrix's (k, n), the output's (0, n), at t = 16 n + k -/
theorem blockIdx0 : ∀ t : Fin cfg0.N, win0_0.index t (0 : Fin 2) = 0 ∧ win0_0.index t (1 : Fin 2) = t.val % 16
    ∧ win0_1.index t (0 : Fin 2) = t.val % 16 ∧ win0_1.index t (1 : Fin 2) = t.val / 16
    ∧ win0_2.index t (0 : Fin 2) = 0 ∧ win0_2.index t (1 : Fin 2) = t.val / 16 :=
  (by decide +kernel : ∀ t : Fin grid0.N, _)

/-- the features' block at point t, entry (p, i): the features at (p, 1024 (t mod 16) + i) -/
theorem xblk_apply (c : Dev nD) (t : Fin cfg0.N) (x : S128x1024.Idx) (k : S128x16384.Idx)
    (hk0 : (k 0).val = (x 0).val) (hk1 : (k 1).val = t.val % 16 * 1024 + (x 1).val) :
    (iblk0 V c 0 t : Vec Ideal S128x1024 .f32) x = xarr V c k := by
  obtain ⟨e0, e1, -⟩ := blockIdx0 t
  unfold iblk0
  rw [View.read_apply]
  show V c main_arg0 _ = V c main_arg0 _
  congr 1
  funext a
  apply Fin.ext
  match a with
  | ⟨0, _⟩ => show win0_0.index t (0 : Fin 2) * 128 + 1 * (x 0).val = (k 0).val; rw [e0, hk0]; omega
  | ⟨1, _⟩ => show win0_0.index t (1 : Fin 2) * 1024 + 1 * (x 1).val = (k 1).val; rw [e1, hk1]; omega

/-- the matrix's block at point t, entry (i, q): the matrix at (1024 (t mod 16) + i, 2048 (t div 16) + q) -/
theorem ablk_apply (c : Dev nD) (t : Fin cfg0.N) (x : S1024x2048.Idx) (k : S16384x16384.Idx)
    (hk0 : (k 0).val = t.val % 16 * 1024 + (x 0).val) (hk1 : (k 1).val = t.val / 16 * 2048 + (x 1).val) :
    (iblk0 V c 1 t : Vec Ideal S1024x2048 .f32) x = aarr V c k := by
  obtain ⟨-, -, e2, e3, -⟩ := blockIdx0 t
  unfold iblk0
  rw [View.read_apply]
  show V c main_v40 _ = V c main_v40 _
  congr 1
  funext a
  apply Fin.ext
  match a with
  | ⟨0, _⟩ => show win0_1.index t (0 : Fin 2) * 1024 + 1 * (x 0).val = (k 0).val; rw [e2, hk0]; omega
  | ⟨1, _⟩ => show win0_1.index t (1 : Fin 2) * 2048 + 1 * (x 1).val = (k 1).val; rw [e3, hk1]; omega

/-! ## The partial sums -/

section Sums

variable (xr : Fin 128 → Fin 16384 → ℝ) (Ar : Fin 16384 → Fin 16384 → ℝ)

/-- the features' row p, continued by zero past the last column -/
def xN (p : Fin 128) (s : ℕ) : ℝ := if h : s < 16384 then xr p ⟨s, h⟩ else 0
/-- the matrix's column col, continued by zero outside the matrix -/
def aN (col s : ℕ) : ℝ := if h : s < 16384 ∧ col < 16384 then Ar ⟨s, h.1⟩ ⟨col, h.2⟩ else 0

/-- a sum over s < 1024 (k + 1) is the sum over s < 1024 k plus the sum over the next 1024 -/
theorem sum_block (f : ℕ → ℝ) (k : ℕ) :
    ∑ s ∈ Finset.range (k * 1024), f s + ∑ i : Fin 1024, f (k * 1024 + i) = ∑ s ∈ Finset.range ((k + 1) * 1024), f s := by
  rw [show (k + 1) * 1024 = k * 1024 + 1024 from by ring, Finset.sum_range_add, Finset.sum_range (fun x => f (k * 1024 + x))]

/-- One point's update at an entry: onto an accumulator entry that is the real σ, point n adds the sum over its 1024
    contracted positions s = 1024 (n mod 16) + i of x[p, s] A[s, 2048 (n div 16) + q]. -/
theorem point_apply (c : Dev nD) (hx : ∀ b s, xarr V c (ix2 b s) = ((xr b s : ℝ) : EReal))
    (hA : ∀ s d, aarr V c (ix2 s d) = ((Ar s d : ℝ) : EReal)) (n : ℕ) (hn : n < cfg0.N)
    (S : Vec Ideal S128x2048 .f32) (σ : ℝ) (p : Fin 128) (q : Fin 2048) (hS : S (ix2 p q) = ((σ : ℝ) : EReal)) :
    k0_pay2 S (iblk0 V c 0 ⟨n, hn⟩) (iblk0 V c 1 ⟨n, hn⟩) (ix2 p q)
      = ((σ + ∑ i : Fin 1024, xN xr p (n % 16 * 1024 + i) * aN Ar (n / 16 * 2048 + q) (n % 16 * 1024 + i) : ℝ) : EReal) := by
  have ht : n < 128 := lt_of_lt_of_eq hn N_0
  have hX : ∀ (p : Fin 128) (i : Fin 1024),
      (iblk0 V c 0 ⟨n, hn⟩ : Vec Ideal S128x1024 .f32) (ix2 p i) = ((xN xr p (n % 16 * 1024 + i) : ℝ) : EReal) := fun p i => by
    have hb : n % 16 * 1024 + i.val < 16384 := by have := i.isLt; omega
    have e : xN xr p (n % 16 * 1024 + i) = xr p ⟨n % 16 * 1024 + i, hb⟩ := dif_pos hb
    rw [e]
    exact (xblk_apply V c ⟨n, hn⟩ (ix2 p i) (ix2 p ⟨n % 16 * 1024 + i, hb⟩) rfl rfl).trans (hx p _)
  have hB : ∀ (i : Fin 1024) (q : Fin 2048),
      (iblk0 V c 1 ⟨n, hn⟩ : Vec Ideal S1024x2048 .f32) (ix2 i q) = ((aN Ar (n / 16 * 2048 + q) (n % 16 * 1024 + i) : ℝ) : EReal) := fun i q => by
    have hb : n % 16 * 1024 + i.val < 16384 := by have := i.isLt; omega
    have hc : n / 16 * 2048 + q.val < 16384 := by have := q.isLt; omega
    have e : aN Ar (n / 16 * 2048 + q) (n % 16 * 1024 + i) = Ar ⟨n % 16 * 1024 + i, hb⟩ ⟨n / 16 * 2048 + q, hc⟩ := dif_pos ⟨hb, hc⟩
    rw [e]
    exact (ablk_apply V c ⟨n, hn⟩ (ix2 i q) (ix2 ⟨n % 16 * 1024 + i, hb⟩ ⟨n / 16 * 2048 + q, hc⟩) rfl rfl).trans (hA _ _)
  refine (Cert.KernelIdeal.Pay.pay0_2_apply S (iblk0 V c 0 ⟨n, hn⟩) (iblk0 V c 1 ⟨n, hn⟩)
    (fun p i => xN xr p (n % 16 * 1024 + i)) (fun i q => aN Ar (n / 16 * 2048 + q) (n % 16 * 1024 + i)) hX hB p q).trans ?_
  rw [hS, ← EReal.coe_add]

/-- THE ACCUMULATOR after point n, at entry (p, q): the sum over s < 1024 (n mod 16 + 1) of x[p, s] A[s, 2048 (n div 16) + q]. -/
theorem acc0_apply (c : Dev nD) (hx : ∀ b s, xarr V c (ix2 b s) = ((xr b s : ℝ) : EReal))
    (hA : ∀ s d, aarr V c (ix2 s d) = ((Ar s d : ℝ) : EReal)) :
    ∀ (n : ℕ) (hn : n < cfg0.N) (p : Fin 128) (q : Fin 2048),
      acc0 V c n hn (ix2 p q)
        = ((∑ s ∈ Finset.range ((n % 16 + 1) * 1024), xN xr p s * aN Ar (n / 16 * 2048 + q) s : ℝ) : EReal) := by
  intro n
  induction n using Nat.strong_induction_on with
  | _ n ih =>
    intro hn p q
    rw [← sum_block (fun s => xN xr p s * aN Ar (n / 16 * 2048 + q) s) (n % 16)]
    by_cases h0 : n % 16 = 0
    · refine (congrFun (acc0_reset V c ⟨n, hn⟩ h0) (ix2 p q)).trans ?_
      refine (point_apply V xr Ar c hx hA n hn _ 0 p q ?_).trans ?_
      · rw [Cert.KernelIdeal.Pay.pay0_1_apply, EReal.coe_zero]
      · rw [h0, Nat.zero_mul, Finset.range_zero, Finset.sum_empty]
    · refine (congrFun (acc0_step V c ⟨n, hn⟩ h0) (ix2 p q)).trans ?_
      have e1 : (n - 1) % 16 + 1 = n % 16 := by omega
      have e2 : (n - 1) / 16 = n / 16 := by omega
      refine (point_apply V xr Ar c hx hA n hn _ _ p q (ih (n - 1) (by omega) _ p q)).trans ?_
      rw [e1, e2]

/-! ## From the blocks to the array -/

/-- what the output array ends holding: entry (b, d) is the full sum over s < 16384 of x[b, s] A[s, d] -/
def G0 : S128x16384.Idx → EReal := fun i =>
  ((∑ s ∈ Finset.range 16384, xN xr ⟨(i 0).val, idx2_lt0 i⟩ s * aN Ar (i 1).val s : ℝ) : EReal)

/-- that full sum is the dense propagation (x A)[b, d] -/
theorem G0_apply (b : Fin 128) (d : Fin 16384) : G0 xr Ar (ix2 b d) = ((Cert.Spec.propDense xr Ar b d : ℝ) : EReal) := by
  unfold G0 Cert.Spec.propDense
  rw [Finset.sum_range]
  refine congrArg _ (Finset.sum_congr rfl fun s _ => ?_)
  show xN xr b s.val * aN Ar d.val s.val = xr b s * Ar s d
  rw [xN, aN, dif_pos s.isLt, dif_pos ⟨s.isLt, d.isLt⟩]

/-- WHAT A WRITING POINT WRITES (k = 15): column block n of that array. -/
theorem flushed0_eq (c : Dev nD) (hx : ∀ b s, xarr V c (ix2 b s) = ((xr b s : ℝ) : EReal))
    (hA : ∀ s d, aarr V c (ix2 s d) = ((Ar s d : ℝ) : EReal)) (t : Fin cfg0.N) (hf : (cfg0.win 2).flush t = true) :
    (dat0 V c).flushed 2 t = ((cfg0.win 2).blk t).view.read (Elt Ideal) (G0 xr Ar) := by
  have h15 : t.val % 16 = 15 := (flush0_2 t).mp hf
  have ht : t.val < 128 := lt_of_lt_of_eq t.isLt N_0
  obtain ⟨-, -, -, -, e4, e5⟩ := blockIdx0 t
  show (cfg0.win 2).cut (grid0.coords t) ((dat0 V c).after 2 t) = _
  rw [after0_2]
  refine funext fun (y : S128x2048.Idx) => ?_
  obtain ⟨p, q, rfl⟩ : ∃ (p : Fin 128) (q : Fin 2048), y = ix2 p q := ⟨y 0, y 1, eq_ix2 y⟩
  rw [View.read_apply]
  show acc0 V c t.val t.isLt (ix2 p q) = G0 xr Ar (((cfg0.win 2).blk t).view.emb (ix2 p q))
  have hc : t.val / 16 * 2048 + q.val < 16384 := by have := q.isLt; omega
  have hemb : ((cfg0.win 2).blk t).view.emb (ix2 p q) = (ix2 p ⟨t.val / 16 * 2048 + q, hc⟩ : S128x16384.Idx) := by
    funext a
    apply Fin.ext
    match a with
    | ⟨0, _⟩ => show win0_2.index t (0 : Fin 2) * 128 + 1 * p.val = p.val; rw [e4]; omega
    | ⟨1, _⟩ => show win0_2.index t (1 : Fin 2) * 2048 + 1 * q.val = t.val / 16 * 2048 + q.val; rw [e5]; omega
  rw [hemb, acc0_apply V xr Ar c hx hA t.val t.isLt p q, h15]
  rfl

/-- an entry of the output array is in point t's block iff each coordinate is in the block's range on its axis -/
theorem mem_oblk0 (t : Fin cfg0.N) (i : S128x16384.Idx) :
    i ∈ ((cfg0.win 2).blk t).view.set ↔ ∀ a : Fin 2, win0_2.index t a * S128x2048.size a ≤ (i a).val
      ∧ (i a).val < win0_2.index t a * S128x2048.size a + S128x2048.size a := by
  show i ∈ ((View.whole main_v41).slice (win0_2.rect t)).set ↔ _
  rw [View.set_slice_whole, Rect.mem_set_unit]
  exact Iff.rfl

/-- every entry (b, d) is written: by the point 16 (d div 2048) + 15 -/
theorem cover0 (i : S128x16384.Idx) :
    ∃ t : Fin cfg0.N, (cfg0.win 2).flush t = true ∧ i ∈ ((cfg0.win 2).blk t).view.set := by
  have hi0 : (i 0).val < 128 := idx2_lt0 i
  have hi1 : (i 1).val < 16384 := idx2_lt1 i
  have hN : cfg0.N = 128 := N_0
  obtain ⟨t, ht⟩ : ∃ t : Fin cfg0.N, t.val = 16 * ((i 1).val / 2048) + 15 := ⟨⟨_, by rw [hN]; omega⟩, rfl⟩
  obtain ⟨-, -, -, -, e4, e5⟩ := blockIdx0 t
  refine ⟨t, (flush0_2 t).mpr (by omega), ?_⟩
  rw [mem_oblk0]
  intro a
  match a with
  | ⟨0, _⟩ => show win0_2.index t (0 : Fin 2) * 128 ≤ (i 0).val ∧ (i 0).val < win0_2.index t (0 : Fin 2) * 128 + 128; rw [e4]; omega
  | ⟨1, _⟩ => show win0_2.index t (1 : Fin 2) * 2048 ≤ (i 1).val ∧ (i 1).val < win0_2.index t (1 : Fin 2) * 2048 + 2048; rw [e5]; omega

/-- THE OUTPUT ARRAY after the run is that function of the features and the matrix. -/
theorem final0 (c : Dev nD) (hx : ∀ b s, xarr V c (ix2 b s) = ((xr b s : ℝ) : EReal))
    (hA : ∀ s d, aarr V c (ix2 s d) = ((Ar s d : ℝ) : EReal)) :
    (dat0 V c).arrAt 2 cfg0.N = G0 xr Ar :=
  (dat0 V c).arrAt_eq_of_cover 2 (G0 xr Ar) (fun t hf => flushed0_eq V xr Ar c hx hA t hf) (fun i => cover0 i)

end Sums

/-- THE OUTPUT ARRAY AT AN ENTRY: the dense propagation (x A)[b, d]. -/
theorem arr0_apply (c : Dev nD) (xr : Fin 128 → Fin 16384 → ℝ) (Ar : Fin 16384 → Fin 16384 → ℝ)
    (hx : ∀ b s, (V c main_arg0 : S128x16384.Idx → EReal) (ix2 b s) = ((xr b s : ℝ) : EReal))
    (hA : ∀ s d, (V c main_v40 : S16384x16384.Idx → EReal) (ix2 s d) = ((Ar s d : ℝ) : EReal))
    (b : Fin 128) (d : Fin 16384) :
    ((dat0 (F := Ideal) V c).arrAt 2 cfg0.N : S128x16384.Idx → EReal) (ix2 b d) = ((Cert.Spec.propDense xr Ar b d : ℝ) : EReal) :=
  (congrFun (final0 V xr Ar c hx hA) (ix2 b d)).trans (G0_apply xr Ar b d)

end Cert.KernelIdeal.Gen

end
-- ==== Proof.KIValue1.lean ====
/-
  The second kernel's output array after its run, read at one entry over the extended reals, when every array the
  kernel reads holds real numbers. The eight grid points add, one after the other, the products of the eight column
  blocks of the propagated features with the matching row blocks of the first weight matrix; after the last point the
  accumulator holds the full first-layer sums over all 16384 columns, and the output block, the whole [128, 10] array,
  is max(max(acc + b1, 0) w2 + b2, 0) wfc + bfc entry by entry.
-/
import proofs.«429495_j14869176779093_2_alg».proof.Proof.KIRegion1
import proofs.«429495_j14869176779093_2_alg».proof.Proof.KIPay
import proofs.«429495_j14869176779093_2_alg».proof.Proof.Spec
import Idealize.ShloMosaic.Lib.Pipeline.Value
import Idealize.ShloMosaic.Lib.ValueIdx
import Mathlib.Algebra.BigOperators.Fin
import Mathlib.Data.Fintype.BigOperators
import Mathlib.Logic.Equiv.Fin.Basic

set_option maxRecDepth 16384

noncomputable section

open scoped BigOperators

namespace Cert.KernelIdeal.Gen

open Idealize.ShloMosaic Idealize.ShloMosaic.TcCoe Idealize.ShloMosaic.ValueIdx Idealize.SL.Sem
open Idealize.ShloMosaic.Pipeline (Dat)

/-! ## Sums over 16384 columns as eight blocks of 2048 -/

/-- Column `j` of block `t` among the 16384 columns: `2048 t + j`. -/
def col1 (t : ℕ) (j : Fin 2048) : Fin 16384 := ⟨(t * 2048 + j.val) % 16384, Nat.mod_lt _ (by decide)⟩

theorem col1_val (t : ℕ) (ht : t < 8) (j : Fin 2048) : (col1 t j).val = t * 2048 + j.val := by
  have hj := j.isLt
  show (t * 2048 + j.val) % 16384 = t * 2048 + j.val
  omega

/-- A sum over `m n` indices is the sum over `m` blocks of the sums over the `n` indices of each block. -/
theorem sum_by_blocks (m n N : ℕ) (hN : m * n = N) (f : Fin N → ℝ) (g : ℕ → Fin n → Fin N)
    (hg : ∀ t, t < m → ∀ j : Fin n, (g t j).val = t * n + j.val) :
    ∑ s : Fin N, f s = ∑ t ∈ Finset.range m, ∑ j : Fin n, f (g t j) := by
  subst hN
  rw [Finset.sum_range, ← (finProdFinEquiv (m := m) (n := n)).sum_comp f, Fintype.sum_prod_type]
  refine Finset.sum_congr rfl fun t _ => Finset.sum_congr rfl fun j _ => ?_
  congr 1
  apply Fin.ext
  rw [hg t.val t.isLt j]
  show j.val + n * t.val = t.val * n + j.val
  ring

/-- The eight blocks of 2048 columns make up the 16384 columns. -/
theorem sum_cols (f : Fin 16384 → ℝ) : ∑ s : Fin 16384, f s = ∑ t ∈ Finset.range 8, ∑ j : Fin 2048, f (col1 t j) :=
  sum_by_blocks 8 2048 16384 (by norm_num) f col1 col1_val

/-! ## The blocks the points read -/

variable (V : (c : Dev nD) → (b : Ref sig .tc) → Buf (Elt Ideal) ((c : Thread nD τ).loc b))

/-- The printed index maps over the grid: point `t` reads column block `t` of the features and row block `t` of the
    first weight matrix; every other window stays at block (0, 0). -/
theorem idx1_facts : ∀ t : Fin cfg1.N,
    win1_0.index t (0 : Fin 2) = 0
    ∧ win1_0.index t (1 : Fin 2) = t.val
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0 :=
  (by decide +kernel : ∀ t : Fin grid1.N, _)

/-- The features' block at point `t`: all 128 rows, columns `2048 t .. 2048 t + 2047`. -/
theorem blk1_0_apply (c : Dev nD) (t : Fin cfg1.N) (p : Fin 128) (j : Fin 2048) (s : Fin 16384) (hs : s.val = t.val * 2048 + j.val) :
    (iblk1 V c 0 t : Vec Ideal S128x2048 .f32) (ix2 p j) = (V c main_v41 : S128x16384.Idx → EReal) (ix2 p s) := by
  obtain ⟨e0, e1, -⟩ := idx1_facts t
  unfold iblk1
  rw [View.read_apply]
  show V c main_v41 _ = V c main_v41 _
  congr 1
  funext a
  apply Fin.ext
  match a with
  | ⟨0, _⟩ => show win1_0.index t (0 : Fin 2) * 128 + 1 * p.val = p.val; omega
  | ⟨1, _⟩ => show win1_0.index t (1 : Fin 2) * 2048 + 1 * j.val = s.val; omega

/-- The first weight matrix's block at point `t`: rows `2048 t .. 2048 t + 2047`, all 512 columns. -/
theorem blk1_1_apply (c : Dev nD) (t : Fin cfg1.N) (j : Fin 2048) (q : Fin 512) (s : Fin 16384) (hs : s.val = t.val * 2048 + j.val) :
    (iblk1 V c 1 t : Vec Ideal S2048x512 .f32) (ix2 j q) = (V c main_v42 : S16384x512.Idx → EReal) (ix2 s q) := by
  obtain ⟨-, -, e0, e1, -⟩ := idx1_facts t
  unfold iblk1
  rw [View.read_apply]
  show V c main_v42 _ = V c main_v42 _
  congr 1
  funext a
  apply Fin.ext
  match a with
  | ⟨0, _⟩ => show win1_1.index t (0 : Fin 2) * 2048 + 1 * j.val = s.val; omega
  | ⟨1, _⟩ => show win1_1.index t (1 : Fin 2) * 512 + 1 * q.val = q.val; omega

/-- Window 2's one block is its whole array, at every point. -/
theorem blk1_2_eq (c : Dev nD) (t : Fin cfg1.N) : (iblk1 V c 2 t : Vec Ideal S1x512 .f32) = (V c main_v45 : S1x512.Idx → EReal) := by
  obtain ⟨-, -, -, -, e0, e1, -⟩ := idx1_facts t
  funext x
  unfold iblk1
  rw [View.read_apply]
  show V c main_v45 _ = V c main_v45 _
  congr 1
  funext a
  apply Fin.ext
  match a with
  | ⟨0, _⟩ => show win1_2.index t (0 : Fin 2) * 1 + 1 * (x 0).val = (x 0).val; omega
  | ⟨1, _⟩ => show win1_2.index t (1 : Fin 2) * 512 + 1 * (x 1).val = (x 1).val; omega

/-- Window 3's one block is its whole array, at every point. -/
theorem blk1_3_eq (c : Dev nD) (t : Fin cfg1.N) : (iblk1 V c 3 t : Vec Ideal S512x512 .f32) = (V c main_v43 : S512x512.Idx → EReal) := by
  obtain ⟨-, -, -, -, -, -, e0, e1, -⟩ := idx1_facts t
  funext x
  unfold iblk1
  rw [View.read_apply]
  show V c main_v43 _ = V c main_v43 _
  congr 1
  funext a
  apply Fin.ext
  match a with
  | ⟨0, _⟩ => show win1_3.index t (0 : Fin 2) * 512 + 1 * (x 0).val = (x 0).val; omega
  | ⟨1, _⟩ => show win1_3.index t (1 : Fin 2) * 512 + 1 * (x 1).val = (x 1).val; omega

/-- Window 4's one block is its whole array, at every point. -/
theorem blk1_4_eq (c : Dev nD) (t : Fin cfg1.N) : (iblk1 V c 4 t : Vec Ideal S1x512 .f32) = (V c main_v46 : S1x512.Idx → EReal) := by
  obtain ⟨-, -, -, -, -, -, -, -, e0, e1, -⟩ := idx1_facts t
  funext x
  unfold iblk1
  rw [View.read_apply]
  show V c main_v46 _ = V c main_v46 _
  congr 1
  funext a
  apply Fin.ext
  match a with
  | ⟨0, _⟩ => show win1_4.index t (0 : Fin 2) * 1 + 1 * (x 0).val = (x 0).val; omega
  | ⟨1, _⟩ => show win1_4.index t (1 : Fin 2) * 512 + 1 * (x 1).val = (x 1).val; omega

/-- Window 5's one block is its whole array, at every point. -/
theorem blk1_5_eq (c : Dev nD) (t : Fin cfg1.N) : (iblk1 V c 5 t : Vec Ideal S512x10 .f32) = (V c main_v44 : S512x10.Idx → EReal) := by
  obtain ⟨-, -, -, -, -, -, -, -, -, -, e0, e1, -⟩ := idx1_facts t
  funext x
  unfold iblk1
  rw [View.read_apply]
  show V c main_v44 _ = V c main_v44 _
  congr 1
  funext a
  apply Fin.ext
  match a with
  | ⟨0, _⟩ => show win1_5.index t (0 : Fin 2) * 512 + 1 * (x 0).val = (x 0).val; omega
  | ⟨1, _⟩ => show win1_5.index t (1 : Fin 2) * 10 + 1 * (x 1).val = (x 1).val; omega

/-- Window 6's one block is its whole array, at every point. -/
theorem blk1_6_eq (c : Dev nD) (t : Fin cfg1.N) : (iblk1 V c 6 t : Vec Ideal S1x10 .f32) = (V c main_v47 : S1x10.Idx → EReal) := by
  obtain ⟨-, -, -, -, -, -, -, -, -, -, -, -, e0, e1, -⟩ := idx1_facts t
  funext x
  unfold iblk1
  rw [View.read_apply]
  show V c main_v47 _ = V c main_v47 _
  congr 1
  funext a
  apply Fin.ext
  match a with
  | ⟨0, _⟩ => show win1_6.index t (0 : Fin 2) * 1 + 1 * (x 0).val = (x 0).val; omega
  | ⟨1, _⟩ => show win1_6.index t (1 : Fin 2) * 10 + 1 * (x 1).val = (x 1).val; omega

/-! ## The accumulation at an entry -/

/-- Block `t`'s share of the first-layer sum at entry (p, i). -/
def part1 (hr : Fin 128 → Fin 16384 → ℝ) (w1r : Fin 16384 → Fin 512 → ℝ) (p : Fin 128) (i : Fin 512) (t : ℕ) : ℝ :=
  ∑ j : Fin 2048, hr p (col1 t j) * w1r (col1 t j) i

/-- One point's update at an entry: what the accumulator held plus the point's block's share. -/
theorem upd1_apply (c : Dev nD) (hr : Fin 128 → Fin 16384 → ℝ) (w1r : Fin 16384 → Fin 512 → ℝ)
    (hh : ∀ b s, (V c main_v41 : S128x16384.Idx → EReal) (ix2 b s) = ((hr b s : ℝ) : EReal))
    (hw1 : ∀ s i, (V c main_v42 : S16384x512.Idx → EReal) (ix2 s i) = ((w1r s i : ℝ) : EReal))
    (t : Fin cfg1.N) (S : Vec Ideal S128x512 .f32) (p : Fin 128) (i : Fin 512) :
    k1_pay2 S (iblk1 V c 0 t) (iblk1 V c 1 t) (ix2 p i) = S (ix2 p i) + ((part1 hr w1r p i t.val : ℝ) : EReal) := by
  have ht : t.val < 8 := lt_of_lt_of_eq t.isLt N_1
  exact Pay.pay1_2_apply S (iblk1 V c 0 t) (iblk1 V c 1 t) (fun p j => hr p (col1 t.val j)) (fun j q => w1r (col1 t.val j) q)
    (fun p j => (blk1_0_apply V c t p j (col1 t.val j) (col1_val t.val ht j)).trans (hh p _))
    (fun j q => (blk1_1_apply V c t j q (col1 t.val j) (col1_val t.val ht j)).trans (hw1 _ q)) p i

/-- After point `n` the accumulator holds, at every entry, the shares of the blocks 0 .. n. -/
theorem acc1_apply (c : Dev nD) (hr : Fin 128 → Fin 16384 → ℝ) (w1r : Fin 16384 → Fin 512 → ℝ)
    (hh : ∀ b s, (V c main_v41 : S128x16384.Idx → EReal) (ix2 b s) = ((hr b s : ℝ) : EReal))
    (hw1 : ∀ s i, (V c main_v42 : S16384x512.Idx → EReal) (ix2 s i) = ((w1r s i : ℝ) : EReal))
    (p : Fin 128) (i : Fin 512) :
    ∀ (n : ℕ) (hn : n < cfg1.N), (acc1 V c n hn : Vec Ideal S128x512 .f32) (ix2 p i)
      = ((∑ t ∈ Finset.range (n + 1), part1 hr w1r p i t : ℝ) : EReal) := by
  intro n
  induction n with
  | zero =>
    intro hn
    have e : acc1 V c 0 hn = k1_pay2 (k1_pay1 (F := Ideal)) (iblk1 V c 0 ⟨0, hn⟩) (iblk1 V c 1 ⟨0, hn⟩) := rfl
    rw [e, upd1_apply V c hr w1r hh hw1 ⟨0, hn⟩, Pay.pay1_1_apply, zero_add, Finset.sum_range_one]
  | succ n ih =>
    intro hn
    have hn8 : n + 1 < 8 := lt_of_lt_of_eq hn N_1
    have h0 : ¬(n + 1) % 8 = 0 := by omega
    have e : acc1 V c (n + 1) hn = k1_pay2 (acc1 V c n (Nat.lt_of_succ_lt hn)) (iblk1 V c 0 ⟨n + 1, hn⟩) (iblk1 V c 1 ⟨n + 1, hn⟩) := if_neg h0
    rw [e, upd1_apply V c hr w1r hh hw1 ⟨n + 1, hn⟩, ih, ← EReal.coe_add, Finset.sum_range_succ (fun t => part1 hr w1r p i t) (n + 1)]

/-- The last point. -/
def t1_last : Fin cfg1.N := ⟨7, lt_of_lt_of_eq (by decide : 7 < 8) N_1.symm⟩

/-- After the last point the accumulator holds the full first-layer sums. -/
theorem acc1_last_apply (c : Dev nD) (hr : Fin 128 → Fin 16384 → ℝ) (w1r : Fin 16384 → Fin 512 → ℝ)
    (hh : ∀ b s, (V c main_v41 : S128x16384.Idx → EReal) (ix2 b s) = ((hr b s : ℝ) : EReal))
    (hw1 : ∀ s i, (V c main_v42 : S16384x512.Idx → EReal) (ix2 s i) = ((w1r s i : ℝ) : EReal))
    (p : Fin 128) (i : Fin 512) :
    (acc1 V c t1_last.val t1_last.isLt : Vec Ideal S128x512 .f32) (ix2 p i) = ((∑ s : Fin 16384, hr p s * w1r s i : ℝ) : EReal) := by
  rw [acc1_apply V c hr w1r hh hw1 p i, sum_cols (fun s => hr p s * w1r s i)]
  rfl

/-! ## The output block and the array -/

/-- The output block of the last point at an entry: the three layers over the reals. -/
theorem out1_apply (c : Dev nD) (hr : Fin 128 → Fin 16384 → ℝ) (w1r : Fin 16384 → Fin 512 → ℝ) (b1r : Fin 512 → ℝ)
    (w2r : Fin 512 → Fin 512 → ℝ) (b2r : Fin 512 → ℝ) (wfcr : Fin 512 → Fin 10 → ℝ) (bfcr : Fin 10 → ℝ)
    (hh : ∀ b s, (V c main_v41 : S128x16384.Idx → EReal) (ix2 b s) = ((hr b s : ℝ) : EReal))
    (hw1 : ∀ s i, (V c main_v42 : S16384x512.Idx → EReal) (ix2 s i) = ((w1r s i : ℝ) : EReal))
    (hb1 : ∀ i, (V c main_v45 : S1x512.Idx → EReal) (ix2 (0 : Fin 1) i) = ((b1r i : ℝ) : EReal))
    (hw2 : ∀ i j, (V c main_v43 : S512x512.Idx → EReal) (ix2 i j) = ((w2r i j : ℝ) : EReal))
    (hb2 : ∀ j, (V c main_v46 : S1x512.Idx → EReal) (ix2 (0 : Fin 1) j) = ((b2r j : ℝ) : EReal))
    (hwfc : ∀ j k, (V c main_v44 : S512x10.Idx → EReal) (ix2 j k) = ((wfcr j k : ℝ) : EReal))
    (hbfc : ∀ k, (V c main_v47 : S1x10.Idx → EReal) (ix2 (0 : Fin 1) k) = ((bfcr k : ℝ) : EReal))
    (b : Fin 128) (k : Fin 10) :
    (out1 V c t1_last : Vec Ideal S128x10 .f32) (ix2 b k)
      = (((∑ j : Fin 512, max ((∑ i : Fin 512, max ((∑ s : Fin 16384, hr b s * w1r s i) + b1r i) 0 * w2r i j) + b2r j) 0 * wfcr j k) + bfcr k : ℝ) : EReal) := by
  unfold out1
  exact Pay.pay1_out_apply (acc1 V c t1_last.val t1_last.isLt) (iblk1 V c 2 t1_last) (iblk1 V c 3 t1_last) (iblk1 V c 4 t1_last)
    (iblk1 V c 5 t1_last) (iblk1 V c 6 t1_last) (fun p i => ∑ s : Fin 16384, hr p s * w1r s i) b1r w2r b2r wfcr bfcr
    (acc1_last_apply V c hr w1r hh hw1)
    (fun i => (congrFun (blk1_2_eq V c t1_last) _).trans (hb1 i))
    (fun i j => (congrFun (blk1_3_eq V c t1_last) _).trans (hw2 i j))
    (fun j => (congrFun (blk1_4_eq V c t1_last) _).trans (hb2 j))
    (fun j k => (congrFun (blk1_5_eq V c t1_last) _).trans (hwfc j k))
    (fun k => (congrFun (blk1_6_eq V c t1_last) _).trans (hbfc k)) b k

/-- The one write-back, at the last point, writes the output block over the whole array. -/
theorem flushed1_7_eq (c : Dev nD) (t : Fin cfg1.N) (hf : (cfg1.win 7).flush t = true) :
    (dat1 V c).flushed 7 t = ((cfg1.win 7).blk t).view.read (Elt Ideal) (out1 V c t1_last) := by
  have h8 : t.val < 8 := lt_of_lt_of_eq t.isLt N_1
  have h1 : t.val = 7 := by have := (flush1_7 t).mp hf; omega
  obtain rfl : t = t1_last := Fin.ext h1
  show (cfg1.win 7).cut (grid1.coords t1_last) ((dat1 V c).after 7 t1_last) = _
  rw [after1_7]
  have hz' : (fun a => win1_7.index t1_last a * main_v48.ty.shape.size a) = fun _ => 0 := funext fun a => by fin_cases a <;> decide +kernel
  exact (Memref.read_access_unit_zero (Elt Ideal) main_v48 hz' (fun a => by rw [congrFun hz' a]; simp) (out1 V c t1_last)).symm

/-- So the output array ends holding the last point's output block. -/
theorem arr1_eq (c : Dev nD) : (dat1 V c).arrAt 7 cfg1.N = out1 V c t1_last :=
  (dat1 V c).arrAt_eq_of_cover 7 (out1 V c t1_last) (flushed1_7_eq V c) fun i =>
    ⟨t1_last, (flush1_7 t1_last).mpr rfl, by
      show i ∈ ((View.whole main_v48).slice (win1_7.rect t1_last)).set
      rw [View.set_slice_whole, Rect.mem_set_unit]
      intro a
      have h0 : (i 0 : Nat) < 128 := (i 0).isLt
      have h1 : (i 1 : Nat) < 10 := (i 1).isLt
      match a with
      | ⟨0, _⟩ =>
        show win1_7.index t1_last 0 * win1_7.size 0 ≤ (i 0 : Nat) ∧ (i 0 : Nat) < win1_7.index t1_last 0 * win1_7.size 0 + win1_7.xsize (grid1.coords t1_last) 0
        rw [show win1_7.index t1_last 0 * win1_7.size 0 = 0 from by decide +kernel, show win1_7.xsize (grid1.coords t1_last) 0 = 128 from by decide +kernel]; omega
      | ⟨1, _⟩ =>
        show win1_7.index t1_last 1 * win1_7.size 1 ≤ (i 1 : Nat) ∧ (i 1 : Nat) < win1_7.index t1_last 1 * win1_7.size 1 + win1_7.xsize (grid1.coords t1_last) 1
        rw [show win1_7.index t1_last 1 * win1_7.size 1 = 0 from by decide +kernel, show win1_7.xsize (grid1.coords t1_last) 1 = 10 from by decide +kernel]; omega⟩

/-- THE SECOND KERNEL'S OUTPUT ARRAY at an entry: the three layers of the propagated features, over the reals. -/
theorem arr1_apply (c : Dev nD) (hr : Fin 128 → Fin 16384 → ℝ) (w1r : Fin 16384 → Fin 512 → ℝ) (b1r : Fin 512 → ℝ)
    (w2r : Fin 512 → Fin 512 → ℝ) (b2r : Fin 512 → ℝ) (wfcr : Fin 512 → Fin 10 → ℝ) (bfcr : Fin 10 → ℝ)
    (hh : ∀ b s, (V c main_v41 : S128x16384.Idx → EReal) (ix2 b s) = ((hr b s : ℝ) : EReal))
    (hw1 : ∀ s i, (V c main_v42 : S16384x512.Idx → EReal) (ix2 s i) = ((w1r s i : ℝ) : EReal))
    (hb1 : ∀ i, (V c main_v45 : S1x512.Idx → EReal) (ix2 (0 : Fin 1) i) = ((b1r i : ℝ) : EReal))
    (hw2 : ∀ i j, (V c main_v43 : S512x512.Idx → EReal) (ix2 i j) = ((w2r i j : ℝ) : EReal))
    (hb2 : ∀ j, (V c main_v46 : S1x512.Idx → EReal) (ix2 (0 : Fin 1) j) = ((b2r j : ℝ) : EReal))
    (hwfc : ∀ j k, (V c main_v44 : S512x10.Idx → EReal) (ix2 j k) = ((wfcr j k : ℝ) : EReal))
    (hbfc : ∀ k, (V c main_v47 : S1x10.Idx → EReal) (ix2 (0 : Fin 1) k) = ((bfcr k : ℝ) : EReal))
    (b : Fin 128) (k : Fin 10) :
    ((dat1 (F := Ideal) V c).arrAt 7 cfg1.N : S128x10.Idx → EReal) (ix2 b k)
      = (((∑ j : Fin 512, max ((∑ i : Fin 512, max ((∑ s : Fin 16384, hr b s * w1r s i) + b1r i) 0 * w2r i j) + b2r j) 0 * wfcr j k) + bfcr k : ℝ) : EReal) := by
  rw [arr1_eq V c]
  exact out1_apply V c hr w1r b1r w2r b2r wfcr bfcr hh hw1 hb1 hw2 hb2 hwfc hbfc b k

end Cert.KernelIdeal.Gen

end
-- ==== Proof.Shared.lean ====
/-
  The part both programs share: from the edge list and the edge weights, the source and destination of every edge
  with the self loops appended, the weights with the self loops' ones appended, the in-degree of every node, its
  inverse square root where the degree is positive and zero elsewhere, and the symmetric normalisation
  dinv[src] * w * dinv[dst] of every edge: one function of the edge list and the edge weights.
-/
import Idealize.ShloMosaic.Lib.StableHlo
import Idealize.ShloMosaic.PureOps

noncomputable section

namespace Cert.Shared

open Idealize.ShloMosaic

abbrev S2x1048576 : Shape := ⟨2, ![2, 1048576]⟩
abbrev S1x1048576 : Shape := ⟨2, ![1, 1048576]⟩
abbrev S1048576 : Shape := ⟨1, ![1048576]⟩
abbrev S16384 : Shape := ⟨1, ![16384]⟩
abbrev S1064960 : Shape := ⟨1, ![1064960]⟩
abbrev S1064960x1 : Shape := ⟨2, ![1064960, 1]⟩
abbrev S_ : Shape := ⟨0, ![]⟩

/-- The shape relations the shared lines take (each program states the same ones). -/
class Facts : Prop where
  slices0 : S2x1048576.Slices ![0, 0] S1x1048576
  slices1 : S2x1048576.Slices ![1, 0] S1x1048576
  casts : S1x1048576.ShapeCasts S1048576
  concat : Shape.Concatenates [S1048576, S16384] S1064960 0
  bc16384 : S_.BroadcastsInDim S16384 (![] : Fin 0 → Fin S16384.rank)
  bcE1 : S1064960.BroadcastsInDim S1064960x1 (![0] : Fin 1 → Fin S1064960x1.rank)
  bcE : S_.BroadcastsInDim S1064960 (![] : Fin 0 → Fin S1064960.rank)
  scat : ScatterDims.WF S16384 S1064960x1 S1064960 [] [0] [0] 1
  gath : GatherDims.WF S16384 S1064960x1 S1064960 [] [0] [] [0] [] 1 ![1]

variable [Facts]
open Facts

def scatDims : ScatterDims S16384 S1064960x1 S1064960 := ⟨[], [0], [0], 1, scat⟩
def gathDims : GatherDims S16384 S1064960x1 S1064960 where
  offsetDims := []
  collapsedSliceDims := [0]
  operandBatchingDims := []
  startIndicesBatchingDims := []
  startIndexMap := [0]
  indexVectorDim := 1
  sliceSizes := ![1]
  wf := gath

variable {F : FTy → Type} [FloatOps F]

/-- node 0..16383 as 32-bit integers -/
def loopV : IVec S16384 32 := iotaInDim S16384 32 0
/-- sources: row 0 of the edge list, then the self loops -/
def srcV (ei : IVec S2x1048576 32) : IVec S1064960 32 :=
  concatenate S1064960 0 [⟨S1048576, shapeCast _ (extractStridedSlice S1x1048576 ![0, 0] ei slices0) casts⟩, ⟨S16384, loopV⟩] concat
/-- destinations: row 1 of the edge list, then the self loops -/
def dstV (ei : IVec S2x1048576 32) : IVec S1064960 32 :=
  concatenate S1064960 0 [⟨S1048576, shapeCast _ (extractStridedSlice S1x1048576 ![1, 0] ei slices1) casts⟩, ⟨S16384, loopV⟩] concat
/-- weights: the edge weights, then a one per self loop -/
def wV (w : FVec F S1048576 .f32) : FVec F S1064960 .f32 :=
  concatenate S1064960 0 [⟨S1048576, w⟩, ⟨S16384, broadcastInDim S16384 ![] bc16384 (constant S_ .f32 0x3F800000#32)⟩] concat
/-- in-degree: the weights summed by destination -/
def degV (ei : IVec S2x1048576 32) (w : FVec F S1048576 .f32) : FVec F S16384 .f32 :=
  Host.scatterAdd scatDims (broadcastInDim S16384 ![] bc16384 (constant S_ .f32 0x00000000#32))
    (broadcastInDim S1064960x1 ![0] bcE1 (dstV ei)) (wV w)
/-- inverse square root of the degree where it is positive, zero elsewhere -/
def dinvV (ei : IVec S2x1048576 32) (w : FVec F S1048576 .f32) : FVec F S16384 .f32 :=
  select (cmpf .ogt (degV ei w) (broadcastInDim S16384 ![] bc16384 (constant S_ .f32 0x00000000#32)))
    (Host.rsqrt (maximumf (degV ei w) (broadcastInDim S16384 ![] bc16384 (constant S_ .f32 0x2B8CBCCC#32))))
    (broadcastInDim S16384 ![] bc16384 (id (constant S_ .f32 0x00000000#32)))
/-- an index list with negative entries moved up by 16384 (numpy's reading of a negative index) -/
def wrapV (v : IVec S1064960 32) : IVec S1064960 32 :=
  select (cmpi .slt v (broadcastInDim S1064960 ![] bcE (constantI S_ 32 0#32)))
    (addi v (broadcastInDim S1064960 ![] bcE (constantI S_ 32 16384#32))) v
/-- the normalised weight of every edge: dinv[src] * w * dinv[dst] -/
def nrmV (ei : IVec S2x1048576 32) (w : FVec F S1048576 .f32) : FVec F S1064960 .f32 :=
  mulf (mulf (Host.gather gathDims (dinvV ei w) (broadcastInDim S1064960x1 ![0] bcE1 (wrapV (srcV ei)))) (wV w))
    (Host.gather gathDims (dinvV ei w) (broadcastInDim S1064960x1 ![0] bcE1 (wrapV (dstV ei))))

end Cert.Shared

end
-- ==== Proof.LibGather.lean ====
/-
  The host's gather along one axis and the concatenation of two vectors, read at one index, for sizes that are
  variables.

  A gather reads, for each element of its result, one element of its table: on every table axis the coordinate is a
  start (an entry of the index array read as a SIGNED integer, its non-negative part clamped so that the slice stays
  inside the table; zero on an axis the index array does not address) plus a batching coordinate (none here) plus an
  offset coordinate (the result's coordinate on the offset axis standing for that table axis; zero on a collapsed axis).
  * ONE AXIS: table [A], indices [N, 1], result [N]. Entry j of the result is the table's entry
    min (index j)⁺ (A − 1) (gather_vec_apply).
  * COLUMNS: table [B, A], indices [N, 1], result [B, N]. Element (b, j) of the result is the table's element in
    row b and column min (index j)⁺ (A − 1) (gather_cols_apply).
  Last, two vectors [M] and [K] laid end to end along their only axis: entry i < M of the result is the first
  vector's entry i, and entry M + k is the second vector's entry k (concat_vec_lo, concat_vec_hi).
-/
import Idealize.ShloMosaic.PureOps.Ideal
import Idealize.ShloMosaic.Lib.ValueIdx
import Idealize.ShloMosaic.Lib.Pipeline.Value

noncomputable section

namespace Cert.Gather

open Idealize.ShloMosaic Idealize.ShloMosaic.ValueIdx

/-! ## Taking entries of a vector -/

/-- take entries of a table [A] at indices [N,1]: result [N]; no offset axis, the table's only axis collapsed and
    addressed by the one index component, index vector on axis 1, slice size 1 -/
abbrev vecGather (A N : Nat) (wf : GatherDims.WF ⟨1, ![A]⟩ ⟨2, ![N, 1]⟩ ⟨1, ![N]⟩ [] [0] [] [0] [] 1 ![1]) :
    GatherDims ⟨1, ![A]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

section Vec
variable {A N w : Nat} (wf : GatherDims.WF ⟨1, ![A]⟩ ⟨2, ![N, 1]⟩ ⟨1, ![N]⟩ [] [0] [] [0] [] 1 ![1])

/-- Result entry j reads its one start component at position (j, 0) of the index array. -/
theorem vec_siIdx (j : Fin N) (c : Fin (vecGather A N wf).startIndexMap.length) :
    (vecGather A N wf).siIdx (ix1 j) c = ix2 j (0 : Fin 1) := by
  funext k; refine Fin.ext ?_
  match k with
  | ⟨0, _⟩ => rfl
  | ⟨1, _⟩ =>
    show c.val = 0
    have : c.val < 1 := c.isLt
    omega

/-- On the table's only axis the coordinate is the index, read signed and clamped into [0, A − 1]. -/
theorem vec_coord (idx : IVec ⟨2, ![N, 1]⟩ w) (j : Fin N) :
    (vecGather A N wf).start (ix1 j) idx (0 : Fin 1) + (vecGather A N wf).batchCoord (ix1 j) (0 : Fin 1)
        + (vecGather A N wf).offCoord (ix1 j) (0 : Fin 1)
      = min (idx (ix2 j (0 : Fin 1))).toInt.toNat (A - 1) := by
  rw [GatherDims.batchCoord_eq_zero _ _ _ List.not_mem_nil,
    GatherDims.offCoord_eq_zero _ _ _ (fun h => ((GatherDims.mem_sKept _ _).mp h).1 List.mem_cons_self)]
  simp only [Nat.add_zero]
  unfold GatherDims.start
  rw [dif_pos (show (0 : Fin 1) ∈ (vecGather A N wf).startIndexMap from List.mem_cons_self)]
  rw [vec_siIdx]
  rfl

end Vec

/-- THE ONE-AXIS GATHER READ AT j: the table's entry whose number is index j, read signed and clamped into
    [0, A − 1]. -/
theorem gather_vec_apply {α : Type} {A N w : Nat} (hA : 0 < A)
    (wf : GatherDims.WF ⟨1, ![A]⟩ ⟨2, ![N, 1]⟩ ⟨1, ![N]⟩ [] [0] [] [0] [] 1 ![1])
    (x : (⟨1, ![A]⟩ : Shape).Idx → α) (idx : IVec ⟨2, ![N, 1]⟩ w) (j : Fin N) :
    Host.gather (vecGather A N wf) x idx (ix1 j)
      = x (ix1 ⟨min (idx (ix2 j (0 : Fin 1))).toInt.toNat (A - 1), by omega⟩) := by
  unfold Host.gather
  congr 1
  funext a
  refine Fin.ext ?_
  match a with
  | ⟨0, _⟩ => exact vec_coord wf idx j

/-! ## Taking columns of a table -/

/-- take columns of a table [B,A] at indices [N,1]: result [B,N]; offset axis 0 (the table's rows, whole), the column
    axis collapsed and addressed by the one index component, index vector on axis 1, slice sizes [B, 1] -/
abbrev colGather (B A N : Nat) (wf : GatherDims.WF ⟨2, ![B, A]⟩ ⟨2, ![N, 1]⟩ ⟨2, ![B, N]⟩ [0] [1] [] [1] [] 1 ![B, 1]) :
    GatherDims ⟨2, ![B, A]⟩ ⟨2, ![N, 1]⟩ ⟨2, ![B, N]⟩ where
  offsetDims := [0]
  collapsedSliceDims := [1]
  operandBatchingDims := []
  startIndicesBatchingDims := []
  startIndexMap := [1]
  indexVectorDim := 1
  sliceSizes := ![B, 1]
  wf := wf

section Cols
variable {B A N w : Nat} (wf : GatherDims.WF ⟨2, ![B, A]⟩ ⟨2, ![N, 1]⟩ ⟨2, ![B, N]⟩ [0] [1] [] [1] [] 1 ![B, 1])

/-- Every element of result column j reads its one start component at position (j, 0) of the index array. -/
theorem cols_siIdx (b : Fin B) (j : Fin N) (c : Fin (colGather B A N wf).startIndexMap.length) :
    (colGather B A N wf).siIdx (ix2 b j) c = ix2 j (0 : Fin 1) := by
  funext k; refine Fin.ext ?_
  match k with
  | ⟨0, _⟩ => rfl
  | ⟨1, _⟩ =>
    show c.val = 0
    have : c.val < 1 := c.isLt
    omega

/-- On the row axis the table coordinate is the result's row. -/
theorem cols_coord0 (idx : IVec ⟨2, ![N, 1]⟩ w) (b : Fin B) (j : Fin N) :
    (colGather B A N wf).start (ix2 b j) idx (0 : Fin 2) + (colGather B A N wf).batchCoord (ix2 b j) (0 : Fin 2)
        + (colGather B A N wf).offCoord (ix2 b j) (0 : Fin 2)
      = b.val := by
  have hs : (colGather B A N wf).start (ix2 b j) idx (0 : Fin 2) = 0 := by
    unfold GatherDims.start
    rw [dif_neg (show (0 : Fin 2) ∉ (colGather B A N wf).startIndexMap from by
      show (0 : Fin 2) ∉ ([1] : List (Fin 2))
      decide)]
  rw [hs, GatherDims.batchCoord_eq_zero _ _ _ List.not_mem_nil]
  simp only [Nat.add_zero, Nat.zero_add]
  unfold GatherDims.offCoord
  rw [dif_pos (show (0 : Fin 2) ∈ (colGather B A N wf).sKept from by
    rw [GatherDims.mem_sKept]
    exact ⟨by show (0 : Fin 2) ∉ ([1] : List (Fin 2)); decide, List.not_mem_nil⟩)]
  rfl

/-- On the column axis the table coordinate is the index, read signed and clamped into [0, A − 1]. -/
theorem cols_coord1 (idx : IVec ⟨2, ![N, 1]⟩ w) (b : Fin B) (j : Fin N) :
    (colGather B A N wf).start (ix2 b j) idx (1 : Fin 2) + (colGather B A N wf).batchCoord (ix2 b j) (1 : Fin 2)
        + (colGather B A N wf).offCoord (ix2 b j) (1 : Fin 2)
      = min (idx (ix2 j (0 : Fin 1))).toInt.toNat (A - 1) := by
  rw [GatherDims.batchCoord_eq_zero _ _ _ List.not_mem_nil,
    GatherDims.offCoord_eq_zero _ _ _ (fun h => ((GatherDims.mem_sKept _ _).mp h).1 List.mem_cons_self)]
  simp only [Nat.add_zero]
  unfold GatherDims.start
  rw [dif_pos (show (1 : Fin 2) ∈ (colGather B A N wf).startIndexMap from List.mem_cons_self)]
  rw [cols_siIdx]
  rfl

end Cols

/-- THE COLUMN GATHER READ AT (b, j): the table's element in row b of the column whose number is index j, read
    signed and clamped into [0, A − 1]. -/
theorem gather_cols_apply {α : Type} {B A N w : Nat} (hA : 0 < A)
    (wf : GatherDims.WF ⟨2, ![B, A]⟩ ⟨2, ![N, 1]⟩ ⟨2, ![B, N]⟩ [0] [1] [] [1] [] 1 ![B, 1])
    (x : (⟨2, ![B, A]⟩ : Shape).Idx → α) (idx : IVec ⟨2, ![N, 1]⟩ w) (b : Fin B) (j : Fin N) :
    Host.gather (colGather B A N wf) x idx (ix2 b j)
      = x (ix2 b ⟨min (idx (ix2 j (0 : Fin 1))).toInt.toNat (A - 1), by omega⟩) := by
  unfold Host.gather
  congr 1
  funext a
  refine Fin.ext ?_
  match a with
  | ⟨0, _⟩ => exact cols_coord0 wf idx b j
  | ⟨1, _⟩ => exact cols_coord1 wf idx b j

/-! ## Two vectors end to end -/

section Concat
variable {α : Type} {M K T : Nat}

/-- Entry i < M of the vectors [M] and [K] laid end to end is the first vector's entry i. -/
theorem concat_vec_lo (h : Shape.Concatenates [(⟨1, ![M]⟩ : Shape), ⟨1, ![K]⟩] ⟨1, ![T]⟩ 0)
    (a : (⟨1, ![M]⟩ : Shape).Idx → α) (b : (⟨1, ![K]⟩ : Shape).Idx → α) (i : Fin M) (hi : i.val < T) :
    concatenate (⟨1, ![T]⟩ : Shape) 0 [⟨⟨1, ![M]⟩, a⟩, ⟨⟨1, ![K]⟩, b⟩] h (ix1 (⟨i.val, hi⟩ : Fin T)) = a (ix1 i) := by
  refine concatenate_pair_apply_left (0 : Fin 1) a b h (ix1 (⟨i.val, hi⟩ : Fin T)) rfl (ix1 i) ?_
  intro c
  match c with
  | ⟨0, _⟩ => rfl

/-- Entry M + k of the vectors [M] and [K] laid end to end is the second vector's entry k. -/
theorem concat_vec_hi (h : Shape.Concatenates [(⟨1, ![M]⟩ : Shape), ⟨1, ![K]⟩] ⟨1, ![T]⟩ 0)
    (a : (⟨1, ![M]⟩ : Shape).Idx → α) (b : (⟨1, ![K]⟩ : Shape).Idx → α) (k : Fin K) (hk : M + k.val < T) :
    concatenate (⟨1, ![T]⟩ : Shape) 0 [⟨⟨1, ![M]⟩, a⟩, ⟨⟨1, ![K]⟩, b⟩] h (ix1 (⟨M + k.val, hk⟩ : Fin T)) = b (ix1 k) := by
  refine concatenate_pair_apply_right (0 : Fin 1) a b h (ix1 (⟨M + k.val, hk⟩ : Fin T)) rfl rfl (ix1 k) ?_ ?_
  · intro c hc
    exact absurd (Subsingleton.elim _ _) hc
  · show k.val + M = M + k.val
    omega

end Concat

end Cert.Gather

end
-- ==== Proof.LibScatterRows.lean ====
/-
  The host's accumulating scatter and its row gather, read at one index, over the extended reals.

  An accumulating scatter adds to each element of its operand the sum of the update elements that land on it. An update
  element lands on the element whose coordinate, on every axis, is the update's start (an entry of the index array read
  as a SIGNED integer, and not clamped) plus its window coordinate; when that point is outside the operand on some axis
  the update is dropped. `resultIdx?_eq_some_iff` says this for any dimension numbers: landing on `i` is the system of
  equations "start + window = coordinate of `i`", one per axis, the range conditions being `i`'s own.

  Two shapes of dimension numbers are then solved, for sizes that are variables.
  * POINTS: updates `[N]`, index pairs `[N, 2]`, operand `[A, B]`. Update `j` lands on `(p, q)` iff its pair is
    `(p, q)`, so element `(p, q)` of the result is `x (p, q) + ∑ {j | pair j = (p, q)} upd j`
    (`scatterAdd_point_apply`).
  * ROWS: updates `[N, C]`, row indices `[N, 1]`, operand `[A, C]`. Element `(j, b')` of the updates lands on
    `(p, b)` iff row `j`'s index is `p` and `b' = b`, so element `(p, b)` of the result is
    `x (p, b) + ∑ {j | index j = p} upd (j, b)` (`scatterAdd_rows_apply`): the sum over update elements collapses
    onto column `b`.
  Last, the gather that takes rows of a table `[A, C]` at indices `[N, 1]`: element `(j, b)` of the result is the table
  at row `min (index j)⁺ (A − 1)` and column `b`, the index read signed and clamped into the table (`gather_rows_apply`).
-/
import Idealize.ShloMosaic.PureOps.Ideal
import Idealize.ShloMosaic.Lib.ValueIdx

noncomputable section

open scoped BigOperators

namespace Cert.ScatterRows

open Idealize.ShloMosaic Idealize.ShloMosaic.ValueIdx

/-- An update lands on element `i` exactly when, on every axis, its signed start plus its window coordinate
    is `i`'s coordinate: the range conditions are then `i`'s own. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hr
      have hi := congrFun (Option.some.inj h) a
      have hv := congrArg Fin.val hi
      simp only at hv
      have := (hr a).1
      omega
    · exact absurd h (by simp)
  · intro h
    have hr : ∀ a, 0 ≤ d.start j idx a + (d.window j a : Int) ∧ d.start j idx a + (d.window j a : Int) < s.size a := by
      intro a
      have := h a
      have := (i a).isLt
      omega
    rw [dif_pos hr]
    congr 1
    funext a
    refine Fin.ext ?_
    have := h a
    simp only
    omega

/-! ## One scalar update per index pair -/

/-- one scalar update per index pair: updates [N], indices [N,2] (index vector on axis 1), operand [A,B] -/
abbrev pointDims (A B N : Nat) (wf : ScatterDims.WF ⟨2, ![A, B]⟩ ⟨2, ![N, 2]⟩ ⟨1, ![N]⟩ [] [0, 1] [0, 1] 1) :
    ScatterDims ⟨2, ![A, B]⟩ ⟨2, ![N, 2]⟩ ⟨1, ![N]⟩ := ⟨[], [0, 1], [0, 1], 1, wf⟩

section Point
variable {A B N w : Nat} (wf : ScatterDims.WF ⟨2, ![A, B]⟩ ⟨2, ![N, 2]⟩ ⟨1, ![N]⟩ [] [0, 1] [0, 1] 1)

/-- Update `j` reads component `k` of its index pair at position `(j, k)` of the index array. -/
theorem point_siIdx (j : Fin N) (c : Fin (pointDims A B N wf).scatterDimsToOperandDims.length) (k : Fin 2)
    (hc : c.val = k.val) : (pointDims A B N wf).siIdx (ix1 j) c = ix2 j k := by
  funext b; refine Fin.ext ?_
  match b with
  | ⟨0, _⟩ => rfl
  | ⟨1, _⟩ => exact hc

/-- On the operand's first axis the start is the pair's first component, read signed. -/
theorem point_start0 (idx : IVec ⟨2, ![N, 2]⟩ w) (j : Fin N) :
    (pointDims A B N wf).start (ix1 j) idx (0 : Fin 2) = (idx (ix2 j (0 : Fin 2))).toInt := by
  unfold ScatterDims.start
  rw [dif_pos (show (0 : Fin 2) ∈ (pointDims A B N wf).scatterDimsToOperandDims from List.mem_cons_self)]
  rw [point_siIdx wf j _ (0 : Fin 2)]
  rfl

/-- On the operand's second axis the start is the pair's second component, read signed. -/
theorem point_start1 (idx : IVec ⟨2, ![N, 2]⟩ w) (j : Fin N) :
    (pointDims A B N wf).start (ix1 j) idx (1 : Fin 2) = (idx (ix2 j (1 : Fin 2))).toInt := by
  unfold ScatterDims.start
  rw [dif_pos (show (1 : Fin 2) ∈ (pointDims A B N wf).scatterDimsToOperandDims from List.mem_cons_of_mem _ List.mem_cons_self)]
  rw [point_siIdx wf j _ (1 : Fin 2)]
  rfl

/-- Both operand axes are inserted: a scalar update has no window coordinate. -/
theorem point_window (j : (⟨1, ![N]⟩ : Shape).Idx) (a : Fin 2) : (pointDims A B N wf).window j a = 0 := by
  unfold ScatterDims.window
  rw [dif_neg (show a ∉ (pointDims A B N wf).sKept from by
    have : (pointDims A B N wf).sKept = [] := rfl
    rw [this]; exact List.not_mem_nil)]

/-- Update `j` lands on `(p, q)` exactly when its index pair, read signed, is `(p, q)`. -/
theorem point_resultIdx?_iff (idx : IVec ⟨2, ![N, 2]⟩ w) (j : Fin N) (p : Fin A) (q : Fin B) :
    (pointDims A B N wf).resultIdx? (ix1 j) idx = some (ix2 p q)
      ↔ (idx (ix2 j (0 : Fin 2))).toInt = (p.val : Int) ∧ (idx (ix2 j (1 : Fin 2))).toInt = (q.val : Int) := by
  rw [resultIdx?_eq_some_iff, Fin.forall_fin_two, point_start0, point_start1, point_window, point_window]
  simp only [Nat.cast_zero, add_zero]

end Point

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- THE POINT SCATTER READ AT `(p, q)`: the operand's element plus the sum of the updates whose index pair, read
    signed, is `(p, q)`; an update whose pair is outside the operand is in no such sum. -/
theorem scatterAdd_point_apply {A B N w : Nat} {φ : FTy} (wf : ScatterDims.WF ⟨2, ![A, B]⟩ ⟨2, ![N, 2]⟩ ⟨1, ![N]⟩ [] [0, 1] [0, 1] 1)
    (x : FVec Ideal ⟨2, ![A, B]⟩ φ) (idx : IVec ⟨2, ![N, 2]⟩ w) (upd : FVec Ideal ⟨1, ![N]⟩ φ) (p : Fin A) (q : Fin B) :
    Host.scatterAdd (pointDims A B N wf) x idx upd (ix2 p q)
      = x (ix2 p q) + ∑ j ∈ Finset.univ.filter (fun j : Fin N => (idx (ix2 j (0 : Fin 2))).toInt = (p.val : Int) ∧ (idx (ix2 j (1 : Fin 2))).toInt = (q.val : Int)), upd (ix1 j) := by
  show Ideal.hostScatterAdd (pointDims A B N wf) x idx upd (ix2 p q) = _
  unfold Ideal.hostScatterAdd
  congr 1
  refine Finset.sum_equiv idxEquiv1 ?_ ?_
  · intro j'
    obtain ⟨j, rfl⟩ : ∃ j, j' = ix1 j := ⟨j' 0, eq_ix1 j'⟩
    simp only [Finset.mem_filter, Finset.mem_univ, true_and]
    exact point_resultIdx?_iff wf idx j p q
  · intro j' _
    exact congrArg upd (eq_ix1 j')

/-! ## One row update per index -/

/-- one row update per index: updates [N,C] (window axis 1), indices [N,1] (index vector on axis 1), operand [A,C], rows inserted on axis 0 -/
abbrev rowDims (A C N : Nat) (wf : ScatterDims.WF ⟨2, ![A, C]⟩ ⟨2, ![N, 1]⟩ ⟨2, ![N, C]⟩ [1] [0] [0] 1) :
    ScatterDims ⟨2, ![A, C]⟩ ⟨2, ![N, 1]⟩ ⟨2, ![N, C]⟩ := ⟨[1], [0], [0], 1, wf⟩

section Rows
variable {A C N w : Nat} (wf : ScatterDims.WF ⟨2, ![A, C]⟩ ⟨2, ![N, 1]⟩ ⟨2, ![N, C]⟩ [1] [0] [0] 1)

/-- Every element of update row `j` reads its one start component at position `(j, 0)` of the index array. -/
theorem rows_siIdx (j : Fin N) (b : Fin C) (c : Fin (rowDims A C N wf).scatterDimsToOperandDims.length) :
    (rowDims A C N wf).siIdx (ix2 j b) c = ix2 j (0 : Fin 1) := by
  funext k; refine Fin.ext ?_
  match k with
  | ⟨0, _⟩ => rfl
  | ⟨1, _⟩ =>
    show c.val = 0
    have : c.val < 1 := c.isLt
    omega

/-- On the row axis the start is the row index, read signed. -/
theorem rows_start0 (idx : IVec ⟨2, ![N, 1]⟩ w) (j : Fin N) (b : Fin C) :
    (rowDims A C N wf).start (ix2 j b) idx (0 : Fin 2) = (idx (ix2 j (0 : Fin 1))).toInt := by
  unfold ScatterDims.start
  rw [dif_pos (show (0 : Fin 2) ∈ (rowDims A C N wf).scatterDimsToOperandDims from List.mem_cons_self)]
  rw [rows_siIdx]

/-- The column axis is not indexed: its start is zero. -/
theorem rows_start1 (idx : IVec ⟨2, ![N, 1]⟩ w) (j : Fin N) (b : Fin C) :
    (rowDims A C N wf).start (ix2 j b) idx (1 : Fin 2) = 0 := by
  unfold ScatterDims.start
  rw [dif_neg (show (1 : Fin 2) ∉ (rowDims A C N wf).scatterDimsToOperandDims from by
    show (1 : Fin 2) ∉ ([0] : List (Fin 2))
    decide)]

/-- The row axis is inserted: no window coordinate there. -/
theorem rows_window0 (j : Fin N) (b : Fin C) : (rowDims A C N wf).window (ix2 j b) (0 : Fin 2) = 0 := by
  unfold ScatterDims.window
  rw [dif_neg (show (0 : Fin 2) ∉ (rowDims A C N wf).sKept from by
    show (0 : Fin 2) ∉ ([1] : List (Fin 2))
    decide)]

/-- On the column axis the window coordinate is the update's column. -/
theorem rows_window1 (j : Fin N) (b : Fin C) : (rowDims A C N wf).window (ix2 j b) (1 : Fin 2) = b.val := by
  unfold ScatterDims.window
  rw [dif_pos (show (1 : Fin 2) ∈ (rowDims A C N wf).sKept from by
    have : (rowDims A C N wf).sKept = [1] := rfl
    rw [this]; exact List.mem_cons_self)]
  rfl

/-- An update element lands on `(p, b)` exactly when its row's index, read signed, is `p` and its column is `b`. -/
theorem rows_resultIdx?_iff (idx : IVec ⟨2, ![N, 1]⟩ w) (j' : (⟨2, ![N, C]⟩ : Shape).Idx) (p : Fin A) (b : Fin C) :
    (rowDims A C N wf).resultIdx? j' idx = some (ix2 p b)
      ↔ (idx (ix2 (j' 0) (0 : Fin 1))).toInt = (p.val : Int) ∧ j' 1 = b := by
  obtain ⟨j, b', rfl⟩ : ∃ j b', j' = ix2 j b' := ⟨j' 0, j' 1, eq_ix2 j'⟩
  show _ ↔ (idx (ix2 j (0 : Fin 1))).toInt = (p.val : Int) ∧ b' = b
  rw [resultIdx?_eq_some_iff, Fin.forall_fin_two, rows_start0, rows_start1, rows_window0, rows_window1]
  simp only [Nat.cast_zero, add_zero, zero_add]
  constructor
  · rintro ⟨h0, h1⟩
    exact ⟨h0, Fin.ext (Int.ofNat_inj.mp h1)⟩
  · rintro ⟨h0, rfl⟩
    exact ⟨h0, rfl⟩

end Rows

/-- THE ROW SCATTER READ AT `(p, b)`: the operand's element plus the sum, over the update rows whose index read
    signed is `p`, of that row's element in column `b`; a row whose index is outside the operand is in no such sum. -/
theorem scatterAdd_rows_apply {A C N w : Nat} {φ : FTy} (wf : ScatterDims.WF ⟨2, ![A, C]⟩ ⟨2, ![N, 1]⟩ ⟨2, ![N, C]⟩ [1] [0] [0] 1)
    (x : FVec Ideal ⟨2, ![A, C]⟩ φ) (idx : IVec ⟨2, ![N, 1]⟩ w) (upd : FVec Ideal ⟨2, ![N, C]⟩ φ) (p : Fin A) (b : Fin C) :
    Host.scatterAdd (rowDims A C N wf) x idx upd (ix2 p b)
      = x (ix2 p b) + ∑ j ∈ Finset.univ.filter (fun j : Fin N => (idx (ix2 j (0 : Fin 1))).toInt = (p.val : Int)), upd (ix2 j b) := by
  show Ideal.hostScatterAdd (rowDims A C N wf) x idx upd (ix2 p b) = _
  unfold Ideal.hostScatterAdd
  congr 1
  have hcol : ∀ j' ∈ Finset.univ.filter (fun j' => (rowDims A C N wf).resultIdx? j' idx = some (ix2 p b)),
      ix2 (j' 0) b = j' := by
    intro j' hj'
    rw [Finset.mem_filter] at hj'
    have h := ((rows_resultIdx?_iff wf idx j' p b).mp hj'.2).2
    rw [← h]
    exact (eq_ix2 j').symm
  refine Finset.sum_nbij' (fun j' => j' 0) (fun j => ix2 j b) ?_ ?_ ?_ ?_ ?_
  · intro j' hj'
    rw [Finset.mem_filter] at hj'
    exact Finset.mem_filter.mpr ⟨Finset.mem_univ _, ((rows_resultIdx?_iff wf idx j' p b).mp hj'.2).1⟩
  · intro j hj
    rw [Finset.mem_filter] at hj
    exact Finset.mem_filter.mpr ⟨Finset.mem_univ _, (rows_resultIdx?_iff wf idx (ix2 j b) p b).mpr ⟨hj.2, rfl⟩⟩
  · exact hcol
  · intro j _
    rfl
  · intro j' hj'
    exact congrArg upd (hcol j' hj').symm

/-! ## Taking rows of a table -/

/-- take rows of a table [A,C] at indices [N,1]: result [N,C]; offset_dims [1], collapsed [0], start_index_map [0], index vector on axis 1, slice sizes [1, C] -/
abbrev rowGather (A C N : Nat) (wf : GatherDims.WF ⟨2, ![A, C]⟩ ⟨2, ![N, 1]⟩ ⟨2, ![N, C]⟩ [1] [0] [] [0] [] 1 ![1, C]) :
    GatherDims ⟨2, ![A, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

section Gather
variable {A C N w : Nat} (wf : GatherDims.WF ⟨2, ![A, C]⟩ ⟨2, ![N, 1]⟩ ⟨2, ![N, C]⟩ [1] [0] [] [0] [] 1 ![1, C])

/-- Every element of result row `j` reads its one start component at position `(j, 0)` of the index array. -/
theorem gather_siIdx (j : Fin N) (b : Fin C) (c : Fin (rowGather A C N wf).startIndexMap.length) :
    (rowGather A C N wf).siIdx (ix2 j b) c = ix2 j (0 : Fin 1) := by
  funext k; refine Fin.ext ?_
  match k with
  | ⟨0, _⟩ => rfl
  | ⟨1, _⟩ =>
    show c.val = 0
    have : c.val < 1 := c.isLt
    omega

/-- On the row axis the operand coordinate is the row index, read signed and clamped into `[0, A − 1]`. -/
theorem gather_coord0 (idx : IVec ⟨2, ![N, 1]⟩ w) (j : Fin N) (b : Fin C) :
    (rowGather A C N wf).start (ix2 j b) idx (0 : Fin 2) + (rowGather A C N wf).batchCoord (ix2 j b) (0 : Fin 2)
        + (rowGather A C N wf).offCoord (ix2 j b) (0 : Fin 2)
      = min (idx (ix2 j (0 : Fin 1))).toInt.toNat (A - 1) := by
  rw [GatherDims.batchCoord_eq_zero _ _ _ List.not_mem_nil,
    GatherDims.offCoord_eq_zero _ _ _ (fun h => ((GatherDims.mem_sKept _ _).mp h).1 List.mem_cons_self)]
  simp only [Nat.add_zero]
  unfold GatherDims.start
  rw [dif_pos (show (0 : Fin 2) ∈ (rowGather A C N wf).startIndexMap from List.mem_cons_self)]
  rw [gather_siIdx]
  rfl

/-- On the column axis the operand coordinate is the result's column. -/
theorem gather_coord1 (idx : IVec ⟨2, ![N, 1]⟩ w) (j : Fin N) (b : Fin C) :
    (rowGather A C N wf).start (ix2 j b) idx (1 : Fin 2) + (rowGather A C N wf).batchCoord (ix2 j b) (1 : Fin 2)
        + (rowGather A C N wf).offCoord (ix2 j b) (1 : Fin 2)
      = b.val := by
  have hs : (rowGather A C N wf).start (ix2 j b) idx (1 : Fin 2) = 0 := by
    unfold GatherDims.start
    rw [dif_neg (show (1 : Fin 2) ∉ (rowGather A C N wf).startIndexMap from by
      show (1 : Fin 2) ∉ ([0] : List (Fin 2))
      decide)]
  rw [hs, GatherDims.batchCoord_eq_zero _ _ _ List.not_mem_nil]
  simp only [Nat.add_zero, Nat.zero_add]
  unfold GatherDims.offCoord
  rw [dif_pos (show (1 : Fin 2) ∈ (rowGather A C N wf).sKept from by
    rw [GatherDims.mem_sKept]
    exact ⟨by show (1 : Fin 2) ∉ ([0] : List (Fin 2)); decide, List.not_mem_nil⟩)]
  rfl

end Gather

/-- THE ROW GATHER READ AT `(j, b)`: the table's element in column `b` of the row whose number is index `j`, read
    signed and clamped into `[0, A − 1]`. -/
theorem gather_rows_apply {α : Type} {A C N w : Nat} (hA : 0 < A) (wf : GatherDims.WF ⟨2, ![A, C]⟩ ⟨2, ![N, 1]⟩ ⟨2, ![N, C]⟩ [1] [0] [] [0] [] 1 ![1, C])
    (x : (⟨2, ![A, C]⟩ : Shape).Idx → α) (idx : IVec ⟨2, ![N, 1]⟩ w) (j : Fin N) (b : Fin C) :
    Host.gather (rowGather A C N wf) x idx (ix2 j b)
      = x (ix2 ⟨min (idx (ix2 j (0 : Fin 1))).toInt.toNat (A - 1), by omega⟩ b) := by
  unfold Host.gather
  congr 1
  funext a
  refine Fin.ext ?_
  match a with
  | ⟨0, _⟩ => exact gather_coord0 wf idx j b
  | ⟨1, _⟩ => exact gather_coord1 wf idx j b

end Cert.ScatterRows

end
-- ==== Proof.LibScatter1.lean ====
/-
  The host's accumulating scatter of scalar updates `[N]` through one-component indices `[N, 1]` into a vector `[A]`,
  read at an entry: the operand's entry plus the sum of the updates whose index, read signed, is that entry's number
  (an update whose index is outside the vector is in no such sum).

  Update `j` has one start, entry `(j, 0)` of the index array read as a signed integer, on the operand's only axis,
  and no window coordinate (the axis is inserted). So it lands on entry `s` exactly when that signed index is `s`.
-/
import proofs.«429495_j14869176779093_2_alg».proof.Proof.LibScatterRows

noncomputable section

open scoped BigOperators

namespace Cert.Scatter1

open Idealize.ShloMosaic Idealize.ShloMosaic.ValueIdx

/-- scalar updates `[N]`, indices `[N, 1]` (index vector on axis 1), operand `[A]` -/
abbrev dims1 (A N : Nat) (wf : ScatterDims.WF ⟨1, ![A]⟩ ⟨2, ![N, 1]⟩ ⟨1, ![N]⟩ [] [0] [0] 1) :
    ScatterDims ⟨1, ![A]⟩ ⟨2, ![N, 1]⟩ ⟨1, ![N]⟩ := ⟨[], [0], [0], 1, wf⟩

section One
variable {A N w : Nat} (wf : ScatterDims.WF ⟨1, ![A]⟩ ⟨2, ![N, 1]⟩ ⟨1, ![N]⟩ [] [0] [0] 1)

/-- Update `j` reads its one start component at position `(j, 0)` of the index array. -/
theorem one_siIdx (j : Fin N) (c : Fin (dims1 A N wf).scatterDimsToOperandDims.length) :
    (dims1 A N wf).siIdx (ix1 j) c = ix2 j (0 : Fin 1) := by
  funext k; refine Fin.ext ?_
  match k with
  | ⟨0, _⟩ => rfl
  | ⟨1, _⟩ =>
    show c.val = 0
    have : c.val < 1 := c.isLt
    omega

/-- On the operand's only axis the start is the index, read signed. -/
theorem one_start (idx : IVec ⟨2, ![N, 1]⟩ w) (j : Fin N) (a : Fin 1) :
    (dims1 A N wf).start (ix1 j) idx a = (idx (ix2 j (0 : Fin 1))).toInt := by
  obtain rfl : a = 0 := Subsingleton.elim _ _
  unfold ScatterDims.start
  rw [dif_pos (show (0 : Fin 1) ∈ (dims1 A N wf).scatterDimsToOperandDims from List.mem_cons_self)]
  rw [one_siIdx]

/-- The operand's only axis is inserted: a scalar update has no window coordinate. -/
theorem one_window (j : (⟨1, ![N]⟩ : Shape).Idx) (a : Fin 1) : (dims1 A N wf).window j a = 0 := by
  unfold ScatterDims.window
  rw [dif_neg (show a ∉ (dims1 A N wf).sKept from by
    have : (dims1 A N wf).sKept = [] := rfl
    rw [this]; exact List.not_mem_nil)]

/-- Update `j` lands on entry `s` exactly when its index, read signed, is `s`. -/
theorem one_resultIdx?_iff (idx : IVec ⟨2, ![N, 1]⟩ w) (j : Fin N) (s : Fin A) :
    (dims1 A N wf).resultIdx? (ix1 j) idx = some (ix1 s)
      ↔ (idx (ix2 j (0 : Fin 1))).toInt = (s.val : Int) := by
  rw [Cert.ScatterRows.resultIdx?_eq_some_iff, Fin.forall_fin_one, one_start, one_window]
  simp only [Nat.cast_zero, add_zero]

end One

/-- THE ONE-AXIS SCATTER READ AT `s`: the operand's entry plus the sum of the updates whose index, read signed, is
    `s`; an update whose index is negative or past the vector's end is in no such sum. -/
theorem scatterAdd_1d_apply {A N w : Nat} {φ : FTy} (wf : ScatterDims.WF ⟨1, ![A]⟩ ⟨2, ![N, 1]⟩ ⟨1, ![N]⟩ [] [0] [0] 1)
    (x : FVec Ideal ⟨1, ![A]⟩ φ) (idx : IVec ⟨2, ![N, 1]⟩ w) (upd : FVec Ideal ⟨1, ![N]⟩ φ) (s : Fin A) :
    Host.scatterAdd (dims1 A N wf) x idx upd (ix1 s)
      = x (ix1 s) + ∑ j ∈ Finset.univ.filter (fun j : Fin N => (idx (ix2 j (0 : Fin 1))).toInt = (s.val : Int)), upd (ix1 j) := by
  show Ideal.hostScatterAdd (dims1 A N wf) x idx upd (ix1 s) = _
  unfold Ideal.hostScatterAdd
  congr 1
  refine Finset.sum_equiv Cert.ScatterRows.idxEquiv1 ?_ ?_
  · intro j'
    obtain ⟨j, rfl⟩ : ∃ j, j' = ix1 j := ⟨j' 0, eq_ix1 j'⟩
    simp only [Finset.mem_filter, Finset.mem_univ, true_and]
    exact one_resultIdx?_iff wf idx j s
  · intro j' _
    exact congrArg upd (eq_ix1 j')

end Cert.Scatter1

end
-- ==== Proof.SharedFacts.lean ====
/-
  Facts about the shared host lines: the appended index lists entry by entry, their range when the edge list is in
  range, and that every normalised weight is a real number when the edge weights are.
-/
import proofs.«429495_j14869176779093_2_alg».proof.Proof.Shared
import proofs.«429495_j14869176779093_2_alg».proof.Proof.LibGather
import proofs.«429495_j14869176779093_2_alg».proof.Proof.LibScatter1
import proofs.«429495_j14869176779093_2_alg».proof.Proof.Spec
import Idealize.ShloMosaic.Lib.ValueIdx
import Idealize.ShloMosaic.Lib.Pipeline.Value
import Idealize.ShloMosaic.PureOps.Ideal.Laws

noncomputable section

open scoped BigOperators

namespace Cert.Shared

open Idealize.ShloMosaic Idealize.ShloMosaic.ValueIdx

variable [Facts]

/-- row r of the edge list, flattened, at entry e is the edge list at (r, e) -/
theorem row0_apply (ei : IVec S2x1048576 32) (e : Fin 1048576) :
    shapeCast S1048576 (extractStridedSlice S1x1048576 ![0, 0] ei Facts.slices0) Facts.casts (ix1 e)
      = ei (ix2 (0 : Fin 2) e) := by
  refine (shapeCast_apply _ Facts.casts (ix1 e) (ix2 (0 : Fin 1) e) ?_).trans ?_
  · rewrite [Shape.rowMajor_val_two, Shape.rowMajor_val_one]
    show 0 * 1048576 + e.val = e.val
    omega
  · exact extractStridedSlice_apply ![0, 0] ei Facts.slices0 (ix2 (0 : Fin 1) e) (ix2 (0 : Fin 2) e) (fun a => match a with
      | ⟨0, _⟩ => by show (0 : Nat) = 0 + 0; omega
      | ⟨1, _⟩ => by show e.val = 0 + e.val; omega)

theorem row1_apply (ei : IVec S2x1048576 32) (e : Fin 1048576) :
    shapeCast S1048576 (extractStridedSlice S1x1048576 ![1, 0] ei Facts.slices1) Facts.casts (ix1 e)
      = ei (ix2 (1 : Fin 2) e) := by
  refine (shapeCast_apply _ Facts.casts (ix1 e) (ix2 (0 : Fin 1) e) ?_).trans ?_
  · rewrite [Shape.rowMajor_val_two, Shape.rowMajor_val_one]
    show 0 * 1048576 + e.val = e.val
    omega
  · exact extractStridedSlice_apply ![1, 0] ei Facts.slices1 (ix2 (0 : Fin 1) e) (ix2 (1 : Fin 2) e) (fun a => match a with
      | ⟨0, _⟩ => by show (1 : Nat) = 1 + 0; omega
      | ⟨1, _⟩ => by show e.val = 0 + e.val; omega)

/-- the first 1048576 sources are row 0 of the edge list -/
theorem srcV_lo (ei : IVec S2x1048576 32) (e : Fin 1048576) :
    srcV ei (ix1 (⟨e.val, by omega⟩ : Fin 1064960)) = ei (ix2 (0 : Fin 2) e) := by
  unfold srcV
  exact (Cert.Gather.concat_vec_lo Facts.concat _ _ e _).trans (row0_apply ei e)
/-- the last 16384 sources are the nodes themselves (the self loops) -/
theorem srcV_hi (ei : IVec S2x1048576 32) (k : Fin 16384) :
    srcV ei (ix1 (⟨1048576 + k.val, by omega⟩ : Fin 1064960)) = BitVec.ofNat 32 k.val := by
  unfold srcV
  exact (Cert.Gather.concat_vec_hi Facts.concat _ _ k _).trans rfl
theorem dstV_lo (ei : IVec S2x1048576 32) (e : Fin 1048576) :
    dstV ei (ix1 (⟨e.val, by omega⟩ : Fin 1064960)) = ei (ix2 (1 : Fin 2) e) := by
  unfold dstV
  exact (Cert.Gather.concat_vec_lo Facts.concat _ _ e _).trans (row1_apply ei e)
theorem dstV_hi (ei : IVec S2x1048576 32) (k : Fin 16384) :
    dstV ei (ix1 (⟨1048576 + k.val, by omega⟩ : Fin 1064960)) = BitVec.ofNat 32 k.val := by
  unfold dstV
  exact (Cert.Gather.concat_vec_hi Facts.concat _ _ k _).trans rfl

/-- a node number, as a 32-bit word read signed, is itself -/
theorem toInt_ofNat_node (k : Nat) (hk : k < 16384) : (BitVec.ofNat 32 k).toInt = (k : Int) := by
  rw [BitVec.toInt_eq_toNat_cond, BitVec.toNat_ofNat]
  have h1 : k % 2 ^ 32 = k := Nat.mod_eq_of_lt (by omega)
  rw [h1, if_pos (by omega)]

/-- every entry of the appended list is an entry of the edge-list row or a node number -/
theorem entry_cases {v : IVec S1064960 32} {row : Fin 1048576 → BitVec 32}
    (hlo : ∀ e : Fin 1048576, v (ix1 (⟨e.val, by omega⟩ : Fin 1064960)) = row e)
    (hhi : ∀ k : Fin 16384, v (ix1 (⟨1048576 + k.val, by omega⟩ : Fin 1064960)) = BitVec.ofNat 32 k.val)
    (e : Fin 1064960) :
    (∃ e' : Fin 1048576, v (ix1 e) = row e') ∨ (∃ k : Fin 16384, v (ix1 e) = BitVec.ofNat 32 k.val) := by
  by_cases h : e.val < 1048576
  · left
    exact ⟨⟨e.val, h⟩, hlo ⟨e.val, h⟩⟩
  · right
    have hk : e.val - 1048576 < 16384 := by have := e.isLt; omega
    refine ⟨⟨e.val - 1048576, hk⟩, ?_⟩
    have he : e = (⟨1048576 + (e.val - 1048576), by have := e.isLt; omega⟩ : Fin 1064960) := Fin.ext (by show e.val = 1048576 + (e.val - 1048576); omega)
    rw [← hhi ⟨e.val - 1048576, hk⟩]
    exact congrArg (fun t => v (ix1 t)) he

/-- with the edge list in range, every source (self loops included) is a node -/
theorem srcV_range (ei : IVec S2x1048576 32)
    (hei : ∀ (r : Fin 2) (e : Fin 1048576), 0 ≤ (ei (ix2 r e)).toInt ∧ (ei (ix2 r e)).toInt < 16384) (e : Fin 1064960) :
    0 ≤ (srcV ei (ix1 e)).toInt ∧ (srcV ei (ix1 e)).toInt < 16384 := by
  rcases entry_cases (srcV_lo ei) (srcV_hi ei) e with ⟨e', h⟩ | ⟨k, h⟩
  · rw [h]; exact hei 0 e'
  · rw [h, toInt_ofNat_node k.val k.isLt]
    have := k.isLt
    omega
theorem dstV_range (ei : IVec S2x1048576 32)
    (hei : ∀ (r : Fin 2) (e : Fin 1048576), 0 ≤ (ei (ix2 r e)).toInt ∧ (ei (ix2 r e)).toInt < 16384) (e : Fin 1064960) :
    0 ≤ (dstV ei (ix1 e)).toInt ∧ (dstV ei (ix1 e)).toInt < 16384 := by
  rcases entry_cases (dstV_lo ei) (dstV_hi ei) e with ⟨e', h⟩ | ⟨k, h⟩
  · rw [h]; exact hei 1 e'
  · rw [h, toInt_ofNat_node k.val k.isLt]
    have := k.isLt
    omega

/-- an entry that is not negative is not moved by the negative-index correction -/
theorem wrapV_of_nonneg (v : IVec S1064960 32) (e : Fin 1064960) (h : 0 ≤ (v (ix1 e)).toInt) : wrapV v (ix1 e) = v (ix1 e) := by
  have hc : IntOp.cmpi .slt (v (ix1 e)) 0#32 = 0#1 := by
    show BitVec.ofBool ((v (ix1 e)).slt 0#32) = 0#1
    have hs : (v (ix1 e)).slt 0#32 = false := by
      rw [BitVec.slt_eq_decide]
      exact decide_eq_false (by rw [BitVec.toInt_zero]; omega)
    rw [hs]; rfl
  show Scalar.select (IntOp.cmpi .slt (v (ix1 e)) 0#32) _ (v (ix1 e)) = v (ix1 e)
  rw [hc, select_zero]

/-! ## Every normalised weight is real -/

/-- the word of the float one is the real one -/
theorem ofBits_one_f32 : Ideal.ofBits .f32 0x3F800000#32 = ((1 : ℝ) : EReal) := by
  simp [Ideal.ofBits, Ideal.ieee]
  rw [← EReal.coe_mul, ← EReal.coe_one, EReal.coe_eq_coe_iff]
  norm_num

/-- the word of the small constant under the square root is a real -/
theorem ofBits_eps_real : ∃ c : ℝ, Ideal.ofBits .f32 0x2B8CBCCC#32 = ((c : ℝ) : EReal) := by
  simp [Ideal.ofBits, Ideal.ieee]
  exact ⟨_, (EReal.coe_mul _ _).symm⟩

/-- every appended weight is real: an edge weight, or the one of a self loop -/
theorem wV_real (w : FVec Ideal S1048576 .f32)
    (hw : ∀ e : Fin 1048576, ∃ r : ℝ, w (ix1 e) = ((r : ℝ) : EReal)) (e : Fin 1064960) :
    ∃ r : ℝ, wV (F := Ideal) w (ix1 e) = ((r : ℝ) : EReal) := by
  by_cases h : e.val < 1048576
  · obtain ⟨r, hr⟩ := hw ⟨e.val, h⟩
    refine ⟨r, ?_⟩
    rw [← hr]
    unfold wV
    exact Cert.Gather.concat_vec_lo Facts.concat _ _ ⟨e.val, h⟩ e.isLt
  · have hk : e.val - 1048576 < 16384 := by have := e.isLt; omega
    refine ⟨1, ?_⟩
    have he : e = (⟨1048576 + (e.val - 1048576), by have := e.isLt; omega⟩ : Fin 1064960) := Fin.ext (by show e.val = 1048576 + (e.val - 1048576); omega)
    rw [he]
    unfold wV
    refine (Cert.Gather.concat_vec_hi Facts.concat _ _ ⟨e.val - 1048576, hk⟩ _).trans ?_
    exact ofBits_one_f32

/-- every degree is real: zero plus a finite sum of real weights -/
theorem degV_real (ei : IVec S2x1048576 32) (w : FVec Ideal S1048576 .f32)
    (hw : ∀ e : Fin 1048576, ∃ r : ℝ, w (ix1 e) = ((r : ℝ) : EReal)) (s : Fin 16384) :
    ∃ r : ℝ, degV (F := Ideal) ei w (ix1 s) = ((r : ℝ) : EReal) := by
  choose f hf using wV_real w hw
  have h := Cert.Scatter1.scatterAdd_1d_apply (φ := .f32) Facts.scat
    (broadcastInDim S16384 ![] Facts.bc16384 (constant (F := Ideal) S_ .f32 0x00000000#32))
    (broadcastInDim S1064960x1 ![0] Facts.bcE1 (dstV ei)) (wV (F := Ideal) w) s
  refine ⟨∑ j ∈ Finset.univ.filter (fun j : Fin 1064960 =>
      ((broadcastInDim S1064960x1 ![0] Facts.bcE1 (dstV ei)) (ix2 j (0 : Fin 1))).toInt = (s.val : Int)), f j, ?_⟩
  refine (show degV (F := Ideal) ei w (ix1 s) = _ from h).trans ?_
  rw [Cert.Spec.coe_sum]
  have h0 : (broadcastInDim S16384 ![] Facts.bc16384 (constant (F := Ideal) S_ .f32 0x00000000#32)) (ix1 s) = (0 : EReal) :=
    Ideal.ofBits_zero_f32
  rw [h0, zero_add]
  exact Finset.sum_congr rfl (fun j _ => hf j)

/-- the inverse square root of a positive real is a real -/
theorem rsqrt_real_of_pos (m : ℝ) (hm : 0 < m) : ∃ r : ℝ, Ideal.rsqrt ((m : ℝ) : EReal) = ((r : ℝ) : EReal) := by
  refine ⟨(Real.sqrt m)⁻¹, ?_⟩
  rw [Ideal.rsqrt_coe, if_neg (not_lt.mpr hm.le), if_neg hm.ne']

/-- an entrywise inverse square root, read at an entry -/
theorem hostRsqrt_apply {s : Shape} {φ : FTy} (x : FVec Ideal s φ) (i : s.Idx) : Host.rsqrt x i = Ideal.rsqrt (x i) := rfl

/-- the constant-zero vector at an entry -/
theorem zeroV_apply (s : Fin 16384) :
    broadcastInDim S16384 ![] Facts.bc16384 (constant (F := Ideal) S_ .f32 0x00000000#32) (ix1 s) = (0 : EReal) :=
  Ideal.ofBits_zero_f32
/-- the zero vector passed through the identity map, at an entry -/
theorem zeroV_id_apply (s : Fin 16384) :
    broadcastInDim S16384 ![] Facts.bc16384 (id (constant (F := Ideal) S_ .f32 0x00000000#32)) (ix1 s) = (0 : EReal) :=
  Ideal.ofBits_zero_f32
/-- the constant vector under the square root at an entry -/
theorem epsV_apply (s : Fin 16384) :
    broadcastInDim S16384 ![] Facts.bc16384 (constant (F := Ideal) S_ .f32 0x2B8CBCCC#32) (ix1 s)
      = Ideal.ofBits .f32 0x2B8CBCCC#32 := rfl

/-- for a real degree d and a real c: the inverse square root of max(d, c) where d is positive, zero elsewhere, is a
    real (where d > 0, max(d, c) ≥ d is a positive real) -/
theorem dinv_entry_real (d c : ℝ) :
    ∃ r : ℝ, Scalar.select (FloatOps.cmpf (F := Ideal) (φ := FTy.f32) .ogt ((d : ℝ) : EReal) (0 : EReal))
      (Ideal.rsqrt (max ((d : ℝ) : EReal) ((c : ℝ) : EReal))) (0 : EReal) = ((r : ℝ) : EReal) := by
  by_cases hpos : (0 : EReal) < ((d : ℝ) : EReal)
  · have hb : FloatOps.cmpf (F := Ideal) (φ := FTy.f32) .ogt ((d : ℝ) : EReal) (0 : EReal) = 1#1 := by
      show BitVec.ofBool (decide ((0 : EReal) < ((d : ℝ) : EReal))) = 1#1
      rw [decide_eq_true hpos]; rfl
    rw [hb, select_one, ← EReal.coe_strictMono.monotone.map_max]
    have hd0 : 0 < d := by exact_mod_cast hpos
    exact rsqrt_real_of_pos _ (lt_of_lt_of_le hd0 (le_max_left d c))
  · have hb : FloatOps.cmpf (F := Ideal) (φ := FTy.f32) .ogt ((d : ℝ) : EReal) (0 : EReal) = 0#1 := by
      show BitVec.ofBool (decide ((0 : EReal) < ((d : ℝ) : EReal))) = 0#1
      rw [decide_eq_false hpos]; rfl
    rw [hb, select_zero]
    exact ⟨0, rfl⟩

/-- every inverse-square-root factor is real: where the degree is positive it is the inverse square root of a positive
    real, elsewhere it is zero -/
theorem dinvV_real (ei : IVec S2x1048576 32) (w : FVec Ideal S1048576 .f32)
    (hw : ∀ e : Fin 1048576, ∃ r : ℝ, w (ix1 e) = ((r : ℝ) : EReal)) (s : Fin 16384) :
    ∃ r : ℝ, dinvV (F := Ideal) ei w (ix1 s) = ((r : ℝ) : EReal) := by
  obtain ⟨d, hd⟩ := degV_real ei w hw s
  obtain ⟨c, hc⟩ := ofBits_eps_real
  unfold dinvV
  rw [select_apply, cmpf_apply, hostRsqrt_apply, maximumf_apply, zeroV_apply, zeroV_id_apply, epsV_apply, hc, hd]
  exact dinv_entry_real d c

/-- a gather from a table of reals returns a real: it returns an entry of the table -/
theorem gather_real (T : FVec Ideal S16384 .f32) (hT : ∀ s : Fin 16384, ∃ r : ℝ, T (ix1 s) = ((r : ℝ) : EReal))
    (idx : IVec S1064960x1 32) (e : Fin 1064960) :
    ∃ r : ℝ, Host.gather gathDims T idx (ix1 e) = ((r : ℝ) : EReal) := by
  have h := Cert.Gather.gather_vec_apply (by omega : 0 < 16384) Facts.gath T idx e
  rw [show Host.gather gathDims T idx (ix1 e) = _ from h]
  exact hT _

/-- Every normalised weight is real when the edge weights are: a degree is a finite sum of reals; where it is positive,
    max(degree, c) is a positive real and its inverse square root a real; elsewhere the factor is 0; a gather
    returns an entry of the table; a product of reals is real. -/
theorem nrmV_real (ei : IVec S2x1048576 32) (w : FVec Ideal S1048576 .f32)
    (hw : ∀ e : Fin 1048576, ∃ r : ℝ, w (ix1 e) = ((r : ℝ) : EReal)) (e : Fin 1064960) :
    ∃ r : ℝ, nrmV (F := Ideal) ei w (ix1 e) = ((r : ℝ) : EReal) := by
  obtain ⟨a, ha⟩ := gather_real (dinvV (F := Ideal) ei w) (dinvV_real ei w hw)
    (broadcastInDim S1064960x1 ![0] Facts.bcE1 (wrapV (srcV ei))) e
  obtain ⟨b, hb⟩ := gather_real (dinvV (F := Ideal) ei w) (dinvV_real ei w hw)
    (broadcastInDim S1064960x1 ![0] Facts.bcE1 (wrapV (dstV ei))) e
  obtain ⟨x, hx⟩ := wV_real w hw e
  refine ⟨a * x * b, ?_⟩
  unfold nrmV
  rw [mulf_apply, mulf_apply, ha, hb, hx, EReal.coe_mul, EReal.coe_mul]

end Cert.Shared

end
-- ==== Proof.PreFacts.lean ====
/-
  The precondition read: when the printed predicate evaluates to true, every float input holds real numbers and every
  entry of the edge list, read signed, lies in [0, 16384).
-/
import proofs.«429495_j14869176779093_2_alg».proof.Pre_finite_inputs
import proofs.«429495_j14869176779093_2_alg».proof.Proof.Gen.Pre_finite_inputs
import Idealize.ShloMosaic.Lib.ValueIdx
import Idealize.ShloMosaic.Lib.ReduceAll
import Idealize.ShloMosaic.Lib.StableHlo.Predicate
import Idealize.ShloMosaic.PureOps.Ideal.Laws

noncomputable section

namespace Cert.PreFacts

open Idealize.ShloMosaic Idealize.ShloMosaic.ValueIdx Cert.Pre_finite_inputs

variable [Cert.Pre_finite_inputs.Facts]

/-- The shape with no axes has exactly one index. -/
instance subsingleton_scalar_idx : Subsingleton S_.Idx := ⟨fun a b => funext fun d => d.elim0⟩

/-- The bit pattern with all exponent bits set and no fraction bit denotes +∞. -/
theorem inf_pattern : Ideal.ofBits .f32 0x7F800000#32 = (⊤ : EReal) := by
  simp [Ideal.ofBits, Ideal.ieee]

/-- An extended real whose absolute value max(x, -x) lies strictly below +∞ is a real number. -/
theorem real_of_abs_lt_top (x : EReal) (h : max x (-x) < (⊤ : EReal)) : ∃ r : ℝ, x = ((r : ℝ) : EReal) := by
  induction x using EReal.rec with
  | bot => simp at h
  | coe r => exact ⟨r, rfl⟩
  | top => simp at h

/-- The comparison |x| < +∞ holding at one entry says that entry is a real number. -/
theorem real_of_cmp (x : Ideal .f32)
    (h : FloatOps.cmpf (F := Ideal) .olt (FloatOps.absf x) (FloatOps.ofBits (F := Ideal) .f32 0x7F800000#32) = 1#1) :
    ∃ r : ℝ, x = ((r : ℝ) : EReal) := by
  rw [Ideal.cmpf_def, Ideal.absf_def, Ideal.ofBits_def, inf_pattern] at h
  simp only [Ideal.cmp, StableHlo.Predicate.ofBool_eq_one_iff, decide_eq_true_eq] at h
  exact real_of_abs_lt_top x h

/-- "All entries satisfy |a| < +∞", evaluated to true, says every entry of a is a real number. -/
theorem all_real {s : Shape} {axes : List (Fin s.rank)} (a : FVec Ideal s .f32)
    (hb : S_.BroadcastsInDim s (![] : Fin 0 → Fin s.rank)) (hr : s.ReducesTo axes S_) (h0 : 0 < S_.numel)
    (e : Host.reduce IntOp.andi (cmpf .olt (Host.absf a) (broadcastInDim s ![] hb (constant (F := Ideal) S_ .f32 0x7F800000#32)))
      (constantI S_ 1 1#1) hr h0 ix0 = 1#1) (i : s.Idx) : ∃ r : ℝ, a i = ((r : ℝ) : EReal) := by
  have hi := Host.reduce_andi_all _ _ hr h0 ix0 e i
  exact real_of_cmp (a i) hi

/-- A 32-bit word that compares signed ≥ 0 has a non-negative signed value. -/
theorem toInt_nonneg_of_sge (w : BitVec 32) (h : IntOp.cmpi .sge w (0#32) = 1#1) : 0 ≤ w.toInt := by
  unfold IntOp.cmpi at h
  rw [StableHlo.Predicate.ofBool_eq_one_iff] at h
  have h' : (0#32).toInt ≤ w.toInt := by simpa [BitVec.sle] using h
  simpa using h'

/-- A 32-bit word that compares signed < 16384 has a signed value below 16384. -/
theorem toInt_lt_of_slt (w : BitVec 32) (h : IntOp.cmpi .slt w (16384#32) = 1#1) : w.toInt < 16384 := by
  unfold IntOp.cmpi at h
  rw [StableHlo.Predicate.ofBool_eq_one_iff] at h
  have h' : w.toInt < (16384#32).toInt := by simpa [BitVec.slt] using h
  have e : (16384#32).toInt = 16384 := by decide
  rw [e] at h'; exact h'

/-- What the precondition says, unpacked: each float input is real entry by entry, the edge list is in range. -/
structure Decoded (a0 : FVec Ideal S128x16384 .f32) (a1 : IVec S2x1048576 32) (a2 : FVec Ideal S1048576 .f32)
    (a3 : FVec Ideal S512x16384 .f32) (a4 : FVec Ideal S512 .f32) (a5 : FVec Ideal S512x512 .f32) (a6 : FVec Ideal S512 .f32)
    (a7 : FVec Ideal S10x512 .f32) (a8 : FVec Ideal S10 .f32) : Prop where
  x : ∀ i, ∃ r : ℝ, a0 i = ((r : ℝ) : EReal)
  w : ∀ i, ∃ r : ℝ, a2 i = ((r : ℝ) : EReal)
  W1 : ∀ i, ∃ r : ℝ, a3 i = ((r : ℝ) : EReal)
  b1 : ∀ i, ∃ r : ℝ, a4 i = ((r : ℝ) : EReal)
  W2 : ∀ i, ∃ r : ℝ, a5 i = ((r : ℝ) : EReal)
  b2 : ∀ i, ∃ r : ℝ, a6 i = ((r : ℝ) : EReal)
  Wfc : ∀ i, ∃ r : ℝ, a7 i = ((r : ℝ) : EReal)
  bfc : ∀ i, ∃ r : ℝ, a8 i = ((r : ℝ) : EReal)
  ei : ∀ i, 0 ≤ (a1 i).toInt ∧ (a1 i).toInt < 16384

theorem decode (a0 : FVec Ideal S128x16384 .f32) (a1 : IVec S2x1048576 32) (a2 : FVec Ideal S1048576 .f32)
    (a3 : FVec Ideal S512x16384 .f32) (a4 : FVec Ideal S512 .f32) (a5 : FVec Ideal S512x512 .f32) (a6 : FVec Ideal S512 .f32)
    (a7 : FVec Ideal S10x512 .f32) (a8 : FVec Ideal S10 .f32)
    (h : Cert.Pre_finite_inputs.fn (F := Ideal) a0 a1 a2 a3 a4 a5 a6 a7 a8 = (fun _ => 1#1)) :
    Decoded a0 a1 a2 a3 a4 a5 a6 a7 a8 := by
  have e := congrFun h ix0
  dsimp only [Cert.Pre_finite_inputs.fn, Cert.Pre_finite_inputs.fn_part1, Cert.Pre_finite_inputs.fn_part2] at e
  simp only [Idealize.ShloMosaic.andi, IntOp.andi_eq_one] at e
  obtain ⟨⟨⟨⟨⟨⟨⟨⟨⟨h0, h2⟩, h3⟩, h4⟩, h5⟩, h6⟩, h7⟩, h8⟩, hge⟩, hlt⟩ := e
  refine ⟨all_real a0 _ _ _ h0, all_real a2 _ _ _ h2, all_real a3 _ _ _ h3, all_real a4 _ _ _ h4,
    all_real a5 _ _ _ h5, all_real a6 _ _ _ h6, all_real a7 _ _ _ h7, all_real a8 _ _ _ h8, fun i => ⟨?_, ?_⟩⟩
  · have hi := Host.reduce_andi_all _ _ _ _ ix0 hge i
    simp only [cmpi, StableHlo.Predicate.bcast_scalar, constantI] at hi
    exact toInt_nonneg_of_sge _ hi
  · have hi := Host.reduce_andi_all _ _ _ _ ix0 hlt i
    simp only [cmpi, StableHlo.Predicate.bcast_scalar, constantI] at hi
    exact toInt_lt_of_slt _ hi

end Cert.PreFacts

end
-- ==== Proof.Witness.lean ====
/-
  Real witnesses of the inputs and of the shared normalisation, chosen once from the decoded precondition: each float
  input as a table of reals, each edge's two endpoints as nodes, each edge's normalised weight as a real.
-/
import proofs.«429495_j14869176779093_2_alg».proof.Proof.SharedFacts
import proofs.«429495_j14869176779093_2_alg».proof.Proof.PreFacts

noncomputable section

namespace Cert.Witness

open Idealize.ShloMosaic Idealize.ShloMosaic.ValueIdx Cert.Pre_finite_inputs

variable [Cert.Shared.Facts]

structure W (a0 : FVec Ideal S128x16384 .f32) (a1 : IVec S2x1048576 32) (a2 : FVec Ideal S1048576 .f32)
    (a3 : FVec Ideal S512x16384 .f32) (a4 : FVec Ideal S512 .f32) (a5 : FVec Ideal S512x512 .f32) (a6 : FVec Ideal S512 .f32)
    (a7 : FVec Ideal S10x512 .f32) (a8 : FVec Ideal S10 .f32) where
  xr : Fin 128 → Fin 16384 → ℝ
  W1r : Fin 512 → Fin 16384 → ℝ
  b1r : Fin 512 → ℝ
  W2r : Fin 512 → Fin 512 → ℝ
  b2r : Fin 512 → ℝ
  Wfcr : Fin 10 → Fin 512 → ℝ
  bfcr : Fin 10 → ℝ
  src : Fin 1064960 → Fin 16384
  dst : Fin 1064960 → Fin 16384
  nr : Fin 1064960 → ℝ
  hx : ∀ b s, a0 (ix2 b s) = ((xr b s : ℝ) : EReal)
  hW1 : ∀ j s, a3 (ix2 j s) = ((W1r j s : ℝ) : EReal)
  hb1 : ∀ j, a4 (ix1 j) = ((b1r j : ℝ) : EReal)
  hW2 : ∀ j i, a5 (ix2 j i) = ((W2r j i : ℝ) : EReal)
  hb2 : ∀ j, a6 (ix1 j) = ((b2r j : ℝ) : EReal)
  hWfc : ∀ c j, a7 (ix2 c j) = ((Wfcr c j : ℝ) : EReal)
  hbfc : ∀ c, a8 (ix1 c) = ((bfcr c : ℝ) : EReal)
  hsrc : ∀ e, (Cert.Shared.srcV a1 (ix1 e)).toInt = ((src e).val : Int)
  hdst : ∀ e, (Cert.Shared.dstV a1 (ix1 e)).toInt = ((dst e).val : Int)
  hnr : ∀ e, Cert.Shared.nrmV (F := Ideal) a1 a2 (ix1 e) = ((nr e : ℝ) : EReal)

theorem exists_w [Cert.Pre_finite_inputs.Facts] (a0 : FVec Ideal S128x16384 .f32) (a1 : IVec S2x1048576 32) (a2 : FVec Ideal S1048576 .f32)
    (a3 : FVec Ideal S512x16384 .f32) (a4 : FVec Ideal S512 .f32) (a5 : FVec Ideal S512x512 .f32) (a6 : FVec Ideal S512 .f32)
    (a7 : FVec Ideal S10x512 .f32) (a8 : FVec Ideal S10 .f32) (D : Cert.PreFacts.Decoded a0 a1 a2 a3 a4 a5 a6 a7 a8) :
    Nonempty (W a0 a1 a2 a3 a4 a5 a6 a7 a8) := by
  choose xr hx using D.x
  choose W1r hW1 using D.W1
  choose b1r hb1 using D.b1
  choose W2r hW2 using D.W2
  choose b2r hb2 using D.b2
  choose Wfcr hWfc using D.Wfc
  choose bfcr hbfc using D.bfc
  have hei : ∀ (r : Fin 2) (e : Fin 1048576), 0 ≤ (a1 (ix2 r e)).toInt ∧ (a1 (ix2 r e)).toInt < 16384 :=
    fun r e => D.ei (ix2 r e)
  have hwr : ∀ e : Fin 1048576, ∃ r : ℝ, a2 (ix1 e) = ((r : ℝ) : EReal) := fun e => D.w (ix1 e)
  have hs := Cert.Shared.srcV_range a1 hei
  have hd := Cert.Shared.dstV_range a1 hei
  choose nr hnr using Cert.Shared.nrmV_real a1 a2 hwr
  exact ⟨{
    xr := fun b s => xr (ix2 b s)
    W1r := fun j s => W1r (ix2 j s)
    b1r := fun j => b1r (ix1 j)
    W2r := fun j i => W2r (ix2 j i)
    b2r := fun j => b2r (ix1 j)
    Wfcr := fun c j => Wfcr (ix2 c j)
    bfcr := fun c => bfcr (ix1 c)
    src := fun e => ⟨(Cert.Shared.srcV a1 (ix1 e)).toInt.toNat, by have := hs e; omega⟩
    dst := fun e => ⟨(Cert.Shared.dstV a1 (ix1 e)).toInt.toNat, by have := hd e; omega⟩
    nr := nr
    hx := fun b s => hx (ix2 b s)
    hW1 := fun j s => hW1 (ix2 j s)
    hb1 := fun j => hb1 (ix1 j)
    hW2 := fun j i => hW2 (ix2 j i)
    hb2 := fun j => hb2 (ix1 j)
    hWfc := fun c j => hWfc (ix2 c j)
    hbfc := fun c => hbfc (ix1 c)
    hsrc := fun e => (Int.toNat_of_nonneg (hs e).1).symm
    hdst := fun e => (Int.toNat_of_nonneg (hd e).1).symm
    hnr := hnr }⟩

end Cert.Witness

end
-- ==== Proof.KIHost.lean ====
/-
  The kernel program's host lines read back. Before the first kernel call: the shared normalisation, then every edge's
  flat position src * 16384 + dst, and the normalised weights summed by flat position into a zero vector of length
  16384 * 16384, reshaped to the dense matrix A. Entry (s, d) of A is the sum of the normalised weights of the edges
  from s to d. Between the two kernel calls: the three weight matrices transposed and the three biases as one-row
  matrices; every other buffer keeps its contents.
-/
import proofs.«429495_j14869176779093_2_alg».proof.Proof.Gen.KernelIdeal.Launch
import proofs.«429495_j14869176779093_2_alg».proof.Proof.Gen.KernelIdeal.Regions
import proofs.«429495_j14869176779093_2_alg».proof.Proof.Shared
import proofs.«429495_j14869176779093_2_alg».proof.Proof.Spec
import proofs.«429495_j14869176779093_2_alg».proof.Proof.LibScatter1
import Idealize.ShloMosaic.Lib.StableHlo.Run
import Idealize.ShloMosaic.Lib.ValueIdx
import Idealize.ShloMosaic.Lib.Pipeline.Value
import Idealize.ShloMosaic.PureOps.Ideal.Laws

noncomputable section

open scoped BigOperators

namespace Cert.KernelIdeal.Host

open Idealize.ShloMosaic Idealize.ShloMosaic.ValueIdx Cert.KernelIdeal Cert.KernelIdeal.Gen

variable [Cert.KernelIdeal.Facts]

/-- the shared lines' shape relations are among the kernel program's -/
instance sharedFacts : Cert.Shared.Facts where
  slices0 := Facts₀.slices_S2x1048576_S1x1048576_0_0
  slices1 := Facts₀.slices_S2x1048576_S1x1048576_1_0
  casts := Facts₀.shapeCasts_S1x1048576_S1048576
  concat := Facts₀.concatenates_S1048576_S16384_S1064960_d0
  bc16384 := Facts₀.bcast_S_S16384
  bcE1 := Facts₀.bcast_S1064960_S1064960x1_0
  bcE := Facts₀.bcast_S_S1064960
  scat := Facts₀.scatter_S16384_S1064960x1_S1064960_n_0_0_1_wf
  gath := Facts₀.gather_S16384_S1064960x1_S1064960_n_0_n_n_0_1_1_wf

/-- two vectors laid end to end along an axis, as a function of the two vectors -/
def cat2 {α : Type} {t s₁ s₂ : Shape} (a : Fin t.rank) (h : Shape.Concatenates [s₁, s₂] t a)
    (x₁ : s₁.Idx → α) (x₂ : s₂.Idx → α) : t.Idx → α :=
  concatenate t a [⟨s₁, x₁⟩, ⟨s₂, x₂⟩] h

theorem cat2_def {α : Type} {t s₁ s₂ : Shape} (a : Fin t.rank) (h : Shape.Concatenates [s₁, s₂] t a)
    (x₁ : s₁.Idx → α) (x₂ : s₂.Idx → α) :
    concatenate t a [⟨s₁, x₁⟩, ⟨s₂, x₂⟩] h = cat2 a h x₁ x₂ := rfl

/-- every edge's flat position in the dense matrix: source * 16384 + destination, as 32-bit integers -/
def flatV (ei : IVec S2x1048576 32) : IVec S1064960 32 :=
  addi (muli (Cert.Shared.srcV ei) (broadcastInDim S1064960 ![] Facts₀.bcast_S_S1064960 (constantI S_ 32 16384#32)))
    (Cert.Shared.dstV ei)

/-- the dense matrix: the normalised weights summed by flat position into zeros [16384 * 16384], read as [16384, 16384] -/
def hostA (ei : IVec S2x1048576 32) (w : FVec Ideal S1048576 .f32) : FVec Ideal S16384x16384 .f32 :=
  shapeCast _ (Host.scatterAdd scatter_S268435456_S1064960x1_S1064960_n_0_0_1
      (broadcastInDim S268435456 ![] Facts₀.bcast_S_S268435456 (constant (F := Ideal) S_ .f32 0x00000000#32))
      (broadcastInDim S1064960x1 ![0] Facts₀.bcast_S1064960_S1064960x1_0 (flatV ei))
      (Cert.Shared.nrmV (F := Ideal) ei w))
    Facts₀.shapeCasts_S268435456_S16384x16384

/-! ### The first stretch: sources, destinations, weights, degree test and inverse square root -/

theorem a0_v5 (v : Valuation τ sig (Elt Ideal)) :
    (StableHlo.after hostOps0 v (Proc.devRef .tc main_v5) : IVec S1064960 32) = Cert.Shared.srcV (v (Proc.devRef .tc main_arg1)) := by
  simp (disch := decide) only [StableHlo.after_cons, StableHlo.after_nil, StableHlo.nullary_result',
    StableHlo.unary_result', StableHlo.binary_result', StableHlo.ternary_result', StableHlo.reshape_result',
    StableHlo.nullary_result_ne', StableHlo.unary_result_ne', StableHlo.binary_result_ne', StableHlo.ternary_result_ne',
    StableHlo.reshape_result_ne', cat2_def]
  rfl

theorem a0_v6 (v : Valuation τ sig (Elt Ideal)) :
    (StableHlo.after hostOps0 v (Proc.devRef .tc main_v6) : IVec S1064960 32) = Cert.Shared.dstV (v (Proc.devRef .tc main_arg1)) := by
  simp (disch := decide) only [StableHlo.after_cons, StableHlo.after_nil, StableHlo.nullary_result',
    StableHlo.unary_result', StableHlo.binary_result', StableHlo.ternary_result', StableHlo.reshape_result',
    StableHlo.nullary_result_ne', StableHlo.unary_result_ne', StableHlo.binary_result_ne', StableHlo.ternary_result_ne',
    StableHlo.reshape_result_ne', cat2_def]
  rfl

theorem a0_v8 (v : Valuation τ sig (Elt Ideal)) :
    (StableHlo.after hostOps0 v (Proc.devRef .tc main_v8) : FVec Ideal S1064960 .f32) = Cert.Shared.wV (F := Ideal) (v (Proc.devRef .tc main_arg2)) := by
  simp (disch := decide) only [StableHlo.after_cons, StableHlo.after_nil, StableHlo.nullary_result',
    StableHlo.unary_result', StableHlo.binary_result', StableHlo.ternary_result', StableHlo.reshape_result',
    StableHlo.nullary_result_ne', StableHlo.unary_result_ne', StableHlo.binary_result_ne', StableHlo.ternary_result_ne',
    StableHlo.reshape_result_ne', cat2_def]
  rfl

theorem a0_v13 (v : Valuation τ sig (Elt Ideal)) :
    (StableHlo.after hostOps0 v (Proc.devRef .tc main_v13) : IVec S16384 1)
      = cmpf .ogt (Cert.Shared.degV (F := Ideal) (v (Proc.devRef .tc main_arg1)) (v (Proc.devRef .tc main_arg2)))
          (broadcastInDim S16384 ![] Facts₀.bcast_S_S16384 (constant (F := Ideal) S_ .f32 0x00000000#32)) := by
  simp (disch := decide) only [StableHlo.after_cons, StableHlo.after_nil, StableHlo.nullary_result',
    StableHlo.unary_result', StableHlo.binary_result', StableHlo.ternary_result', StableHlo.reshape_result',
    StableHlo.nullary_result_ne', StableHlo.unary_result_ne', StableHlo.binary_result_ne', StableHlo.ternary_result_ne',
    StableHlo.reshape_result_ne', cat2_def]
  rfl

theorem a0_v16 (v : Valuation τ sig (Elt Ideal)) :
    (StableHlo.after hostOps0 v (Proc.devRef .tc main_v16) : FVec Ideal S16384 .f32)
      = Host.rsqrt (maximumf (Cert.Shared.degV (F := Ideal) (v (Proc.devRef .tc main_arg1)) (v (Proc.devRef .tc main_arg2)))
          (broadcastInDim S16384 ![] Facts₀.bcast_S_S16384 (constant (F := Ideal) S_ .f32 0x2B8CBCCC#32))) := by
  simp (disch := decide) only [StableHlo.after_cons, StableHlo.after_nil, StableHlo.nullary_result',
    StableHlo.unary_result', StableHlo.binary_result', StableHlo.ternary_result', StableHlo.reshape_result',
    StableHlo.nullary_result_ne', StableHlo.unary_result_ne', StableHlo.binary_result_ne', StableHlo.ternary_result_ne',
    StableHlo.reshape_result_ne', cat2_def]
  rfl

theorem a0_cst3 (v : Valuation τ sig (Elt Ideal)) :
    (StableHlo.after hostOps0 v (Proc.devRef .tc main_cst_3) : FVec Ideal S_ .f32) = constant (F := Ideal) S_ .f32 0x00000000#32 := by
  simp (disch := decide) only [StableHlo.after_cons, StableHlo.after_nil, StableHlo.nullary_result',
    StableHlo.unary_result', StableHlo.binary_result', StableHlo.ternary_result', StableHlo.reshape_result',
    StableHlo.nullary_result_ne', StableHlo.unary_result_ne', StableHlo.binary_result_ne', StableHlo.ternary_result_ne',
    StableHlo.reshape_result_ne', cat2_def]

/-! ### The second stretch: the inverse square root where the degree is positive, zero elsewhere -/

theorem a1_v17 (V : Valuation τ sig (Elt Ideal)) :
    (StableHlo.after hostOps0_1 V (Proc.devRef .tc main_v17) : FVec Ideal S16384 .f32)
      = select (V (Proc.devRef .tc main_v13) : IVec S16384 1) (V (Proc.devRef .tc main_v16) : FVec Ideal S16384 .f32)
          (broadcastInDim S16384 ![] Facts₀.bcast_S_S16384 (id (V (Proc.devRef .tc main_cst_3) : FVec Ideal S_ .f32))) := by
  simp (disch := decide) only [StableHlo.after_cons, StableHlo.after_nil, StableHlo.nullary_result',
    StableHlo.unary_result', StableHlo.binary_result', StableHlo.ternary_result', StableHlo.reshape_result',
    StableHlo.nullary_result_ne', StableHlo.unary_result_ne', StableHlo.binary_result_ne', StableHlo.ternary_result_ne',
    StableHlo.reshape_result_ne', cat2_def]
  rfl

/-! ### The third stretch: normalised weights, flat positions, the scatter and its reshape -/

/-- the third stretch as a function of what it reads: sources, destinations, weights and inverse square roots -/
def hostA' (sv dv : IVec S1064960 32) (wv : FVec Ideal S1064960 .f32) (dinv : FVec Ideal S16384 .f32) :
    FVec Ideal S16384x16384 .f32 :=
  shapeCast _ (Host.scatterAdd scatter_S268435456_S1064960x1_S1064960_n_0_0_1
      (broadcastInDim S268435456 ![] Facts₀.bcast_S_S268435456 (constant (F := Ideal) S_ .f32 0x00000000#32))
      (broadcastInDim S1064960x1 ![0] Facts₀.bcast_S1064960_S1064960x1_0
        (addi (muli sv (broadcastInDim S1064960 ![] Facts₀.bcast_S_S1064960 (constantI S_ 32 16384#32))) dv))
      (mulf (mulf (Host.gather Cert.Shared.gathDims dinv
            (broadcastInDim S1064960x1 ![0] Facts₀.bcast_S1064960_S1064960x1_0 (Cert.Shared.wrapV sv))) wv)
        (Host.gather Cert.Shared.gathDims dinv
          (broadcastInDim S1064960x1 ![0] Facts₀.bcast_S1064960_S1064960x1_0 (Cert.Shared.wrapV dv)))))
    Facts₀.shapeCasts_S268435456_S16384x16384

theorem a2_v40 (V : Valuation τ sig (Elt Ideal)) :
    (StableHlo.after hostOps0_2 V (Proc.devRef .tc main_v40) : FVec Ideal S16384x16384 .f32)
      = hostA' (V (Proc.devRef .tc main_v5)) (V (Proc.devRef .tc main_v6)) (V (Proc.devRef .tc main_v8))
          (V (Proc.devRef .tc main_v17)) := by
  simp (disch := decide) only [StableHlo.after_cons, StableHlo.after_nil, StableHlo.nullary_result',
    StableHlo.unary_result', StableHlo.binary_result', StableHlo.ternary_result', StableHlo.reshape_result',
    StableHlo.nullary_result_ne', StableHlo.unary_result_ne', StableHlo.binary_result_ne', StableHlo.ternary_result_ne',
    StableHlo.reshape_result_ne', cat2_def]
  rfl

/-- after the host lines before the first kernel call, the matrix buffer holds the dense matrix of the edge list and
    edge weights the program was launched with -/
theorem U3_v40 (v : Valuation τ sig (Elt Ideal)) :
    (StableHlo.after hostOps0_2 (StableHlo.after hostOps0_1 (StableHlo.after hostOps0 v)) (Proc.devRef .tc main_v40)
        : FVec Ideal S16384x16384 .f32)
      = hostA (v (Proc.devRef .tc main_arg1)) (v (Proc.devRef .tc main_arg2)) := by
  have k5 : StableHlo.after hostOps0_1 (StableHlo.after hostOps0 v) (Proc.devRef .tc main_v5)
      = StableHlo.after hostOps0 v (Proc.devRef .tc main_v5) :=
    StableHlo.after_of_writes_sub hostOps0_1 _ hostOps0_1_writes (by decide)
  have k6 : StableHlo.after hostOps0_1 (StableHlo.after hostOps0 v) (Proc.devRef .tc main_v6)
      = StableHlo.after hostOps0 v (Proc.devRef .tc main_v6) :=
    StableHlo.after_of_writes_sub hostOps0_1 _ hostOps0_1_writes (by decide)
  have k8 : StableHlo.after hostOps0_1 (StableHlo.after hostOps0 v) (Proc.devRef .tc main_v8)
      = StableHlo.after hostOps0 v (Proc.devRef .tc main_v8) :=
    StableHlo.after_of_writes_sub hostOps0_1 _ hostOps0_1_writes (by decide)
  rw [a2_v40, k5, k6, k8, a1_v17, a0_v5, a0_v6, a0_v8, a0_v13, a0_v16, a0_cst3]
  rfl

/-- no host line before the first kernel call writes the features -/
theorem U3_arg0 (v : Valuation τ sig (Elt Ideal)) :
    StableHlo.after hostOps0_2 (StableHlo.after hostOps0_1 (StableHlo.after hostOps0 v)) (Proc.devRef .tc main_arg0)
      = v (Proc.devRef .tc main_arg0) :=
  (StableHlo.after_of_writes_sub hostOps0_2 _ hostOps0_2_writes (by decide)).trans <|
    (StableHlo.after_of_writes_sub hostOps0_1 _ hostOps0_1_writes (by decide)).trans <|
      StableHlo.after_of_writes_sub hostOps0 _ hostOps0_writes (by decide)

/-- two 32-bit integers whose signed readings are naturals below 16384: the first times 16384 plus the second does not
    wrap, its signed reading is the natural number first * 16384 + second -/
theorem flat_toInt (a b : BitVec 32) (σ δ : ℕ) (hσ : σ < 16384) (hδ : δ < 16384)
    (ha : a.toInt = ((σ : ℕ) : Int)) (hb : b.toInt = ((δ : ℕ) : Int)) :
    (a * 16384#32 + b).toInt = (((σ * 16384 + δ : ℕ)) : Int) := by
  have hA := BitVec.toInt_eq_toNat_cond a
  have hB := BitVec.toInt_eq_toNat_cond b
  have hC := BitVec.toInt_eq_toNat_cond (a * 16384#32 + b)
  have hAl := a.isLt
  have hBl := b.isLt
  simp only [BitVec.toNat_add, BitVec.toNat_mul, BitVec.toNat_ofNat] at hC
  split_ifs at hA hB hC <;> omega

/-- the zero vector reads zero everywhere -/
theorem zeros_apply (i : S268435456.Idx) :
    broadcastInDim S268435456 ![] Facts₀.bcast_S_S268435456 (constant (F := Ideal) S_ .f32 0x00000000#32) i = 0 := by
  rw [broadcastInDim_apply _ Facts₀.bcast_S_S268435456 _ i (fun a => a.elim0) (fun a => a.elim0)]
  exact Ideal.ofBits_zero_f32

/-- the flat position of edge e, read signed, is source * 16384 + destination -/
theorem flatV_toInt (ei : IVec S2x1048576 32) (src dst : Fin 1064960 → Fin 16384)
    (hsrc : ∀ e, (Cert.Shared.srcV ei (ix1 e)).toInt = ((src e).val : Int))
    (hdst : ∀ e, (Cert.Shared.dstV ei (ix1 e)).toInt = ((dst e).val : Int)) (e : Fin 1064960) :
    (flatV ei (ix1 e)).toInt = ((((src e).val * 16384 + (dst e).val : ℕ)) : Int) := by
  have hc : broadcastInDim S1064960 ![] Facts₀.bcast_S_S1064960 (constantI S_ 32 16384#32) (ix1 e) = 16384#32 := by
    rw [broadcastInDim_apply _ Facts₀.bcast_S_S1064960 _ (ix1 e) (fun a => a.elim0) (fun a => a.elim0)]
    rfl
  show (IntOp.addi (IntOp.muli (Cert.Shared.srcV ei (ix1 e))
    (broadcastInDim S1064960 ![] Facts₀.bcast_S_S1064960 (constantI S_ 32 16384#32) (ix1 e))) (Cert.Shared.dstV ei (ix1 e))).toInt = _
  rw [hc]
  exact flat_toInt _ _ _ _ (src e).isLt (dst e).isLt (hsrc e) (hdst e)

/-- the index array of the flat scatter, at row e, is the flat position of edge e -/
theorem flatIdx_apply (ei : IVec S2x1048576 32) (e : Fin 1064960) :
    broadcastInDim S1064960x1 ![0] Facts₀.bcast_S1064960_S1064960x1_0 (flatV ei) (ix2 e (0 : Fin 1)) = flatV ei (ix1 e) :=
  broadcastInDim_apply _ Facts₀.bcast_S1064960_S1064960x1_0 (flatV ei) (ix2 e (0 : Fin 1)) (ix1 e) (fun a => match a with
    | ⟨0, _⟩ => by show e.val = if (1064960 : Nat) = 1 then 0 else e.val; rw [if_neg (by decide)])

/-- THE DENSE MATRIX AT AN ENTRY: entry (s, d) is the sum of the normalised weights of the edges from s to d. -/
theorem hostA_apply (ei : IVec S2x1048576 32) (w : FVec Ideal S1048576 .f32)
    (src dst : Fin 1064960 → Fin 16384) (nr : Fin 1064960 → ℝ)
    (hsrc : ∀ e, (Cert.Shared.srcV ei (ix1 e)).toInt = ((src e).val : Int))
    (hdst : ∀ e, (Cert.Shared.dstV ei (ix1 e)).toInt = ((dst e).val : Int))
    (hnr : ∀ e, Cert.Shared.nrmV (F := Ideal) ei w (ix1 e) = ((nr e : ℝ) : EReal))
    (s d : Fin 16384) :
    hostA ei w (ix2 s d) = ((Cert.Spec.adj src dst nr s d : ℝ) : EReal) := by
  have hs := s.isLt
  have hd := d.isLt
  have hlt : s.val * 16384 + d.val < 268435456 := by omega
  unfold hostA
  rw [shapeCast_apply _ Facts₀.shapeCasts_S268435456_S16384x16384 (ix2 s d) (ix1 (⟨s.val * 16384 + d.val, hlt⟩ : Fin 268435456))
    (by rw [Shape.rowMajor_val_one, Shape.rowMajor_val_two]; rfl)]
  have key := Cert.Scatter1.scatterAdd_1d_apply (A := 268435456) (N := 1064960) (φ := .f32)
    Facts₀.scatter_S268435456_S1064960x1_S1064960_n_0_0_1_wf
    (broadcastInDim S268435456 ![] Facts₀.bcast_S_S268435456 (constant (F := Ideal) S_ .f32 0x00000000#32))
    (broadcastInDim S1064960x1 ![0] Facts₀.bcast_S1064960_S1064960x1_0 (flatV ei))
    (Cert.Shared.nrmV (F := Ideal) ei w) (⟨s.val * 16384 + d.val, hlt⟩ : Fin 268435456)
  refine key.trans ?_
  rw [zeros_apply, zero_add]
  unfold Cert.Spec.adj
  rw [Cert.Spec.coe_sum]
  have hf : (Finset.univ.filter (fun j : Fin 1064960 =>
        (broadcastInDim S1064960x1 ![0] Facts₀.bcast_S1064960_S1064960x1_0 (flatV ei) (ix2 j (0 : Fin 1))).toInt
          = (((⟨s.val * 16384 + d.val, hlt⟩ : Fin 268435456).val : ℕ) : Int)))
      = Finset.univ.filter (fun e : Fin 1064960 => src e = s ∧ dst e = d) := by
    refine Finset.filter_congr (fun j _ => ?_)
    rw [flatIdx_apply, flatV_toInt ei src dst hsrc hdst j]
    have h1 := (src j).isLt
    have h2 := (dst j).isLt
    constructor
    · intro h
      have h' : (src j).val * 16384 + (dst j).val = s.val * 16384 + d.val := Int.ofNat_inj.mp h
      exact ⟨Fin.ext (by omega), Fin.ext (by omega)⟩
    · rintro ⟨rfl, rfl⟩
      rfl
  rw [hf]
  exact Finset.sum_congr rfl (fun e _ => hnr e)

/-- between the kernel calls the first weight matrix is transposed: entry (s, j) is W1 (j, s) -/
theorem H1_v42 (v : Valuation τ sig (Elt Ideal)) (s : Fin 16384) (j : Fin 512) :
    (StableHlo.after hostOps1 v (Proc.devRef .tc main_v42) : S16384x512.Idx → EReal) (ix2 s j)
      = (v (Proc.devRef .tc main_arg3) : S512x16384.Idx → EReal) (ix2 j s) := by
  have h : (StableHlo.after hostOps1 v (Proc.devRef .tc main_v42) : FVec Ideal S16384x512 .f32)
      = transpose S16384x512 [1, 0] (v (Proc.devRef .tc main_arg3) : FVec Ideal S512x16384 .f32) Facts₀.transposes_S512x16384_S16384x512_1_0 := by
    after_results
  exact (congrFun h (ix2 s j)).trans
    (transpose_apply [1, 0] _ Facts₀.transposes_S512x16384_S16384x512_1_0 (ix2 s j) (ix2 j s) (fun c => match c with
      | ⟨0, _⟩ => rfl
      | ⟨1, _⟩ => rfl))

/-- the second weight matrix transposed: entry (i, j) is W2 (j, i) -/
theorem H1_v43 (v : Valuation τ sig (Elt Ideal)) (i : Fin 512) (j : Fin 512) :
    (StableHlo.after hostOps1 v (Proc.devRef .tc main_v43) : S512x512.Idx → EReal) (ix2 i j)
      = (v (Proc.devRef .tc main_arg5) : S512x512.Idx → EReal) (ix2 j i) := by
  have h : (StableHlo.after hostOps1 v (Proc.devRef .tc main_v43) : FVec Ideal S512x512 .f32)
      = transpose S512x512 [1, 0] (v (Proc.devRef .tc main_arg5) : FVec Ideal S512x512 .f32) Facts₀.transposes_S512x512_S512x512_1_0 := by
    after_results
  exact (congrFun h (ix2 i j)).trans
    (transpose_apply [1, 0] _ Facts₀.transposes_S512x512_S512x512_1_0 (ix2 i j) (ix2 j i) (fun c => match c with
      | ⟨0, _⟩ => rfl
      | ⟨1, _⟩ => rfl))

/-- the last weight matrix transposed: entry (j, c) is Wfc (c, j) -/
theorem H1_v44 (v : Valuation τ sig (Elt Ideal)) (j : Fin 512) (c : Fin 10) :
    (StableHlo.after hostOps1 v (Proc.devRef .tc main_v44) : S512x10.Idx → EReal) (ix2 j c)
      = (v (Proc.devRef .tc main_arg7) : S10x512.Idx → EReal) (ix2 c j) := by
  have h : (StableHlo.after hostOps1 v (Proc.devRef .tc main_v44) : FVec Ideal S512x10 .f32)
      = transpose S512x10 [1, 0] (v (Proc.devRef .tc main_arg7) : FVec Ideal S10x512 .f32) Facts₀.transposes_S10x512_S512x10_1_0 := by
    after_results
  exact (congrFun h (ix2 j c)).trans
    (transpose_apply [1, 0] _ Facts₀.transposes_S10x512_S512x10_1_0 (ix2 j c) (ix2 c j) (fun c => match c with
      | ⟨0, _⟩ => rfl
      | ⟨1, _⟩ => rfl))

/-- the first bias as a one-row matrix: entry (0, i) is b1 i -/
theorem H1_v45 (v : Valuation τ sig (Elt Ideal)) (i : Fin 512) :
    (StableHlo.after hostOps1 v (Proc.devRef .tc main_v45) : S1x512.Idx → EReal) (ix2 (0 : Fin 1) i)
      = (v (Proc.devRef .tc main_arg4) : S512.Idx → EReal) (ix1 i) := by
  have h : (StableHlo.after hostOps1 v (Proc.devRef .tc main_v45) : FVec Ideal S1x512 .f32)
      = shapeCast S1x512 (v (Proc.devRef .tc main_arg4) : FVec Ideal S512 .f32) Facts₀.shapeCasts_S512_S1x512 := by
    after_results
    rfl
  exact (congrFun h (ix2 (0 : Fin 1) i)).trans
    (shapeCast_apply _ Facts₀.shapeCasts_S512_S1x512 (ix2 (0 : Fin 1) i) (ix1 i) (by
      rw [Shape.rowMajor_val_one, Shape.rowMajor_val_two]
      show i.val = 0 * 512 + i.val
      omega))

/-- the second bias as a one-row matrix: entry (0, i) is b2 i -/
theorem H1_v46 (v : Valuation τ sig (Elt Ideal)) (i : Fin 512) :
    (StableHlo.after hostOps1 v (Proc.devRef .tc main_v46) : S1x512.Idx → EReal) (ix2 (0 : Fin 1) i)
      = (v (Proc.devRef .tc main_arg6) : S512.Idx → EReal) (ix1 i) := by
  have h : (StableHlo.after hostOps1 v (Proc.devRef .tc main_v46) : FVec Ideal S1x512 .f32)
      = shapeCast S1x512 (v (Proc.devRef .tc main_arg6) : FVec Ideal S512 .f32) Facts₀.shapeCasts_S512_S1x512 := by
    after_results
    rfl
  exact (congrFun h (ix2 (0 : Fin 1) i)).trans
    (shapeCast_apply _ Facts₀.shapeCasts_S512_S1x512 (ix2 (0 : Fin 1) i) (ix1 i) (by
      rw [Shape.rowMajor_val_one, Shape.rowMajor_val_two]
      show i.val = 0 * 512 + i.val
      omega))

/-- the last bias as a one-row matrix: entry (0, i) is bfc i -/
theorem H1_v47 (v : Valuation τ sig (Elt Ideal)) (i : Fin 10) :
    (StableHlo.after hostOps1 v (Proc.devRef .tc main_v47) : S1x10.Idx → EReal) (ix2 (0 : Fin 1) i)
      = (v (Proc.devRef .tc main_arg8) : S10.Idx → EReal) (ix1 i) := by
  have h : (StableHlo.after hostOps1 v (Proc.devRef .tc main_v47) : FVec Ideal S1x10 .f32)
      = shapeCast S1x10 (v (Proc.devRef .tc main_arg8) : FVec Ideal S10 .f32) Facts₀.shapeCasts_S10_S1x10 := by
    after_results
    rfl
  exact (congrFun h (ix2 (0 : Fin 1) i)).trans
    (shapeCast_apply _ Facts₀.shapeCasts_S10_S1x10 (ix2 (0 : Fin 1) i) (ix1 i) (by
      rw [Shape.rowMajor_val_one, Shape.rowMajor_val_two]
      show i.val = 0 * 10 + i.val
      omega))

/-- between the kernel calls every buffer other than the three transposes and the three one-row biases keeps its
    contents -/
theorem H1_keep (v : Valuation τ sig (Elt Ideal)) (b : Ref sig .tc)
    (hb : b ∉ ([main_v42, main_v43, main_v44, main_v45, main_v46, main_v47] : List (Ref sig .tc))) :
    StableHlo.after hostOps1 v (Proc.devRef .tc b) = v (Proc.devRef .tc b) :=
  StableHlo.after_of_writes_sub hostOps1 v hostOps1_writes hb

end Cert.KernelIdeal.Host

end
-- ==== Proof.KIFinal.lean ====
/-
  The kernel program's result at one entry, in terms of the real witnesses of the inputs: the first call leaves the
  features propagated through the dense adjacency matrix, (x A)[b, d] with A[s, d] the summed normalised weights of the
  edges from s to d; the second call applies the three affine layers to it, the first two followed by max(., 0), on
  the weight matrices as given (each handed to the call transposed). Together: the three layers of x A.
-/
import proofs.«429495_j14869176779093_2_alg».proof.Proof.KIRun
import proofs.«429495_j14869176779093_2_alg».proof.Proof.KIValue0
import proofs.«429495_j14869176779093_2_alg».proof.Proof.KIValue1
import proofs.«429495_j14869176779093_2_alg».proof.Proof.Witness
import proofs.«429495_j14869176779093_2_alg».proof.Proof.KIHost
import proofs.«429495_j14869176779093_2_alg».proof.Proof.Spec
import Idealize.ShloMosaic.Lib.ValueIdx

set_option maxRecDepth 16384

noncomputable section

open scoped BigOperators

namespace Cert.KernelIdeal.Gen

open Idealize.ShloMosaic Idealize.ShloMosaic.TcCoe Idealize.ShloMosaic.ValueIdx Idealize.SL.Sem

section Generic

variable [Cert.Shared.Facts]

/-- The result at an entry, given what the host lines before each call leave: the dense adjacency matrix in the first
    call's second operand, and in the second call's operands the weight matrices transposed and the biases as rows. -/
theorem kernel_apply_of (m : (ℓ : Loc nD τ sig) → Buf (Elt Ideal) ℓ) (ρ : Dev nD → PrngReg) (c : Dev nD)
    (w : Cert.Witness.W (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
    (hA : ∀ s d, (W3 m ρ c (Proc.devRef .tc main_v40) : S16384x16384.Idx → EReal) (ix2 s d)
      = ((Cert.Spec.adj w.src w.dst w.nr s d : ℝ) : EReal))
    (h42 : ∀ (s : Fin 16384) (j : Fin 512), (W5 m ρ c (Proc.devRef .tc main_v42) : S16384x512.Idx → EReal) (ix2 s j)
      = (m ((c : Thread nD τ).loc main_arg3) : S512x16384.Idx → EReal) (ix2 j s))
    (h43 : ∀ (i j : Fin 512), (W5 m ρ c (Proc.devRef .tc main_v43) : S512x512.Idx → EReal) (ix2 i j)
      = (m ((c : Thread nD τ).loc main_arg5) : S512x512.Idx → EReal) (ix2 j i))
    (h44 : ∀ (j : Fin 512) (k : Fin 10), (W5 m ρ c (Proc.devRef .tc main_v44) : S512x10.Idx → EReal) (ix2 j k)
      = (m ((c : Thread nD τ).loc main_arg7) : S10x512.Idx → EReal) (ix2 k j))
    (h45 : ∀ i : Fin 512, (W5 m ρ c (Proc.devRef .tc main_v45) : S1x512.Idx → EReal) (ix2 (0 : Fin 1) i)
      = (m ((c : Thread nD τ).loc main_arg4) : S512.Idx → EReal) (ix1 i))
    (h46 : ∀ j : Fin 512, (W5 m ρ c (Proc.devRef .tc main_v46) : S1x512.Idx → EReal) (ix2 (0 : Fin 1) j)
      = (m ((c : Thread nD τ).loc main_arg6) : S512.Idx → EReal) (ix1 j))
    (h47 : ∀ k : Fin 10, (W5 m ρ c (Proc.devRef .tc main_v47) : S1x10.Idx → EReal) (ix2 (0 : Fin 1) k)
      = (m ((c : Thread nD τ).loc main_arg8) : S10.Idx → EReal) (ix1 k))
    (b : Fin 128) (k : Fin 10) :
    ((dat1 (F := Ideal) (En1 m ρ) c).arrAt 7 cfg1.N : S128x10.Idx → EReal) (ix2 b k)
      = ((Cert.Spec.mlp (Cert.Spec.propDense w.xr (Cert.Spec.adj w.src w.dst w.nr)) w.W1r w.b1r w.W2r w.b2r w.Wfcr w.bfcr b k : ℝ) : EReal) := by
  have hx0 : ∀ b s, (En0 m ρ c main_arg0 : S128x16384.Idx → EReal) (ix2 b s) = ((w.xr b s : ℝ) : EReal) := fun b s =>
    (congrFun (W3_arg0 m ρ c) (ix2 b s)).trans (w.hx b s)
  have hh : ∀ b s, (En1 m ρ c main_v41 : S128x16384.Idx → EReal) (ix2 b s)
      = ((Cert.Spec.propDense w.xr (Cert.Spec.adj w.src w.dst w.nr) b s : ℝ) : EReal) := fun b s =>
    (congrFun (W5_v41 m ρ c) (ix2 b s)).trans (arr0_apply (En0 m ρ) c w.xr (Cert.Spec.adj w.src w.dst w.nr) hx0 hA b s)
  exact arr1_apply (En1 m ρ) c (Cert.Spec.propDense w.xr (Cert.Spec.adj w.src w.dst w.nr)) (fun s i => w.W1r i s) w.b1r
    (fun i j => w.W2r j i) w.b2r (fun j k => w.Wfcr k j) w.bfcr hh
    (fun s i => (h42 s i).trans (w.hW1 i s)) (fun i => (h45 i).trans (w.hb1 i))
    (fun i j => (h43 i j).trans (w.hW2 j i)) (fun j => (h46 j).trans (w.hb2 j))
    (fun j k => (h44 j k).trans (w.hWfc k j)) (fun k => (h47 k).trans (w.hbfc k)) b k

end Generic

variable [Cert.KernelIdeal.Facts]

/-- THE KERNEL PROGRAM'S RESULT AT AN ENTRY: the three layers of the features propagated through the dense adjacency
    matrix of the witnessed edges, over the reals. -/
theorem kernel_apply (m : (ℓ : Loc nD τ sig) → Buf (Elt Ideal) ℓ) (ρ : Dev nD → PrngReg) (c : Dev nD)
    (w : Cert.Witness.W (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
    (b : Fin 128) (k : Fin 10) :
    ((dat1 (F := Ideal) (En1 m ρ) c).arrAt 7 cfg1.N : S128x10.Idx → EReal) (ix2 b k)
      = ((Cert.Spec.mlp (Cert.Spec.propDense w.xr (Cert.Spec.adj w.src w.dst w.nr)) w.W1r w.b1r w.W2r w.b2r w.Wfcr w.bfcr b k : ℝ) : EReal) :=
  kernel_apply_of m ρ c w
    (fun s d => (congrFun (Cert.KernelIdeal.Host.U3_v40 (W0 m ρ c)) (ix2 s d)).trans
      (Cert.KernelIdeal.Host.hostA_apply (m ((c : Thread nD τ).loc main_arg1)) (m ((c : Thread nD τ).loc main_arg2)) w.src w.dst w.nr w.hsrc w.hdst w.hnr s d))
    (fun s j => (Cert.KernelIdeal.Host.H1_v42 (W4 m ρ c) s j).trans (congrFun (W4_arg3 m ρ c) (ix2 j s)))
    (fun i j => (Cert.KernelIdeal.Host.H1_v43 (W4 m ρ c) i j).trans (congrFun (W4_arg5 m ρ c) (ix2 j i)))
    (fun j k => (Cert.KernelIdeal.Host.H1_v44 (W4 m ρ c) j k).trans (congrFun (W4_arg7 m ρ c) (ix2 k j)))
    (fun i => (Cert.KernelIdeal.Host.H1_v45 (W4 m ρ c) i).trans (congrFun (W4_arg4 m ρ c) (ix1 i)))
    (fun j => (Cert.KernelIdeal.Host.H1_v46 (W4 m ρ c) j).trans (congrFun (W4_arg6 m ρ c) (ix1 j)))
    (fun k => (Cert.KernelIdeal.Host.H1_v47 (W4 m ρ c) k).trans (congrFun (W4_arg8 m ρ c) (ix1 k)))
    b k

end Cert.KernelIdeal.Gen

end
-- ==== Proof.RefValue.lean ====
/-
  The reference's result read at one entry. Its first lines are the shared normalisation; then each edge's source
  column of the features is gathered, scaled by the edge's weight and summed by destination; then three affine layers,
  the first two followed by max(., 0). With real inputs, in-range edges and real weights this is the edge-by-edge
  propagation followed by the three layers, over the reals.
-/
import proofs.«429495_j14869176779093_2_alg».proof.Proof.Gen.ReferenceIdeal.Run
import proofs.«429495_j14869176779093_2_alg».proof.Proof.Gen.ReferenceIdeal.Read
import proofs.«429495_j14869176779093_2_alg».proof.Proof.Shared
import proofs.«429495_j14869176779093_2_alg».proof.Proof.Spec
import proofs.«429495_j14869176779093_2_alg».proof.Proof.LibScatterRows
import proofs.«429495_j14869176779093_2_alg».proof.Proof.LibGather
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read

variable [Cert.ReferenceIdeal.Facts]

/-- the shared lines' shape relations are among the reference's -/
instance sharedFacts : Cert.Shared.Facts where
  slices0 := Facts₀.slices_S2x1048576_S1x1048576_0_0
  slices1 := Facts₀.slices_S2x1048576_S1x1048576_1_0
  casts := Facts₀.shapeCasts_S1x1048576_S1048576
  concat := Facts₀.concatenates_S1048576_S16384_S1064960_d0
  bc16384 := Facts₀.bcast_S_S16384
  bcE1 := Facts₀.bcast_S1064960_S1064960x1_0
  bcE := Facts₀.bcast_S_S1064960
  scat := Facts₀.scatter_S16384_S1064960x1_S1064960_n_0_0_1_wf
  gath := Facts₀.gather_S16384_S1064960x1_S1064960_n_0_n_n_0_1_1_wf

/-- the reference's sources, destinations and normalised weights are the shared ones: the same operations on the
    same arguments, term for term -/
theorem v5_eq (x1 : IVec S2x1048576 32) : val_main_v5 (F := Ideal) x1 = Cert.Shared.srcV x1 := rfl
theorem v6_eq (x1 : IVec S2x1048576 32) : val_main_v6 (F := Ideal) x1 = Cert.Shared.dstV x1 := rfl
theorem v33_eq (x1 : IVec S2x1048576 32) (x2 : FVec Ideal S1048576 .f32) :
    val_main_v33 (F := Ideal) x1 x2 = Cert.Shared.nrmV (F := Ideal) x1 x2 := rfl

/-- a finite sum of products of real coercions, plus a real coercion, is the coercion of the real sum of products plus
    the real -/
theorem layer_coe {K : ℕ} (h w : Fin K → ℝ) (bias : ℝ) (L R : Fin K → EReal) (Bv : EReal)
    (hL : ∀ k, L k = ((h k : ℝ) : EReal)) (hR : ∀ k, R k = ((w k : ℝ) : EReal)) (hB : Bv = ((bias : ℝ) : EReal)) :
    (∑ k, L k * R k) + Bv = (((∑ k, h k * w k) + bias : ℝ) : EReal) := by
  rw [EReal.coe_add, Cert.Spec.coe_sum, hB]
  congr 1
  refine Finset.sum_congr rfl (fun k _ => ?_)
  rw [hL, hR, EReal.coe_mul]

/-- the maximum of a real coercion and zero is the coercion of the real maximum -/
theorem max_coe_zero (r : ℝ) : max ((r : ℝ) : EReal) 0 = ((max r 0 : ℝ) : EReal) := by
  rw [← EReal.coe_zero]
  exact (EReal.coe_strictMono.monotone.map_max (a := r) (b := 0)).symm

/-- an entry whose signed reading is a natural number is not negative: the correction of negative entries leaves it -/
theorem v38_apply (x1 : IVec S2x1048576 32) (e : Fin 1064960) (s : Fin 16384)
    (h : (val_main_v5 (F := Ideal) x1 (ix1 e)).toInt = ((s.val : ℕ) : Int)) :
    val_main_v38 (F := Ideal) x1 (ix1 e) = val_main_v5 (F := Ideal) x1 (ix1 e) := by
  rw [val_main_v38_apply, val_main_v35_apply, val_main_v34_apply, val_main_c_7_apply]
  have hc : IntOp.cmpi .slt (val_main_v5 (F := Ideal) x1 (ix1 e)) 0#32 = 0#1 := by
    unfold IntOp.cmpi
    have hlt : (val_main_v5 (F := Ideal) x1 (ix1 e)).slt 0#32 = false := by
      rw [BitVec.slt, h]
      simp
    simp only [hlt]
    rfl
  rw [hc, select_zero]

/-- the index array of the column gather, at row e, is the corrected source of edge e -/
theorem v39_apply (x1 : IVec S2x1048576 32) (e : Fin 1064960) :
    val_main_v39 (F := Ideal) x1 (ix2 e (0 : Fin 1)) = val_main_v38 (F := Ideal) x1 (ix1 e) := by
  rw [val_main_v39_apply]
  congr 1
  funext a
  match a with
  | ⟨0, _⟩ => rfl

/-- the gathered features: entry (b, e) is the feature of the source node of edge e in row b -/
theorem v40_apply (x0 : FVec Ideal S128x16384 .f32) (x1 : IVec S2x1048576 32) (b : Fin 128) (e : Fin 1064960) (s : Fin 16384)
    (h : (Cert.Shared.srcV x1 (ix1 e)).toInt = ((s.val : ℕ) : Int)) :
    val_main_v40 (F := Ideal) x0 x1 (ix2 b e) = x0 (ix2 b s) := by
  have h5 : (val_main_v5 (F := Ideal) x1 (ix1 e)).toInt = ((s.val : ℕ) : Int) := by rw [v5_eq]; exact h
  have hidx : (val_main_v39 (F := Ideal) x1 (ix2 e (0 : Fin 1))).toInt = ((s.val : ℕ) : Int) := by
    rw [v39_apply, v38_apply x1 e s h5]; exact h5
  have hs : min (val_main_v39 (F := Ideal) x1 (ix2 e (0 : Fin 1))).toInt.toNat (16384 - 1) = s.val := by
    rw [hidx, Int.toNat_natCast]
    have := s.isLt
    omega
  have key := Cert.Gather.gather_cols_apply (B := 128) (A := 16384) (N := 1064960) (by norm_num)
    Facts₀.gather_S128x16384_S1064960x1_S128x1064960_0_1_n_n_1_1_1281_wf x0 (val_main_v39 (F := Ideal) x1) b e
  unfold val_main_v40
  refine key.trans ?_
  exact congrArg x0 (congrArg (fun t => ix2 b t) (Fin.ext hs))

/-- the broadcast weights: entry (b, e) is the normalised weight of edge e -/
theorem v42_apply (x1 : IVec S2x1048576 32) (x2 : FVec Ideal S1048576 .f32) (b : Fin 128) (e : Fin 1064960) :
    val_main_v42 (F := Ideal) x1 x2 (ix2 b e) = val_main_v33 (F := Ideal) x1 x2 (ix1 e) := by
  rw [val_main_v42_apply, val_main_v41_apply]
  congr 1
  funext a
  match a with
  | ⟨0, _⟩ => rfl

/-- the scaled rows: entry (e, b) is the source feature of edge e in row b times the edge's weight, a real -/
theorem v44_apply (x0 : FVec Ideal S128x16384 .f32) (x1 : IVec S2x1048576 32) (x2 : FVec Ideal S1048576 .f32)
    (xr : Fin 128 → Fin 16384 → ℝ) (hx : ∀ b s, x0 (ix2 b s) = ((xr b s : ℝ) : EReal))
    (src : Fin 1064960 → Fin 16384) (nr : Fin 1064960 → ℝ)
    (hsrc : ∀ e, (Cert.Shared.srcV x1 (ix1 e)).toInt = ((src e).val : Int))
    (hnr : ∀ e, Cert.Shared.nrmV (F := Ideal) x1 x2 (ix1 e) = ((nr e : ℝ) : EReal))
    (e : Fin 1064960) (b : Fin 128) :
    val_main_v44 (F := Ideal) x0 x1 x2 (ix2 e b) = ((xr b (src e) * nr e : ℝ) : EReal) := by
  rw [val_main_v44_apply]
  have hi : idx_main_v44 (ix2 e b) = ix2 b e := by
    funext a
    match a with
    | ⟨0, _⟩ => rfl
    | ⟨1, _⟩ => rfl
  rw [hi, val_main_v43_apply, Ideal.mulf_def, v40_apply x0 x1 b e (src e) (hsrc e), v42_apply, v33_eq, hnr, hx,
    EReal.coe_mul]

/-- the index array of the row scatter, at row e, is the destination of edge e -/
theorem v46_apply (x1 : IVec S2x1048576 32) (e : Fin 1064960) :
    val_main_v46 (F := Ideal) x1 (ix2 e (0 : Fin 1)) = Cert.Shared.dstV x1 (ix1 e) := by
  rw [val_main_v46_apply, v6_eq]
  congr 1
  funext a
  match a with
  | ⟨0, _⟩ => rfl

/-- the propagated features: entry (b, d) is the sum over the edges into d of the source feature times the weight -/
theorem v48_apply (x0 : FVec Ideal S128x16384 .f32) (x1 : IVec S2x1048576 32) (x2 : FVec Ideal S1048576 .f32)
    (xr : Fin 128 → Fin 16384 → ℝ) (hx : ∀ b s, x0 (ix2 b s) = ((xr b s : ℝ) : EReal))
    (src dst : Fin 1064960 → Fin 16384) (nr : Fin 1064960 → ℝ)
    (hsrc : ∀ e, (Cert.Shared.srcV x1 (ix1 e)).toInt = ((src e).val : Int))
    (hdst : ∀ e, (Cert.Shared.dstV x1 (ix1 e)).toInt = ((dst e).val : Int))
    (hnr : ∀ e, Cert.Shared.nrmV (F := Ideal) x1 x2 (ix1 e) = ((nr e : ℝ) : EReal))
    (b : Fin 128) (d : Fin 16384) :
    val_main_v48 (F := Ideal) x0 x1 x2 (ix2 b d) = ((Cert.Spec.propEdges xr src dst nr b d : ℝ) : EReal) := by
  rw [val_main_v48_apply]
  have hi : idx_main_v48 (ix2 b d) = ix2 d b := by
    funext a
    match a with
    | ⟨0, _⟩ => rfl
    | ⟨1, _⟩ => rfl
  rw [hi]
  have key := Cert.ScatterRows.scatterAdd_rows_apply (A := 16384) (C := 128) (N := 1064960) (φ := .f32)
    Facts₀.scatter_S16384x128_S1064960x1_S1064960x128_1_0_0_1_wf (val_main_v45 (F := Ideal)) (val_main_v46 (F := Ideal) x1)
    (val_main_v44 (F := Ideal) x0 x1 x2) d b
  unfold val_main_v47
  refine key.trans ?_
  rw [val_main_v45_apply, val_main_cst_9_apply, Ideal.ofBits_def, Ideal.ofBits_zero_f32, zero_add]
  unfold Cert.Spec.propEdges
  rw [Cert.Spec.coe_sum]
  have hf : (Finset.univ.filter (fun j : Fin 1064960 => (val_main_v46 (F := Ideal) x1 (ix2 j (0 : Fin 1))).toInt = ((d.val : ℕ) : Int)))
      = Finset.univ.filter (fun j : Fin 1064960 => dst j = d) := by
    refine Finset.filter_congr (fun j _ => ?_)
    rw [v46_apply, hdst]
    constructor
    · intro h
      exact Fin.ext (Int.ofNat_inj.mp h)
    · rintro rfl
      rfl
  rw [hf]
  refine Finset.sum_congr rfl (fun e _ => ?_)
  exact v44_apply x0 x1 x2 xr hx src nr hsrc hnr e b

/-- the first affine layer: entry (b, j) is the sum over the nodes k of h (b, k) * W1 (j, k), plus b1 j -/
theorem v53_apply (x0 : FVec Ideal S128x16384 .f32) (x1 : IVec S2x1048576 32) (x2 : FVec Ideal S1048576 .f32)
    (x3 : FVec Ideal S512x16384 .f32) (x4 : FVec Ideal S512 .f32)
    (h : Fin 128 → Fin 16384 → ℝ) (W1r : Fin 512 → Fin 16384 → ℝ) (b1r : Fin 512 → ℝ)
    (hh : ∀ b k, val_main_v48 (F := Ideal) x0 x1 x2 (ix2 b k) = ((h b k : ℝ) : EReal))
    (hW1 : ∀ j s, x3 (ix2 j s) = ((W1r j s : ℝ) : EReal)) (hb1 : ∀ j, x4 (ix1 j) = ((b1r j : ℝ) : EReal))
    (b : Fin 128) (j : Fin 512) :
    val_main_v53 (F := Ideal) x0 x1 x2 x3 x4 (ix2 b j) = ((Cert.Spec.layer h W1r b1r b j : ℝ) : EReal) := by
  rw [val_main_v53_apply, Ideal.addf_def, val_main_v50_apply]
  unfold Cert.Spec.layer
  refine layer_coe (fun k => h b k) (fun k => W1r j k) (b1r j) _ _ _ (fun k => ?_) (fun k => ?_) ?_
  · have hl : lidx_main_v50 (ix2 b j) k = ix2 b k := by
      funext a
      match a with
      | ⟨0, _⟩ => rfl
      | ⟨1, _⟩ => rfl
    rw [hl, hh]
  · have hr : idx_main_v49 (ridx_main_v50 (ix2 b j) k) = ix2 j k := by
      funext a
      match a with
      | ⟨0, _⟩ => rfl
      | ⟨1, _⟩ => rfl
    rw [val_main_v49_apply, hr, hW1]
  · have hi : idx_main_v51 (idx_main_v52 (ix2 b j)) = ix1 j := by
      funext a
      match a with
      | ⟨0, _⟩ => rfl
    rw [val_main_v52_apply, val_main_v51_apply, hi, hb1]

/-- the first max(., 0): the maximum with a zero everywhere -/
theorem v54_apply (x0 : FVec Ideal S128x16384 .f32) (x1 : IVec S2x1048576 32) (x2 : FVec Ideal S1048576 .f32)
    (x3 : FVec Ideal S512x16384 .f32) (x4 : FVec Ideal S512 .f32)
    (r : Fin 128 → Fin 512 → ℝ)
    (hr : ∀ b j, val_main_v53 (F := Ideal) x0 x1 x2 x3 x4 (ix2 b j) = ((r b j : ℝ) : EReal))
    (b : Fin 128) (j : Fin 512) :
    val_main_v54 (F := Ideal) x0 x1 x2 x3 x4 (ix2 b j) = ((max (r b j) 0 : ℝ) : EReal) := by
  rw [val_main_v54_apply, Ideal.maximumf_def, hr, val_main_call1_v0_apply, val_main_call1_cst_apply, Ideal.ofBits_def,
    Ideal.ofBits_zero_f32, max_coe_zero]

/-- the second affine layer: entry (b, j) is the sum over k of h (b, k) * W2 (j, k), plus b2 j -/
theorem v59_apply (x0 : FVec Ideal S128x16384 .f32) (x1 : IVec S2x1048576 32) (x2 : FVec Ideal S1048576 .f32)
    (x3 : FVec Ideal S512x16384 .f32) (x4 : FVec Ideal S512 .f32) (x5 : FVec Ideal S512x512 .f32) (x6 : FVec Ideal S512 .f32)
    (h : Fin 128 → Fin 512 → ℝ) (W2r : Fin 512 → Fin 512 → ℝ) (b2r : Fin 512 → ℝ)
    (hh : ∀ b k, val_main_v54 (F := Ideal) x0 x1 x2 x3 x4 (ix2 b k) = ((h b k : ℝ) : EReal))
    (hW2 : ∀ j i, x5 (ix2 j i) = ((W2r j i : ℝ) : EReal)) (hb2 : ∀ j, x6 (ix1 j) = ((b2r j : ℝ) : EReal))
    (b : Fin 128) (j : Fin 512) :
    val_main_v59 (F := Ideal) x0 x1 x2 x3 x4 x5 x6 (ix2 b j) = ((Cert.Spec.layer h W2r b2r b j : ℝ) : EReal) := by
  rw [val_main_v59_apply, Ideal.addf_def, val_main_v56_apply]
  unfold Cert.Spec.layer
  refine layer_coe (fun k => h b k) (fun k => W2r j k) (b2r j) _ _ _ (fun k => ?_) (fun k => ?_) ?_
  · have hl : lidx_main_v56 (ix2 b j) k = ix2 b k := by
      funext a
      match a with
      | ⟨0, _⟩ => rfl
      | ⟨1, _⟩ => rfl
    rw [hl, hh]
  · have hr : idx_main_v55 (ridx_main_v56 (ix2 b j) k) = ix2 j k := by
      funext a
      match a with
      | ⟨0, _⟩ => rfl
      | ⟨1, _⟩ => rfl
    rw [val_main_v55_apply, hr, hW2]
  · have hi : idx_main_v57 (idx_main_v58 (ix2 b j)) = ix1 j := by
      funext a
      match a with
      | ⟨0, _⟩ => rfl
    rw [val_main_v58_apply, val_main_v57_apply, hi, hb2]

/-- the second max(., 0) -/
theorem v60_apply (x0 : FVec Ideal S128x16384 .f32) (x1 : IVec S2x1048576 32) (x2 : FVec Ideal S1048576 .f32)
    (x3 : FVec Ideal S512x16384 .f32) (x4 : FVec Ideal S512 .f32) (x5 : FVec Ideal S512x512 .f32) (x6 : FVec Ideal S512 .f32)
    (r : Fin 128 → Fin 512 → ℝ)
    (hr : ∀ b j, val_main_v59 (F := Ideal) x0 x1 x2 x3 x4 x5 x6 (ix2 b j) = ((r b j : ℝ) : EReal))
    (b : Fin 128) (j : Fin 512) :
    val_main_v60 (F := Ideal) x0 x1 x2 x3 x4 x5 x6 (ix2 b j) = ((max (r b j) 0 : ℝ) : EReal) := by
  rw [val_main_v60_apply, Ideal.maximumf_def, hr, val_main_call2_v0_apply, val_main_call2_cst_apply, Ideal.ofBits_def,
    Ideal.ofBits_zero_f32, max_coe_zero]

/-- the last affine layer: entry (b, c) is the sum over k of h (b, k) * Wfc (c, k), plus bfc c -/
theorem v65_apply (x0 : FVec Ideal S128x16384 .f32) (x1 : IVec S2x1048576 32) (x2 : FVec Ideal S1048576 .f32)
    (x3 : FVec Ideal S512x16384 .f32) (x4 : FVec Ideal S512 .f32) (x5 : FVec Ideal S512x512 .f32) (x6 : FVec Ideal S512 .f32)
    (x7 : FVec Ideal S10x512 .f32) (x8 : FVec Ideal S10 .f32)
    (h : Fin 128 → Fin 512 → ℝ) (Wfcr : Fin 10 → Fin 512 → ℝ) (bfcr : Fin 10 → ℝ)
    (hh : ∀ b k, val_main_v60 (F := Ideal) x0 x1 x2 x3 x4 x5 x6 (ix2 b k) = ((h b k : ℝ) : EReal))
    (hWfc : ∀ c j, x7 (ix2 c j) = ((Wfcr c j : ℝ) : EReal)) (hbfc : ∀ c, x8 (ix1 c) = ((bfcr c : ℝ) : EReal))
    (b : Fin 128) (c : Fin 10) :
    val_main_v65 (F := Ideal) x0 x1 x2 x3 x4 x5 x6 x7 x8 (ix2 b c) = ((Cert.Spec.layer h Wfcr bfcr b c : ℝ) : EReal) := by
  rw [val_main_v65_apply, Ideal.addf_def, val_main_v62_apply]
  unfold Cert.Spec.layer
  refine layer_coe (fun k => h b k) (fun k => Wfcr c k) (bfcr c) _ _ _ (fun k => ?_) (fun k => ?_) ?_
  · have hl : lidx_main_v62 (ix2 b c) k = ix2 b k := by
      funext a
      match a with
      | ⟨0, _⟩ => rfl
      | ⟨1, _⟩ => rfl
    rw [hl, hh]
  · have hr : idx_main_v61 (ridx_main_v62 (ix2 b c) k) = ix2 c k := by
      funext a
      match a with
      | ⟨0, _⟩ => rfl
      | ⟨1, _⟩ => rfl
    rw [val_main_v61_apply, hr, hWfc]
  · have hi : idx_main_v63 (idx_main_v64 (ix2 b c)) = ix1 c := by
      funext a
      match a with
      | ⟨0, _⟩ => rfl
    rw [val_main_v64_apply, val_main_v63_apply, hi, hbfc]

/-- THE REFERENCE AT AN ENTRY. -/
theorem ref_apply (x0 : FVec Ideal S128x16384 .f32) (x1 : IVec S2x1048576 32) (x2 : FVec Ideal S1048576 .f32)
    (x3 : FVec Ideal S512x16384 .f32) (x4 : FVec Ideal S512 .f32) (x5 : FVec Ideal S512x512 .f32) (x6 : FVec Ideal S512 .f32)
    (x7 : FVec Ideal S10x512 .f32) (x8 : FVec Ideal S10 .f32)
    (xr : Fin 128 → Fin 16384 → ℝ) (W1r : Fin 512 → Fin 16384 → ℝ) (b1r : Fin 512 → ℝ) (W2r : Fin 512 → Fin 512 → ℝ)
    (b2r : Fin 512 → ℝ) (Wfcr : Fin 10 → Fin 512 → ℝ) (bfcr : Fin 10 → ℝ)
    (hx : ∀ b s, x0 (ix2 b s) = ((xr b s : ℝ) : EReal)) (hW1 : ∀ j s, x3 (ix2 j s) = ((W1r j s : ℝ) : EReal))
    (hb1 : ∀ j, x4 (ix1 j) = ((b1r j : ℝ) : EReal)) (hW2 : ∀ j i, x5 (ix2 j i) = ((W2r j i : ℝ) : EReal))
    (hb2 : ∀ j, x6 (ix1 j) = ((b2r j : ℝ) : EReal)) (hWfc : ∀ c j, x7 (ix2 c j) = ((Wfcr c j : ℝ) : EReal))
    (hbfc : ∀ c, x8 (ix1 c) = ((bfcr c : ℝ) : EReal))
    (src dst : Fin 1064960 → Fin 16384) (nr : Fin 1064960 → ℝ)
    (hsrc : ∀ e, (Cert.Shared.srcV x1 (ix1 e)).toInt = ((src e).val : Int))
    (hdst : ∀ e, (Cert.Shared.dstV x1 (ix1 e)).toInt = ((dst e).val : Int))
    (hnr : ∀ e, Cert.Shared.nrmV (F := Ideal) x1 x2 (ix1 e) = ((nr e : ℝ) : EReal))
    (b : Fin 128) (c : Fin 10) :
    val_main_v65 (F := Ideal) x0 x1 x2 x3 x4 x5 x6 x7 x8 (ix2 b c)
      = ((Cert.Spec.mlp (Cert.Spec.propEdges xr src dst nr) W1r b1r W2r b2r Wfcr bfcr b c : ℝ) : EReal) := by
  have h48 := v48_apply x0 x1 x2 xr hx src dst nr hsrc hdst hnr
  have h53 := v53_apply x0 x1 x2 x3 x4 _ W1r b1r h48 hW1 hb1
  have h54 := v54_apply x0 x1 x2 x3 x4 _ h53
  have h59 := v59_apply x0 x1 x2 x3 x4 x5 x6 _ W2r b2r h54 hW2 hb2
  have h60 := v60_apply x0 x1 x2 x3 x4 x5 x6 _ h59
  have h65 := v65_apply x0 x1 x2 x3 x4 x5 x6 x7 x8 _ Wfcr bfcr h60 hWfc hbfc
  exact h65 b c

end Cert.ReferenceIdeal.RefValue

end
-- ==== Proof.lean ====
/-
  The certificate's claim. Both kernels' frames come from one launch over @main's segments (three host stretches, the
  propagation product, a host stretch, the three layers), each kernel's body carrying an accumulator between grid points;
  the reference's frame is its run with the result dropped; each narrowing-and-widening pair the idealization removed is
  the identity on the extended reals; and the two idealized programs end with equal results because, for real inputs and
  in-range edges, the dense product with the scattered adjacency matrix is the edge-by-edge propagation.
-/
import proofs.«429495_j14869176779093_2_alg».proof.Defs
import proofs.«429495_j14869176779093_2_alg».proof.Proof.Gen.Kernel
import proofs.«429495_j14869176779093_2_alg».proof.Proof.Gen.KernelIdeal
import proofs.«429495_j14869176779093_2_alg».proof.Proof.Gen.ReferenceIdeal
import proofs.«429495_j14869176779093_2_alg».proof.Proof.Gen.Pre_finite_inputs
import proofs.«429495_j14869176779093_2_alg».proof.Proof.Gen.ReferenceIdeal.Run
import proofs.«429495_j14869176779093_2_alg».proof.Proof.Gen.ReferenceIdeal.Read
import proofs.«429495_j14869176779093_2_alg».proof.Proof.KRun
import proofs.«429495_j14869176779093_2_alg».proof.Proof.KIRun
import proofs.«429495_j14869176779093_2_alg».proof.Proof.KIFinal
import proofs.«429495_j14869176779093_2_alg».proof.Proof.RefValue
import proofs.«429495_j14869176779093_2_alg».proof.Proof.Witness
import proofs.«429495_j14869176779093_2_alg».proof.Proof.PreFacts
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Each removed pair narrows to bf16 and widens back: the identity on the extended reals. -/
theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16,
    IdealRules.truncf_extf.statement _ .f32 .bf16, IdealRules.truncf_extf.statement _ .f32 .bf16,
    IdealRules.truncf_extf.statement _ .f32 .bf16, IdealRules.truncf_extf.statement _ .f32 .bf16⟩

/-- Both idealized programs end, entry by entry, at the three layers of the propagated features: the kernel's dense
    propagation through the scattered adjacency matrix is the reference's edge-by-edge propagation. -/
theorem algebraic : Cert.algebraic_KernelIdeal_ReferenceIdeal := by
  intro m ρ m' ρ' hpre hagree
  refine ⟨fun c => (Cert.KernelIdeal.Gen.dat1 (F := Ideal) (Cert.KernelIdeal.Gen.En1 m ρ) c).arrAt 7 Cert.KernelIdeal.cfg1.N,
    Cert.KernelIdeal.Gen.run_value m ρ, ?_⟩
  refine (θ_run Cert.ReferenceIdeal.defs _ _).mono (fun _ h c => ⟨(h c).1.trans ?_, (h c).2⟩)
    (Cert.ReferenceIdeal.Value.run (F := Ideal) m' ρ')
  obtain ⟨w⟩ := Cert.Witness.exists_w _ _ _ _ _ _ _ _ _ (Cert.PreFacts.decode _ _ _ _ _ _ _ _ _ (hpre c))
  obtain ⟨h0, h1, h2, h3, h4, h5, h6, h7, h8⟩ := hagree c
  rw [Cert.ReferenceIdeal.Read.val_main_v65_eq, h0, h1, h2, h3, h4, h5, h6, h7, h8]
  funext i
  obtain ⟨b, k, rfl⟩ : ∃ (b : Fin 128) (k : Fin 10), i = ix2 b k := ⟨i 0, i 1, eq_ix2 i⟩
  refine (Cert.ReferenceIdeal.RefValue.ref_apply _ _ _ _ _ _ _ _ _ w.xr w.W1r w.b1r w.W2r w.b2r w.Wfcr w.bfcr
    w.hx w.hW1 w.hb1 w.hW2 w.hb2 w.hWfc w.hbfc w.src w.dst w.nr w.hsrc w.hdst w.hnr b k).trans ?_
  refine Eq.trans ?_ (Cert.KernelIdeal.Gen.kernel_apply m ρ c w b k).symm
  have hp : Cert.Spec.propEdges w.xr w.src w.dst w.nr = Cert.Spec.propDense w.xr (Cert.Spec.adj w.src w.dst w.nr) :=
    funext fun b => funext fun d => (Cert.Spec.propDense_adj w.xr w.src w.dst w.nr b d).symm
  rw [hp]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
